-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  IdealRules.named_const.Statement Cert.KernelIdeal.κ "neg_big" .f32 0xF149F2CA#32 ⊥
  ∧ IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x512 : Shape := ⟨3, ![64, 512, 512]⟩
abbrev S64 : Shape := ⟨1, ![64]⟩
abbrev S512x512 : Shape := ⟨2, ![512, 512]⟩
abbrev S512 : Shape := ⟨1, ![512]⟩
abbrev S_ : Shape := ⟨0, ![]⟩

class Facts : Prop where
  bcast_S_S64x512x512 : S_.BroadcastsInDim S64x512x512 (![] : Fin 0 → Fin S64x512x512.rank)
  reducesTo_S64x512x512_S_d0_1_2 : S64x512x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg5 : FVec F S512x512 .f32) (main_arg6 : FVec F S512 .f32) (main_arg7 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg5
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg7
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  main_v33

def fn {F : FTy → Type} [FloatOps F] (main_arg0 : FVec F S64x512x512 .f32) (main_arg1 : IVec S64 32) (main_arg2 : FVec F S512x512 .f32) (main_arg3 : FVec F S512x512 .f32) (main_arg4 : FVec F S512 .f32) (main_arg5 : FVec F S512x512 .f32) (main_arg6 : FVec F S512 .f32) (main_arg7 : FVec F S512 .f32) : IVec S_ 1 :=
  let main_v0 : FVec F S64x512x512 .f32 := Host.absf main_arg0
  let main_cst : FVec F S_ .f32 := constant S_ .f32 0x7F800000#32
  let main_v1 : FVec F S64x512x512 .f32 := broadcastInDim S64x512x512 ![] bcast_S_S64x512x512 main_cst
  let main_v2 : IVec S64x512x512 1 := cmpf .olt main_v0 main_v1
  let main_c : IVec S_ 1 := constantI S_ 1 1#1
  let main_v3 : IVec S_ 1 := (fun x v => Host.reduce IntOp.andi x v reducesTo_S64x512x512_S_d0_1_2 h_S_) main_v2 main_c
  let main_v4 : FVec F S512x512 .f32 := Host.absf main_arg2
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512x512 .f32 := Host.absf main_arg3
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg5 main_arg6 main_arg7 main_v13 main_v16
-- ==== Kernel.lean ====
abbrev S64x512x512 : Shape := ⟨3, ![64, 512, 512]⟩
abbrev S64 : Shape := ⟨1, ![64]⟩
abbrev S512x512 : Shape := ⟨2, ![512, 512]⟩
abbrev S512 : Shape := ⟨1, ![512]⟩
abbrev S_ : Shape := ⟨0, ![]⟩
abbrev S2x512x512 : Shape := ⟨3, ![2, 512, 512]⟩
abbrev S1x512 : Shape := ⟨2, ![1, 512]⟩
abbrev S1 : Shape := ⟨1, ![1]⟩
abbrev S1x512x512 : Shape := ⟨3, ![1, 512, 512]⟩
abbrev S512x1 : Shape := ⟨2, ![512, 1]⟩

abbrev nBuf : Space → Nat
  | .hbm => 24
  | .vmem => 10
  | .smem => 1
  | _ => 0

abbrev bufTy : (tb : Table) → Fin (tcTables nBuf tb) → BufTy
  | .hbm, ⟨0, _⟩ => ⟨S64x512x512, .f32⟩
  | .hbm, ⟨1, _⟩ => ⟨S512x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512, .f32⟩
  | .hbm, ⟨7, _⟩ => ⟨S512x512, .bf16⟩
  | .hbm, ⟨8, _⟩ => ⟨S_, .f32⟩
  | .hbm, ⟨9, _⟩ => ⟨S512x512, .f32⟩
  | .hbm, ⟨10, _⟩ => ⟨S512x512, .f32⟩
  | .hbm, ⟨11, _⟩ => ⟨S512x512, .bf16⟩
  | .hbm, ⟨12, _⟩ => ⟨S_, .f32⟩
  | .hbm, ⟨13, _⟩ => ⟨S512, .f32⟩
  | .hbm, ⟨14, _⟩ => ⟨S512, .f32⟩
  | .hbm, ⟨15, _⟩ => ⟨S_, .f32⟩
  | .hbm, ⟨16, _⟩ => ⟨S512x512, .f32⟩
  | .hbm, ⟨17, _⟩ => ⟨S512x512, .f32⟩
  | .hbm, ⟨18, _⟩ => ⟨S512x512, .f32⟩
  | .hbm, ⟨19, _⟩ => ⟨S512x512, .bf16⟩
  | .hbm, ⟨20, _⟩ => ⟨S_, .f32⟩
  | .hbm, ⟨21, _⟩ => ⟨S512, .f32⟩
  | .hbm, ⟨22, _⟩ => ⟨S512, .f32⟩
  | .hbm, ⟨23, _⟩ => ⟨S64x512x512, .f32⟩
  | .local _ .vmem, ⟨0, _⟩ => ⟨S2x512x512, .f32⟩
  | .local _ .vmem, ⟨1, _⟩ => ⟨S2x512x512, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512, .f32⟩
  | .local _ .vmem, ⟨6, _⟩ => ⟨S512, .f32⟩
  | .local _ .vmem, ⟨7, _⟩ => ⟨S512, .f32⟩
  | .local _ .vmem, ⟨8, _⟩ => ⟨S2x512x512, .f32⟩
  | .local _ .vmem, ⟨9, _⟩ => ⟨S2x512x512, .f32⟩
  | .local _ .smem, ⟨0, _⟩ => ⟨S64, .i32⟩
  | _, _ => ⟨S64x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32 : BitVec 32) : Fin 1 → Nat :=
  let arg0 : BitVec 32 := BitVec.ofNat 32 (i 0).val
  let c2_i32 : BitVec 32 := 2#32
  let v12 : BitVec 32 := Scalar.muli arg0 c2_i32
  let v13 : BitVec 32 := Scalar.addi v12 c0_i32
  let v14 : Index := Scalar.indexCast v13
  ![v14.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bitsLt_bf16_f32 : FTy.bits .bf16 < FTy.bits .f32
  bcast_S_S512x512 : S_.BroadcastsInDim S512x512 (![] : Fin 0 → Fin S512x512.rank)
  bcast_S_S512 : S_.BroadcastsInDim S512 (![] : Fin 0 → Fin S512.rank)
  transposes_S512x512_S512x512_1_0 : S512x512.Transposes [1, 0] S512x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512_S512_0 : ∀ a, (![0] : Fin 1 → Nat) a + S512.size a ≤ S512.size a
  h_S512 : 0 < S512.numel
  shapeCasts_S512_S512 : S512.ShapeCasts S512
  iota_S1x512_d1_w32 : S1x512.Iotas .tc 32 [1]
  numel1_S1 : S1.numel = 1
  inb_S2x512x512_S1x512x512_0_0_0 : ∀ a, (![0, 0, 0] : Fin 3 → Nat) a + S1x512x512.size a ≤ S2x512x512.size a
  h_S1x512x512 : 0 < S1x512x512.numel
  shapeCasts_S1x512x512_S512x512 : S1x512x512.ShapeCasts S512x512
  shapeCasts_S512_S512x1 : S512.ShapeCasts S512x1
  broadcasts_S512x1_S512x512 : S512x1.Broadcasts S512x512
  transposes_S512x512_p1_0_S512x512 : S512x512.Transposes [1, 0] S512x512
  shapeCasts_S512_S1x512 : S512.ShapeCasts S1x512
  broadcasts_S1x512_S512x512 : S1x512.Broadcasts S512x512
  reduces_S512x512_S512 : S512x512.Reduces [1] S512
  shapeCasts_S512x512_S1x512x512 : S512x512.ShapeCasts S1x512x512
  inb_S2x512x512_S1x512x512_1_0_0 : ∀ a, (![1, 0, 0] : Fin 3 → Nat) a + S1x512x512.size a ≤ S2x512x512.size a
  dot_S512x512_S512x512_S512x512_1_0_0_1_n_n_wf : DotDims.WF S512x512 S512x512 S512x512 [1] [0] [0] [1] [] []
  hrank0 : 0 < grid0.rank
  k0_off1_inb : ∀ i : grid0.Coords, ∀ (r : Fin 2), ∀ a, (k0_off1 i (BitVec.ofNat 32 r.val)) a + S1.size a ≤ S64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x512x512.size a ≤ S64x512x512.size a
  hwx0_0 : ∀ i : grid0.Coords, EltTy.bits .f32 = 32 ∨ (Rect.block (s := S64x512x512) S2x512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512.size a ≤ S512.size a
  hwx0_6 : ∀ i : grid0.Coords, EltTy.bits .f32 = 32 ∨ (Rect.block (s := S512) S512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2x512x512.size a ≤ S64x512x512.size a
  hwx0_7 : ∀ i : grid0.Coords, EltTy.bits .f32 = 32 ∨ (Rect.block (s := S64x512x512) S2x512x512.size (cc0_transform_7 i) (hinb0_7 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev spec0_0 : Pipeline.WinSpec sig grid0.rank :=
  Pipeline.WinSpec.ofSpec (Memref.whole main_arg0) S2x512x512.size reads0_0 false false 2 stage0_0 sem0_0 nbuf0_0 hstage0_0

abbrev spec0_1 : Pipeline.WinSpec sig grid0.rank :=
  Pipeline.WinSpec.ofSpec (Memref.whole main_v0) S512x512.size reads0_1 false true 1 stage0_1 sem0_1 nbuf0_1 hstage0_1

abbrev spec0_2 : Pipeline.WinSpec sig grid0.rank :=
  Pipeline.WinSpec.ofSpec (Memref.whole main_v3) S512x512.size reads0_2 false true 1 stage0_2 sem0_2 nbuf0_2 hstage0_2

abbrev spec0_3 : Pipeline.WinSpec sig grid0.rank :=
  Pipeline.WinSpec.ofSpec (Memref.whole main_v9) S512x512.size reads0_3 false true 1 stage0_3 sem0_3 nbuf0_3 hstage0_3

abbrev spec0_4 : Pipeline.WinSpec sig grid0.rank :=
  Pipeline.WinSpec.ofSpec (Memref.whole main_v5) S512.size reads0_4 false true 1 stage0_4 sem0_4 nbuf0_4 hstage0_4

abbrev spec0_5 : Pipeline.WinSpec sig grid0.rank :=
  Pipeline.WinSpec.ofSpec (Memref.whole main_v11) S512.size reads0_5 false true 1 stage0_5 sem0_5 nbuf0_5 hstage0_5

abbrev spec0_6 : Pipeline.WinSpec sig grid0.rank :=
  Pipeline.WinSpec.ofSpec (Memref.whole main_arg7) S512.size reads0_6 false true 1 stage0_6 sem0_6 nbuf0_6 hstage0_6

abbrev spec0_7 : Pipeline.WinSpec sig grid0.rank :=
  Pipeline.WinSpec.ofSpec (Memref.whole main_v12) S2x512x512.size reads0_7 true false 2 stage0_7 sem0_7 nbuf0_7 hstage0_7

abbrev spec0 : Fin 8 → Pipeline.WinSpec sig grid0.rank := fun | 0 => spec0_0 | 1 => spec0_1 | 2 => spec0_2 | 3 => spec0_3 | 4 => spec0_4 | 5 => spec0_5 | 6 => spec0_6 | 7 => spec0_7 | ⟨_ + 8, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | 6 => nbuf0_6 | 7 => nbuf0_7 | ⟨_ + 8, h⟩ => absurd h (Nat.not_lt.2 (Nat.le_add_left _ _))
abbrev ix0 (pf : pre0.Contents (Elt F)) : (w : Fin 8) → grid0.Coords → Fin (spec0 w).shape.rank → Nat := fun | 0 => cc0_transform_0 | 1 => cc0_transform_1 | 2 => cc0_transform_2 | 3 => cc0_transform_3 | 4 => cc0_transform_4 | 5 => cc0_transform_5 | 6 => cc0_transform_6 | 7 => cc0_transform_7 | ⟨_ + 8, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 | 5 => hreads0_5 | 6 => hreads0_6 | 7 => hreads0_7 | ⟨_ + 8, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | 4 => hinb0_4 | 5 => hinb0_5 | 6 => hinb0_6 | 7 => hinb0_7 | ⟨_ + 8, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | 4 => hwx0_4 | 5 => hwx0_5 | 6 => hwx0_6 | 7 => hwx0_7 | ⟨_ + 8, h⟩ => absurd h (Nat.not_lt.2 (Nat.le_add_left _ _))

class Facts : Prop extends Facts₀ where
  harr0 : ∀ w, (spec0 w).arr.IsWhole

variable [Facts]
-- ==== ReferenceIdeal.lean ====
abbrev S64x512x512 : Shape := ⟨3, ![64, 512, 512]⟩
abbrev S64 : Shape := ⟨1, ![64]⟩
abbrev S512x512 : Shape := ⟨2, ![512, 512]⟩
abbrev S512 : Shape := ⟨1, ![512]⟩
abbrev S1x512 : Shape := ⟨2, ![1, 512]⟩
abbrev S64x1 : Shape := ⟨2, ![64, 1]⟩
abbrev S64x512 : Shape := ⟨2, ![64, 512]⟩
abbrev S_ : Shape := ⟨0, ![]⟩
abbrev S64x1x512 : Shape := ⟨3, ![64, 1, 512]⟩
abbrev S1x1x512 : Shape := ⟨3, ![1, 1, 512]⟩
abbrev S64x512x1 : Shape := ⟨3, ![64, 512, 1]⟩

abbrev nBuf : Space → Nat
  | .hbm => 200
  | .vmem => 0
  | .smem => 0
  | _ => 0

abbrev hbmTy0_0 (i : Nat) : BufTy := match i % 128 with
  | 0 => ⟨S64x512x512, .f32⟩
  | 1 => ⟨S64, .i32⟩
  | 2 => ⟨S512x512, .f32⟩
  | 3 => ⟨S512x512, .f32⟩
  | 4 => ⟨S512, .f32⟩
  | 5 => ⟨S512x512, .f32⟩
  | 6 => ⟨S512, .f32⟩
  | 7 => ⟨S512, .f32⟩
  | 8 => ⟨S512, .i32⟩
  | 9 => ⟨S1x512, .i32⟩
  | 10 => ⟨S64x1, .i32⟩
  | 11 => ⟨S64x512, .i32⟩
  | 12 => ⟨S64x512, .i32⟩
  | 13 => ⟨S64x512, .i1⟩
  | 14 => ⟨S_, .f32⟩
  | 15 => ⟨S_, .f32⟩
  | 16 => ⟨S64x512, .f32⟩
  | 17 => ⟨S64x512, .f32⟩
  | 18 => ⟨S64x512, .f32⟩
  | 19 => ⟨S64x1x512, .f32⟩
  | 20 => ⟨S64x512x512, .f32⟩
  | 21 => ⟨S64x512x512, .f32⟩
  | 22 => ⟨S64x512x512, .f32⟩
  | 23 => ⟨S1x1x512, .f32⟩
  | 24 => ⟨S64x512x512, .f32⟩
  | 25 => ⟨S64x512x512, .f32⟩
  | 26 => ⟨S64x512x512, .f32⟩
  | 27 => ⟨S1x1x512, .f32⟩
  | 28 => ⟨S64x512x512, .f32⟩
  | 29 => ⟨S64x512x512, .f32⟩
  | 30 => ⟨S64x512x512, .f32⟩
  | 31 => ⟨S64x512x512, .f32⟩
  | 32 => ⟨S_, .f32⟩
  | 33 => ⟨S64x512x512, .f32⟩
  | 34 => ⟨S64x512x512, .f32⟩
  | 35 => ⟨S_, .f32⟩
  | 36 => ⟨S_, .f32⟩
  | 37 => ⟨S64x512x512, .f32⟩
  | 38 => ⟨S64x512x512, .i1⟩
  | 39 => ⟨S_, .f32⟩
  | 40 => ⟨S64x512x512, .f32⟩
  | 41 => ⟨S64x512x512, .f32⟩
  | 42 => ⟨S64x512x512, .f32⟩
  | 43 => ⟨S64x1x512, .f32⟩
  | 44 => ⟨S64x512x512, .f32⟩
  | 45 => ⟨S64x512x512, .f32⟩
  | 46 => ⟨S_, .f32⟩
  | 47 => ⟨S64x512, .f32⟩
  | 48 => ⟨S_, .f32⟩
  | 49 => ⟨S64x512, .f32⟩
  | 50 => ⟨S64x512, .f32⟩
  | 51 => ⟨S64x512x1, .f32⟩
  | 52 => ⟨S64x512x512, .f32⟩
  | 53 => ⟨S64x512x512, .f32⟩
  | 54 => ⟨S64x512x512, .f32⟩
  | 55 => ⟨S_, .f32⟩
  | 56 => ⟨S64x512, .f32⟩
  | 57 => ⟨S64x512x1, .f32⟩
  | 58 => ⟨S64x512x512, .f32⟩
  | 59 => ⟨S64x512x512, .f32⟩
  | 60 => ⟨S64x512x512, .f32⟩
  | 61 => ⟨S64x512x512, .f32⟩
  | 62 => ⟨S1x1x512, .f32⟩
  | 63 => ⟨S64x512x512, .f32⟩
  | 64 => ⟨S64x512x512, .f32⟩
  | 65 => ⟨S_, .f32⟩
  | 66 => ⟨S64x512x512, .f32⟩
  | 67 => ⟨S64x512x512, .i1⟩
  | 68 => ⟨S_, .f32⟩
  | 69 => ⟨S64x512x512, .f32⟩
  | 70 => ⟨S64x512x512, .i1⟩
  | 71 => ⟨S_, .f32⟩
  | 72 => ⟨S_, .f32⟩
  | 73 => ⟨S64x512x512, .f32⟩
  | 74 => ⟨S64x512x512, .f32⟩
  | 75 => ⟨S64x512x512, .f32⟩
  | 76 => ⟨S_, .f32⟩
  | 77 => ⟨S64x512x512, .f32⟩
  | 78 => ⟨S64x512x512, .f32⟩
  | 79 => ⟨S64x512x512, .f32⟩
  | 80 => ⟨S64x512x512, .f32⟩
  | 81 => ⟨S64x512x512, .f32⟩
  | 82 => ⟨S64x512x512, .f32⟩
  | 83 => ⟨S1x1x512, .f32⟩
  | 84 => ⟨S64x512x512, .f32⟩
  | 85 => ⟨S64x512x512, .f32⟩
  | 86 => ⟨S64x512x512, .f32⟩
  | 87 => ⟨S1x1x512, .f32⟩
  | 88 => ⟨S64x512x512, .f32⟩
  | 89 => ⟨S64x512x512, .f32⟩
  | 90 => ⟨S64x512x512, .f32⟩
  | 91 => ⟨S64x512x512, .f32⟩
  | 92 => ⟨S_, .f32⟩
  | 93 => ⟨S64x512x512, .f32⟩
  | 94 => ⟨S64x512x512, .f32⟩
  | 95 => ⟨S_, .f32⟩
  | 96 => ⟨S_, .f32⟩
  | 97 => ⟨S64x512x512, .f32⟩
  | 98 => ⟨S64x512x512, .i1⟩
  | 99 => ⟨S_, .f32⟩
  | 100 => ⟨S64x512x512, .f32⟩
  | 101 => ⟨S64x512x512, .f32⟩
  | 102 => ⟨S64x512x512, .f32⟩
  | 103 => ⟨S64x1x512, .f32⟩
  | 104 => ⟨S64x512x512, .f32⟩
  | 105 => ⟨S64x512x512, .f32⟩
  | 106 => ⟨S_, .f32⟩
  | 107 => ⟨S64x512, .f32⟩
  | 108 => ⟨S_, .f32⟩
  | 109 => ⟨S64x512, .f32⟩
  | 110 => ⟨S64x512, .f32⟩
  | 111 => ⟨S64x512x1, .f32⟩
  | 112 => ⟨S64x512x512, .f32⟩
  | 113 => ⟨S64x512x512, .f32⟩
  | 114 => ⟨S64x512x512, .f32⟩
  | 115 => ⟨S_, .f32⟩
  | 116 => ⟨S64x512, .f32⟩
  | 117 => ⟨S64x512x1, .f32⟩
  | 118 => ⟨S64x512x512, .f32⟩
  | 119 => ⟨S64x512x512, .f32⟩
  | 120 => ⟨S64x512x512, .f32⟩
  | 121 => ⟨S64x512x512, .f32⟩
  | 122 => ⟨S1x1x512, .f32⟩
  | 123 => ⟨S64x512x512, .f32⟩
  | 124 => ⟨S64x512x512, .f32⟩
  | 125 => ⟨S_, .f32⟩
  | 126 => ⟨S64x512x512, .f32⟩
  | 127 => ⟨S64x512x512, .i1⟩
  | _ => ⟨S64x512x512, .f32⟩

abbrev hbmTy0_1 (i : Nat) : BufTy := match i % 128 with
  | 0 => ⟨S_, .f32⟩
  | 1 => ⟨S64x512x512, .f32⟩
  | 2 => ⟨S64x512x512, .i1⟩
  | 3 => ⟨S_, .f32⟩
  | 4 => ⟨S_, .f32⟩
  | 5 => ⟨S64x512x512, .f32⟩
  | 6 => ⟨S64x512x512, .f32⟩
  | 7 => ⟨S64x512x512, .f32⟩
  | 8 => ⟨S_, .f32⟩
  | 9 => ⟨S64x512x512, .f32⟩
  | 10 => ⟨S64x512x512, .f32⟩
  | 11 => ⟨S64x512x512, .f32⟩
  | 12 => ⟨S64x512x512, .f32⟩
  | 13 => ⟨S64x512x512, .f32⟩
  | 14 => ⟨S64x512x512, .f32⟩
  | 15 => ⟨S1x1x512, .f32⟩
  | 16 => ⟨S64x512x512, .f32⟩
  | 17 => ⟨S64x512x512, .f32⟩
  | 18 => ⟨S64x512x512, .f32⟩
  | 19 => ⟨S1x1x512, .f32⟩
  | 20 => ⟨S64x512x512, .f32⟩
  | 21 => ⟨S64x512x512, .f32⟩
  | 22 => ⟨S64x512x512, .f32⟩
  | 23 => ⟨S64x512x512, .f32⟩
  | 24 => ⟨S_, .f32⟩
  | 25 => ⟨S64x512x512, .f32⟩
  | 26 => ⟨S64x512x512, .f32⟩
  | 27 => ⟨S_, .f32⟩
  | 28 => ⟨S_, .f32⟩
  | 29 => ⟨S64x512x512, .f32⟩
  | 30 => ⟨S64x512x512, .i1⟩
  | 31 => ⟨S_, .f32⟩
  | 32 => ⟨S64x512x512, .f32⟩
  | 33 => ⟨S64x512x512, .f32⟩
  | 34 => ⟨S64x512x512, .f32⟩
  | 35 => ⟨S64x1x512, .f32⟩
  | 36 => ⟨S64x512x512, .f32⟩
  | 37 => ⟨S64x512x512, .f32⟩
  | 38 => ⟨S_, .f32⟩
  | 39 => ⟨S64x512, .f32⟩
  | 40 => ⟨S_, .f32⟩
  | 41 => ⟨S64x512, .f32⟩
  | 42 => ⟨S64x512, .f32⟩
  | 43 => ⟨S64x512x1, .f32⟩
  | 44 => ⟨S64x512x512, .f32⟩
  | 45 => ⟨S64x512x512, .f32⟩
  | 46 => ⟨S64x512x512, .f32⟩
  | 47 => ⟨S_, .f32⟩
  | 48 => ⟨S64x512, .f32⟩
  | 49 => ⟨S64x512x1, .f32⟩
  | 50 => ⟨S64x512x512, .f32⟩
  | 51 => ⟨S64x512x512, .f32⟩
  | 52 => ⟨S64x512x512, .f32⟩
  | 53 => ⟨S64x512x512, .f32⟩
  | 54 => ⟨S1x1x512, .f32⟩
  | 55 => ⟨S64x512x512, .f32⟩
  | 56 => ⟨S64x512x512, .f32⟩
  | 57 => ⟨S_, .f32⟩
  | 58 => ⟨S64x512x512, .f32⟩
  | 59 => ⟨S64x512x512, .i1⟩
  | 60 => ⟨S_, .f32⟩
  | 61 => ⟨S64x512x512, .f32⟩
  | 62 => ⟨S64x512x512, .i1⟩
  | 63 => ⟨S_, .f32⟩
  | 64 => ⟨S_, .f32⟩
  | 65 => ⟨S64x512x512, .f32⟩
  | 66 => ⟨S64x512x512, .f32⟩
  | 67 => ⟨S64x512x512, .f32⟩
  | 68 => ⟨S_, .f32⟩
  | 69 => ⟨S64x512x512, .f32⟩
  | 70 => ⟨S64x512x512, .f32⟩
  | 71 => ⟨S64x512x512, .f32⟩
  | _ => ⟨S64x512x512, .f32⟩

abbrev hbmTy (i : Nat) : BufTy := match i / 128 with
  | 0 => hbmTy0_0 i
  | 1 => hbmTy0_1 i
  | _ => ⟨S64x512x512, .f32⟩

abbrev bufTy : (tb : Table) → Fin (tcTables nBuf tb) → BufTy
  | .hbm, ⟨i, _⟩ => hbmTy i
  | _, _ => ⟨S64x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_1 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_call1_cst : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_3 : Ref sig .tc := ⟨.hbm, 46, rfl⟩
abbrev main_v26 : Ref sig .tc := ⟨.hbm, 47, rfl⟩
abbrev main_cst_4 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_5 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_call2_cst : Ref sig .tc := ⟨.hbm, 65, rfl⟩
abbrev main_call2_v0 : Ref sig .tc := ⟨.hbm, 66, rfl⟩
abbrev main_call2_v1 : Ref sig .tc := ⟨.hbm, 67, rfl⟩
abbrev main_call2_cst_0 : Ref sig .tc := ⟨.hbm, 68, rfl⟩
abbrev main_call2_v2 : Ref sig .tc := ⟨.hbm, 69, rfl⟩
abbrev main_call2_v3 : Ref sig .tc := ⟨.hbm, 70, rfl⟩
abbrev main_call2_cst_1 : Ref sig .tc := ⟨.hbm, 71, rfl⟩
abbrev main_call2_call0_v0 : Ref sig .tc := ⟨.hbm, 72, rfl⟩
abbrev main_call2_call0_v1 : Ref sig .tc := ⟨.hbm, 73, rfl⟩
abbrev main_call2_v4 : Ref sig .tc := ⟨.hbm, 74, rfl⟩
abbrev main_call2_v5 : Ref sig .tc := ⟨.hbm, 75, rfl⟩
abbrev main_call2_cst_2 : Ref sig .tc := ⟨.hbm, 76, rfl⟩
abbrev main_call2_v6 : Ref sig .tc := ⟨.hbm, 77, rfl⟩
abbrev main_call2_v7 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_cst_6 : Ref sig .tc := ⟨.hbm, 92, rfl⟩
abbrev main_v55 : Ref sig .tc := ⟨.hbm, 93, rfl⟩
abbrev main_v56 : Ref sig .tc := ⟨.hbm, 94, rfl⟩
abbrev main_cst_7 : Ref sig .tc := ⟨.hbm, 95, rfl⟩
abbrev main_call3_cst : Ref sig .tc := ⟨.hbm, 96, rfl⟩
abbrev main_call3_v0 : Ref sig .tc := ⟨.hbm, 97, rfl⟩
abbrev main_call3_v1 : Ref sig .tc := ⟨.hbm, 98, rfl⟩
abbrev main_call3_v2 : Ref sig .tc := ⟨.hbm, 99, rfl⟩
abbrev main_call3_v3 : Ref sig .tc := ⟨.hbm, 100, rfl⟩
abbrev main_call3_v4 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_cst_8 : Ref sig .tc := ⟨.hbm, 106, rfl⟩
abbrev main_v61 : Ref sig .tc := ⟨.hbm, 107, rfl⟩
abbrev main_cst_9 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_cst_10 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_call4_cst : Ref sig .tc := ⟨.hbm, 125, rfl⟩
abbrev main_call4_v0 : Ref sig .tc := ⟨.hbm, 126, rfl⟩
abbrev main_call4_v1 : Ref sig .tc := ⟨.hbm, 127, rfl⟩
abbrev main_call4_cst_0 : Ref sig .tc := ⟨.hbm, 128, rfl⟩
abbrev main_call4_v2 : Ref sig .tc := ⟨.hbm, 129, rfl⟩
abbrev main_call4_v3 : Ref sig .tc := ⟨.hbm, 130, rfl⟩
abbrev main_call4_cst_1 : Ref sig .tc := ⟨.hbm, 131, rfl⟩
abbrev main_call4_call0_v0 : Ref sig .tc := ⟨.hbm, 132, rfl⟩
abbrev main_call4_call0_v1 : Ref sig .tc := ⟨.hbm, 133, rfl⟩
abbrev main_call4_v4 : Ref sig .tc := ⟨.hbm, 134, rfl⟩
abbrev main_call4_v5 : Ref sig .tc := ⟨.hbm, 135, rfl⟩
abbrev main_call4_cst_2 : Ref sig .tc := ⟨.hbm, 136, rfl⟩
abbrev main_call4_v6 : Ref sig .tc := ⟨.hbm, 137, rfl⟩
abbrev main_call4_v7 : Ref sig .tc := ⟨.hbm, 138, rfl⟩
abbrev main_v77 : Ref sig .tc := ⟨.hbm, 139, rfl⟩
abbrev main_v78 : Ref sig .tc := ⟨.hbm, 140, rfl⟩
abbrev main_v79 : Ref sig .tc := ⟨.hbm, 141, rfl⟩
abbrev main_v80 : Ref sig .tc := ⟨.hbm, 142, rfl⟩
abbrev main_v81 : Ref sig .tc := ⟨.hbm, 143, rfl⟩
abbrev main_v82 : Ref sig .tc := ⟨.hbm, 144, rfl⟩
abbrev main_v83 : Ref sig .tc := ⟨.hbm, 145, rfl⟩
abbrev main_v84 : Ref sig .tc := ⟨.hbm, 146, rfl⟩
abbrev main_v85 : Ref sig .tc := ⟨.hbm, 147, rfl⟩
abbrev main_v86 : Ref sig .tc := ⟨.hbm, 148, rfl⟩
abbrev main_v87 : Ref sig .tc := ⟨.hbm, 149, rfl⟩
abbrev main_v88 : Ref sig .tc := ⟨.hbm, 150, rfl⟩
abbrev main_v89 : Ref sig .tc := ⟨.hbm, 151, rfl⟩
abbrev main_cst_11 : Ref sig .tc := ⟨.hbm, 152, rfl⟩
abbrev main_v90 : Ref sig .tc := ⟨.hbm, 153, rfl⟩
abbrev main_v91 : Ref sig .tc := ⟨.hbm, 154, rfl⟩
abbrev main_cst_12 : Ref sig .tc := ⟨.hbm, 155, rfl⟩
abbrev main_call5_cst : Ref sig .tc := ⟨.hbm, 156, rfl⟩
abbrev main_call5_v0 : Ref sig .tc := ⟨.hbm, 157, rfl⟩
abbrev main_call5_v1 : Ref sig .tc := ⟨.hbm, 158, rfl⟩
abbrev main_call5_v2 : Ref sig .tc := ⟨.hbm, 159, rfl⟩
abbrev main_call5_v3 : Ref sig .tc := ⟨.hbm, 160, rfl⟩
abbrev main_call5_v4 : Ref sig .tc := ⟨.hbm, 161, rfl⟩
abbrev main_v92 : Ref sig .tc := ⟨.hbm, 162, rfl⟩
abbrev main_v93 : Ref sig .tc := ⟨.hbm, 163, rfl⟩
abbrev main_v94 : Ref sig .tc := ⟨.hbm, 164, rfl⟩
abbrev main_v95 : Ref sig .tc := ⟨.hbm, 165, rfl⟩
abbrev main_cst_13 : Ref sig .tc := ⟨.hbm, 166, rfl⟩
abbrev main_v96 : Ref sig .tc := ⟨.hbm, 167, rfl⟩
abbrev main_cst_14 : Ref sig .tc := ⟨.hbm, 168, rfl⟩
abbrev main_v97 : Ref sig .tc := ⟨.hbm, 169, rfl⟩
abbrev main_v98 : Ref sig .tc := ⟨.hbm, 170, rfl⟩
abbrev main_v99 : Ref sig .tc := ⟨.hbm, 171, rfl⟩
abbrev main_v100 : Ref sig .tc := ⟨.hbm, 172, rfl⟩
abbrev main_v101 : Ref sig .tc := ⟨.hbm, 173, rfl⟩
abbrev main_v102 : Ref sig .tc := ⟨.hbm, 174, rfl⟩
abbrev main_cst_15 : Ref sig .tc := ⟨.hbm, 175, rfl⟩
abbrev main_v103 : Ref sig .tc := ⟨.hbm, 176, rfl⟩
abbrev main_v104 : Ref sig .tc := ⟨.hbm, 177, rfl⟩
abbrev main_v105 : Ref sig .tc := ⟨.hbm, 178, rfl⟩
abbrev main_v106 : Ref sig .tc := ⟨.hbm, 179, rfl⟩
abbrev main_v107 : Ref sig .tc := ⟨.hbm, 180, rfl⟩
abbrev main_v108 : Ref sig .tc := ⟨.hbm, 181, rfl⟩
abbrev main_v109 : Ref sig .tc := ⟨.hbm, 182, rfl⟩
abbrev main_v110 : Ref sig .tc := ⟨.hbm, 183, rfl⟩
abbrev main_v111 : Ref sig .tc := ⟨.hbm, 184, rfl⟩
abbrev main_call6_cst : Ref sig .tc := ⟨.hbm, 185, rfl⟩
abbrev main_call6_v0 : Ref sig .tc := ⟨.hbm, 186, rfl⟩
abbrev main_call6_v1 : Ref sig .tc := ⟨.hbm, 187, rfl⟩
abbrev main_call6_cst_0 : Ref sig .tc := ⟨.hbm, 188, rfl⟩
abbrev main_call6_v2 : Ref sig .tc := ⟨.hbm, 189, rfl⟩
abbrev main_call6_v3 : Ref sig .tc := ⟨.hbm, 190, rfl⟩
abbrev main_call6_cst_1 : Ref sig .tc := ⟨.hbm, 191, rfl⟩
abbrev main_call6_call0_v0 : Ref sig .tc := ⟨.hbm, 192, rfl⟩
abbrev main_call6_call0_v1 : Ref sig .tc := ⟨.hbm, 193, rfl⟩
abbrev main_call6_v4 : Ref sig .tc := ⟨.hbm, 194, rfl⟩
abbrev main_call6_v5 : Ref sig .tc := ⟨.hbm, 195, rfl⟩
abbrev main_call6_cst_2 : Ref sig .tc := ⟨.hbm, 196, rfl⟩
abbrev main_call6_v6 : Ref sig .tc := ⟨.hbm, 197, rfl⟩
abbrev main_call6_v7 : Ref sig .tc := ⟨.hbm, 198, rfl⟩
abbrev main_v112 : Ref sig .tc := ⟨.hbm, 199, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S64_S64x1_0 : S64.BroadcastsInDim S64x1 (![0] : Fin 1 → Fin S64x1.rank)
  bcast_S1x512_S64x512_0_1 : S1x512.BroadcastsInDim S64x512 (![0, 1] : Fin 2 → Fin S64x512.rank)
  bcast_S64x1_S64x512_0_1 : S64x1.BroadcastsInDim S64x512 (![0, 1] : Fin 2 → Fin S64x512.rank)
  bcast_S_S64x512 : S_.BroadcastsInDim S64x512 (![] : Fin 0 → Fin S64x512.rank)
  bcast_S64x512_S64x1x512_0_2 : S64x512.BroadcastsInDim S64x1x512 (![0, 2] : Fin 2 → Fin S64x1x512.rank)
  transposes_S64x512x512_S64x512x512_0_2_1 : S64x512x512.Transposes [0, 2, 1] S64x512x512
  bcast_S512_S1x1x512_2 : S512.BroadcastsInDim S1x1x512 (![2] : Fin 1 → Fin S1x1x512.rank)
  bcast_S1x1x512_S64x512x512_0_1_2 : S1x1x512.BroadcastsInDim S64x512x512 (![0, 1, 2] : Fin 3 → Fin S64x512x512.rank)
  bcast_S_S64x512x512 : S_.BroadcastsInDim S64x512x512 (![] : Fin 0 → Fin S64x512x512.rank)
  bcast_S64x1x512_S64x512x512_0_1_2 : S64x1x512.BroadcastsInDim S64x512x512 (![0, 1, 2] : Fin 3 → Fin S64x512x512.rank)
  reducesTo_S64x512x512_S64x512_d2 : S64x512x512.ReducesTo [2] S64x512
  h_S_ : 0 < S_.numel
  bcast_S64x512_S64x512x1_0_1 : S64x512.BroadcastsInDim S64x512x1 (![0, 1] : Fin 2 → Fin S64x512x1.rank)
  bcast_S64x512x1_S64x512x512_0_1_2 : S64x512x1.BroadcastsInDim S64x512x512 (![0, 1, 2] : Fin 3 → Fin S64x512x512.rank)
  dot_S64x512x512_S512x512_S64x512x512_2_1_01_0_n_n_wf : DotDims.WF S64x512x512 S512x512 S64x512x512 [2] [1] [0, 1] [0] [] []
  dot_S64x512x512_S64x512x512_S64x512x512_2_1_1_2_0_0_wf : DotDims.WF S64x512x512 S64x512x512 S64x512x512 [2] [1] [1] [2] [0] [0]

variable [Facts₀]

def dot_S64x512x512_S512x512_S64x512x512_2_1_01_0_n_n : DotDims S64x512x512 S512x512 S64x512x512 where
  lhsContracting := [2]
  rhsContracting := [1]
  lhsNonContracting := [0, 1]
  rhsNonContracting := [0]
  lhsBatch := []
  rhsBatch := []
  wf := dot_S64x512x512_S512x512_S64x512x512_2_1_01_0_n_n_wf
def dot_S64x512x512_S64x512x512_S64x512x512_2_1_1_2_0_0 : DotDims S64x512x512 S64x512x512 S64x512x512 where
  lhsContracting := [2]
  rhsContracting := [1]
  lhsNonContracting := [1]
  rhsNonContracting := [2]
  lhsBatch := [0]
  rhsBatch := [0]
  wf := dot_S64x512x512_S64x512x512_S64x512x512_2_1_1_2_0_0_wf

class Facts : Prop extends Facts₀ where

variable [Facts]
-- ==== Proof.Spec.lean ====
/-
  One attention step of the network as plain functions on the extended reals, in the two arrangements the two
  programs use, and the law that joins them.

  A matrix is a function of two coordinates below 512, a row a function of one. With hT = Wa · x (hT p e = ∑ n, Wa p n · x n e):
  * the kernel forms its logits from weights and biases that were multiplied by the scale c beforehand,
      zK i j = (∑ m, (c·Wb) i m · hT m j + c·bb i) + (∑ m, hT m i · (c·Wc)ᵀ m j + c·bc j);
  * the reference multiplies afterwards,
      zR i j = ((∑ m, hT m j · Wb i m + bb i) + (∑ m, hT m i · Wc j m + bc j)) · c.
  Both then apply the same map: leaky rectifier, the column mask added, a softmax along each row, the weighted sum with
  hT, the bias, and the exponential linear unit. For a scale that is a nonnegative real the product distributes over
  every sum of extended reals (no finiteness of the summands is needed), so zK = zR and the two steps agree.
-/
import Idealize.ShloMosaic.PureOps.Ideal
import Mathlib.Data.EReal.Operations

noncomputable section

open scoped BigOperators

namespace Cert.Spec

open Idealize.ShloMosaic

abbrev Mat := Fin 512 → Fin 512 → EReal
abbrev Row := Fin 512 → EReal

/-- The scale 512^(-1/2) as the f32 both programs hold. -/
def scale : EReal := Ideal.ofBits .f32 0x3D3504F3#32
/-- The rectifier's negative slope, the f32 nearest 0.2, in both programs. -/
def slope : EReal := Ideal.ofBits .f32 0x3E4CCCCD#32

/-- The additive column mask of a batch entry of length `len`: 0 on columns before `len` (signed), −∞ after. -/
def maskOf (len : BitVec 32) : Row := fun j =>
  Scalar.select (IntOp.cmpi .slt (BitVec.ofNat 32 j.val) len) (0 : EReal) ⊥

/-- The leaky rectifier. -/
def leaky (s x : EReal) : EReal := Scalar.select (Ideal.cmp .oge x 0) x (x * s)

/-- The exponential linear unit, the untaken branch computed on min x 0. -/
def elu (o : EReal) : EReal := Scalar.select (Ideal.cmp .ogt o 0) o (Ideal.exp (min o 0) - 1)

/-- A row's maximum, from −∞. -/
def rowMax (f : Row) : EReal := (Finset.univ : Finset (Fin 512)).fold max ⊥ f

/-- The softmax of a row at a column. -/
def soft (s : Row) (j : Fin 512) : EReal :=
  Ideal.div (Ideal.exp (s j - rowMax s)) (∑ k : Fin 512, Ideal.exp (s k - rowMax s))

/-- hT = Wa · x. -/
def hT (Wa x : Mat) : Mat := fun p e => ∑ n : Fin 512, Wa p n * x n e

/-- From the scaled logits `z` to the step's output. -/
def attend (s : EReal) (mask bias : Row) (h z : Mat) : Mat := fun i d =>
  elu ((∑ j : Fin 512, soft (fun j' => leaky s (z i j') + mask j') j * h j d) + bias d)

/-- The kernel's logits: scaled weights `WbS`, `WcST` (the latter transposed) and scaled biases. -/
def zK (WbS WcST : Mat) (bbS bcS : Row) (h : Mat) : Mat := fun i j =>
  ((∑ m : Fin 512, WbS i m * h m j) + bbS i) + ((∑ m : Fin 512, h m i * WcST m j) + bcS j)

/-- The reference's logits: the scale applied last. -/
def zR (c : EReal) (Wb Wc : Mat) (bb bc : Row) (h : Mat) : Mat := fun i j =>
  (((∑ m : Fin 512, h m j * Wb i m) + bb i) + ((∑ m : Fin 512, h m i * Wc j m) + bc j)) * c

/-- One step, the kernel's arrangement. -/
def stepK (s : EReal) (Wa WbS WcST : Mat) (bbS bcS bias mask : Row) (x : Mat) : Mat :=
  attend s mask bias (hT Wa x) (zK WbS WcST bbS bcS (hT Wa x))

/-- One step, the reference's arrangement. -/
def stepR (c s : EReal) (Wa Wb Wc : Mat) (bb bc bias mask : Row) (x : Mat) : Mat :=
  attend s mask bias (hT Wa x) (zR c Wb Wc bb bc (hT Wa x))

/-- Three applications. -/
def iter3 (f : Mat → Mat) (x : Mat) : Mat := f (f (f x))

/-- A nonnegative real factor distributes over a finite sum of extended reals. -/
theorem mul_sum_of_nonneg {c : EReal} (h0 : 0 ≤ c) (ht : c ≠ ⊤) (f : Fin 512 → EReal) :
    c * ∑ m : Fin 512, f m = ∑ m : Fin 512, c * f m := by
  classical
  refine Finset.induction_on (motive := fun s => c * ∑ m ∈ s, f m = ∑ m ∈ s, c * f m) Finset.univ (by simp) ?_
  intro a s ha ih
  rw [Finset.sum_insert ha, Finset.sum_insert ha, EReal.left_distrib_of_nonneg_of_ne_top h0 ht, ih]

theorem zK_scaled {c : EReal} (h0 : 0 ≤ c) (ht : c ≠ ⊤) (Wb Wc : Mat) (bb bc : Row) (h : Mat) :
    zK (fun i m => c * Wb i m) (fun m j => c * Wc j m) (fun i => c * bb i) (fun j => c * bc j) h = zR c Wb Wc bb bc h := by
  funext i j
  unfold zK zR
  -- the factor moves out of each product, then out of each sum, then out of the three additions
  have D := fun (y z : EReal) => EReal.left_distrib_of_nonneg_of_ne_top h0 ht y z
  have e1 : (∑ m : Fin 512, c * Wb i m * h m j) = ∑ m : Fin 512, c * (h m j * Wb i m) :=
    Finset.sum_congr rfl fun m _ => by rw [mul_assoc, mul_comm (Wb i m)]
  have e2 : (∑ m : Fin 512, h m i * (c * Wc j m)) = ∑ m : Fin 512, c * (h m i * Wc j m) :=
    Finset.sum_congr rfl fun m _ => by rw [mul_left_comm]
  rw [e1, e2, mul_comm _ c, D, D, D, mul_sum_of_nonneg h0 ht, mul_sum_of_nonneg h0 ht]

/-- The scale's pattern denotes a nonnegative real: sign 0, exponent field 122, fraction field 3474675. -/
theorem scale_real : ∃ r : ℝ, 0 ≤ r ∧ scale = (r : EReal) := by
  refine ⟨((2 ^ 23 + 3474675 : ℕ) : ℝ) * (2 : ℝ) ^ ((122 : ℤ) - 127 - 23), by positivity, ?_⟩
  simp [scale, Ideal.ofBits, Ideal.ieee]

theorem scale_nonneg : 0 ≤ scale := by
  obtain ⟨r, hr, h⟩ := scale_real
  rw [h]; exact EReal.coe_nonneg.mpr hr

theorem scale_ne_top : scale ≠ ⊤ := by
  obtain ⟨r, _, h⟩ := scale_real
  rw [h]; exact EReal.coe_ne_top r

/-- The two arrangements of a step agree when the kernel's weights are the reference's times the scale. -/
theorem stepK_scaled (s : EReal) (Wa Wb Wc : Mat) (bb bc bias mask : Row) (x : Mat) :
    stepK s Wa (fun i m => scale * Wb i m) (fun m j => scale * Wc j m) (fun i => scale * bb i) (fun j => scale * bc j) bias mask x
      = stepR scale s Wa Wb Wc bb bc bias mask x := by
  unfold stepK stepR
  rw [zK_scaled scale_nonneg scale_ne_top]

end Cert.Spec

end
-- ==== Proof.KStep.lean ====
/-
  The kernel's attention step as ONE function of vectors, written with the operations the kernel body applies, and
  what it computes at an index on the extended reals.
-/
import proofs.«421348_j78365973282924_2_alg».proof.KernelIdeal
import proofs.«421348_j78365973282924_2_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.IdealRules

noncomputable section

namespace Cert.KernelIdeal.Step

open Idealize.ShloMosaic Idealize.ShloMosaic.ValueIdx Cert.KernelIdeal Cert.KernelIdeal.Facts₀ Cert.KernelIdeal.Facts

section Defs

variable {F : FTy → Type} [FloatOps F] [Named F] [Facts]

/-- The column mask of a batch entry from its length word. -/
def kMask (len : Elt F .i32) : FVec F S1x512 .f32 :=
  select (cmpi .slt (iota .tc S1x512 32 [1] iota_S1x512_d1_w32) (broadcast S1x512 len))
    (broadcast S1x512 (Scalar.ofBits .f32 0x00000000#32 : F .f32))
    (broadcast S1x512 (Named.named κ "neg_big" 0xF149F2CA#32 : F .f32))

/-- hT = Wa · x. -/
def kHT (wa : FVec F S512x512 .bf16) (x : FVec F S512x512 .f32) : FVec F S512x512 .f32 :=
  matmul dot_S512x512_S512x512_S512x512_1_0_0_1_n_n none wa (truncf .bf16 x bitsLt_bf16_f32) (constant S512x512 .f32 0x00000000#32)

/-- The scaled logits. -/
def kZ (wb wc : FVec F S512x512 .bf16) (bbS bcS : FVec F S512 .f32) (h : FVec F S512x512 .f32) : FVec F S512x512 .f32 :=
  addf
    (addf (matmul dot_S512x512_S512x512_S512x512_1_0_0_1_n_n none wb (truncf .bf16 h bitsLt_bf16_f32) (constant S512x512 .f32 0x00000000#32))
      (broadcastTo S512x512 (shapeCast S512x1 bbS shapeCasts_S512_S512x1) broadcasts_S512x1_S512x512))
    (addf (matmul dot_S512x512_S512x512_S512x512_1_0_0_1_n_n none (transpose S512x512 [1, 0] (truncf .bf16 h bitsLt_bf16_f32) transposes_S512x512_p1_0_S512x512) wc (constant S512x512 .f32 0x00000000#32))
      (broadcastTo S512x512 (shapeCast S1x512 bcS shapeCasts_S512_S1x512) broadcasts_S1x512_S512x512))

/-- Leaky rectifier, then the mask. -/
def kS (mask : FVec F S1x512 .f32) (z : FVec F S512x512 .f32) : FVec F S512x512 .f32 :=
  addf (select (cmpf .oge z (broadcast S512x512 (Scalar.ofBits .f32 0x00000000#32 : F .f32))) z
      (mulf z (broadcast S512x512 (Scalar.ofBits .f32 0x3E4CCCCD#32 : F .f32))))
    (broadcastTo S512x512 mask broadcasts_S1x512_S512x512)

/-- Softmax along rows, the weighted sum with hT, the bias. -/
def kO (bias : FVec F S512 .f32) (h s : FVec F S512x512 .f32) : FVec F S512x512 .f32 :=
  have mx : FVec F S512x512 .f32 := broadcastTo S512x512 (shapeCast S512x1 (multiReduction .maximumf [1] S512 s 0xFF800000#32 reduces_S512x512_S512 (.inl rfl) rfl) shapeCasts_S512_S512x1) broadcasts_S512x1_S512x512
  have p : FVec F S512x512 .f32 := exp (subf s mx)
  have dn : FVec F S512x512 .f32 := broadcastTo S512x512 (shapeCast S512x1 (multiReduction .add [1] S512 p 0x00000000#32 reduces_S512x512_S512 (.inl rfl) rfl) shapeCasts_S512_S512x1) broadcasts_S512x1_S512x512
  addf (matmul dot_S512x512_S512x512_S512x512_1_0_0_1_n_n (some .fp32) (divf p dn) h (constant S512x512 .f32 0x00000000#32))
    (broadcastTo S512x512 (shapeCast S1x512 bias shapeCasts_S512_S1x512) broadcasts_S1x512_S512x512)

/-- The exponential linear unit. -/
def kElu (o : FVec F S512x512 .f32) : FVec F S512x512 .f32 :=
  select (cmpf .ogt o (broadcast S512x512 (Scalar.ofBits .f32 0x00000000#32 : F .f32))) o
    (subf (exp (minimumf o (broadcast S512x512 (Scalar.ofBits .f32 0x00000000#32 : F .f32)))) (broadcast S512x512 (Scalar.ofBits .f32 0x3F800000#32 : F .f32)))

/-- One step. -/
def kStep (wa wb wc : FVec F S512x512 .bf16) (bbS bcS bias : FVec F S512 .f32) (mask : FVec F S1x512 .f32)
    (x : FVec F S512x512 .f32) : FVec F S512x512 .f32 :=
  kElu (kO bias (kHT wa x) (kS mask (kZ wb wc bbS bcS (kHT wa x))))

end Defs

section Value

variable [Facts]

open Cert.Spec

/-! ## The product's operand indices, axis by axis -/

theorem lhs_dot_0 (i : S512x512.Idx) (q : dot_S512x512_S512x512_S512x512_1_0_0_1_n_n.contr.Idx) :
    (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch from List.not_mem_nil),
    dif_pos (show (0 : Fin S512x512.rank) ∈ dot_S512x512_S512x512_S512x512_1_0_0_1_n_n.lhsNonContracting from List.mem_singleton.mpr rfl)]
  rfl

theorem lhs_dot_1 (i : S512x512.Idx) (q : dot_S512x512_S512x512_S512x512_1_0_0_1_n_n.contr.Idx) :
    (dot_S512x512_S512x512_S512x512_1_0_0_1_n_n.lhsIdx i q 1).val = (q ⟨0, Nat.one_pos⟩).val :=
  dot_S512x512_S512x512_S512x512_1_0_0_1_n_n.lhsIdx_val_of_single rfl i q

theorem rhs_dot_0 (i : S512x512.Idx) (q : dot_S512x512_S512x512_S512x512_1_0_0_1_n_n.contr.Idx) :
    (dot_S512x512_S512x512_S512x512_1_0_0_1_n_n.rhsIdx i q 0).val = (q ⟨0, Nat.one_pos⟩).val :=
  dot_S512x512_S512x512_S512x512_1_0_0_1_n_n.rhsIdx_val_of_single rfl i q

theorem rhs_dot_1 (i : S512x512.Idx) (q : dot_S512x512_S512x512_S512x512_1_0_0_1_n_n.contr.Idx) :
    (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch from List.not_mem_nil),
    dif_pos (show (1 : Fin S512x512.rank) ∈ dot_S512x512_S512x512_S512x512_1_0_0_1_n_n.rhsNonContracting from List.mem_singleton.mpr rfl)]
  rfl

/-- A product into the zero matrix, at an entry: the sum over the contracted coordinate. -/
theorem mm_apply {φ₁ φ₂ : FTy} (prec : Option ContractPrecision) (A : FVec Ideal S512x512 φ₁) (B : FVec Ideal S512x512 φ₂)
    (p q : Fin 512) :
    matmul dot_S512x512_S512x512_S512x512_1_0_0_1_n_n prec A B (constant (F := Ideal) S512x512 .f32 0x00000000#32) (ix2 p q)
      = ∑ k : Fin 512, A (ix2 p k) * B (ix2 k q) := by
  simp only [matmul]
  rw [Ideal.matmul_constant_zero_apply, ← Equiv.sum_comp (contrEquiv1 dot_S512x512_S512x512_S512x512_1_0_0_1_n_n 512 rfl rfl).symm]
  refine Finset.sum_congr rfl fun k _ => ?_
  have hk := contrEquiv1_symm_val dot_S512x512_S512x512_S512x512_1_0_0_1_n_n 512 rfl rfl k
  have el : dot_S512x512_S512x512_S512x512_1_0_0_1_n_n.lhsIdx (ix2 p q) ((contrEquiv1 dot_S512x512_S512x512_S512x512_1_0_0_1_n_n 512 rfl rfl).symm k) = ix2 p k := funext fun a => Fin.ext (by
    match a with
    | ⟨0, _⟩ => exact lhs_dot_0 _ _
    | ⟨1, _⟩ => exact (lhs_dot_1 _ _).trans hk)
  have er : dot_S512x512_S512x512_S512x512_1_0_0_1_n_n.rhsIdx (ix2 p q) ((contrEquiv1 dot_S512x512_S512x512_S512x512_1_0_0_1_n_n 512 rfl rfl).symm k) = ix2 k q := funext fun a => Fin.ext (by
    match a with
    | ⟨0, _⟩ => exact (rhs_dot_0 _ _).trans hk
    | ⟨1, _⟩ => exact rhs_dot_1 _ _)
  rw [el, er]

/-! ## Rows and columns spread over the matrix -/

/-- A vector laid down the rows: entry (p, q) is the vector's p. -/
theorem col_apply {α : Type} (v : S512.Idx → α) (p q : Fin 512) :
    broadcastTo S512x512 (shapeCast S512x1 v shapeCasts_S512_S512x1) broadcasts_S512x1_S512x512 (ix2 p q) = v (ix1 p) := by
  refine (broadcastTo_apply _ broadcasts_S512x1_S512x512 (ix2 p q) (ix2 p (0 : Fin 1)) fun a => ?_).trans ?_
  · match a with
    | ⟨0, _⟩ => rfl
    | ⟨1, _⟩ => rfl
  · exact shapeCast_apply v shapeCasts_S512_S512x1 (ix2 p (0 : Fin 1)) (ix1 p) (by
      rw [Shape.rowMajor_val_one, Shape.rowMajor_val_two]
      show p.val = p.val * 1 + 0
      omega)

/-- A vector laid along the columns: entry (p, q) is the vector's q. -/
theorem row_apply {α : Type} (v : S512.Idx → α) (p q : Fin 512) :
    broadcastTo S512x512 (shapeCast S1x512 v shapeCasts_S512_S1x512) broadcasts_S1x512_S512x512 (ix2 p q) = v (ix1 q) :=
  (broadcastTo_1b_ab_apply _ broadcasts_S1x512_S512x512 p q).trans (shapeCast_a_1a_apply v shapeCasts_S512_S1x512 0 q)

/-- The index over a row index with the column coordinate put back. -/
theorem lift_ix (p k : Fin 512) : reduces_S512x512_S512.lift (ix1 p) k = ix2 p k :=
  funext fun c => Fin.ext (by
    match c with
    | ⟨0, _⟩ => rfl
    | ⟨1, _⟩ => rfl)

/-- The bit pattern of −∞. -/
theorem ofBits_neg_inf : Ideal.ofBits .f32 0xFF800000#32 = ⊥ := by simp [Ideal.ofBits, Ideal.ieee]

/-- The bit pattern of one. -/
theorem ofBits_one : Ideal.ofBits .f32 0x3F800000#32 = 1 := by
  rw [show (1 : EReal) = ((1 : ℝ) : EReal) by norm_cast]
  simp [Ideal.ofBits, Ideal.ieee, -EReal.coe_mul]; norm_num

/-- The transposed matrix at an entry. -/
theorem tr_apply {α : Type} (x : S512x512.Idx → α) (p q : Fin 512) :
    transpose S512x512 [1, 0] x transposes_S512x512_p1_0_S512x512 (ix2 p q) = x (ix2 q p) :=
  transpose_ix2_apply x transposes_S512x512_p1_0_S512x512 p q

/-- The exponential of a matrix at an entry. -/
theorem exp_apply {t : Shape} {φ : FTy} (x : FVec Ideal t φ) (i : t.Idx) : exp x i = Ideal.exp (x i) := rfl

/-- A row's maximum from −∞. -/
theorem rmax_apply (s : FVec Ideal S512x512 .f32) (p : Fin 512) :
    multiReduction (F := Ideal) .maximumf [1] S512 s 0xFF800000#32 reduces_S512x512_S512 (.inl rfl) rfl (ix1 p)
      = rowMax (fun k => s (ix2 p k)) := by
  refine (Ideal.multiReduction_maximumf_single s 0xFF800000#32 reduces_S512x512_S512 (.inl rfl) rfl (ix1 p)).trans ?_
  unfold rowMax
  rw [Ideal.ofBits_def, ofBits_neg_inf]
  refine congrArg (fun f => Finset.fold max ⊥ f (Finset.univ : Finset (Fin 512))) (funext fun k => ?_)
  exact congrArg s (lift_ix p k)

/-- A row's sum. -/
theorem rsum_apply (s : FVec Ideal S512x512 .f32) (p : Fin 512) :
    multiReduction (F := Ideal) .add [1] S512 s 0x00000000#32 reduces_S512x512_S512 (.inl rfl) rfl (ix1 p)
      = ∑ k : Fin 512, s (ix2 p k) := by
  refine (Ideal.multiReduction_add_single s 0x00000000#32 reduces_S512x512_S512 (.inl rfl) rfl (ix1 p)).trans ?_
  exact Finset.sum_congr rfl fun k _ => congrArg s (lift_ix p k)

/-! ## The step's stages at an entry -/

theorem kHT_apply (wa : FVec Ideal S512x512 .bf16) (x : FVec Ideal S512x512 .f32) (p q : Fin 512) :
    kHT wa x (ix2 p q) = hT (fun a b => wa (ix2 a b)) (fun a b => x (ix2 a b)) p q := by
  unfold kHT
  rw [mm_apply]
  rfl

theorem kZ_apply (wb wc : FVec Ideal S512x512 .bf16) (bbS bcS : FVec Ideal S512 .f32) (h : FVec Ideal S512x512 .f32) (p q : Fin 512) :
    kZ wb wc bbS bcS h (ix2 p q)
      = zK (fun a b => wb (ix2 a b)) (fun a b => wc (ix2 a b)) (fun a => bbS (ix1 a)) (fun a => bcS (ix1 a)) (fun a b => h (ix2 a b)) p q := by
  unfold kZ zK
  rw [addf_apply, addf_apply, addf_apply, mm_apply, mm_apply, col_apply, row_apply]
  refine congrArg₂ (· + ·) rfl (congrArg (· + bcS (ix1 q)) (Finset.sum_congr rfl fun k _ => ?_))
  rw [tr_apply]
  rfl

theorem kS_apply (mask : FVec Ideal S1x512 .f32) (z : FVec Ideal S512x512 .f32) (p q : Fin 512) :
    kS mask z (ix2 p q) = leaky slope (z (ix2 p q)) + mask (ix2 (0 : Fin 1) q) := by
  unfold kS
  rw [addf_apply, broadcastTo_1b_ab_apply]
  show Scalar.select (Ideal.cmp .oge (z (ix2 p q)) (Ideal.ofBits .f32 0x00000000#32)) (z (ix2 p q)) (z (ix2 p q) * Ideal.ofBits .f32 0x3E4CCCCD#32) + _ = _
  rw [Ideal.ofBits_zero_f32]
  rfl

theorem kElu_apply (o : FVec Ideal S512x512 .f32) (p q : Fin 512) :
    kElu o (ix2 p q) = elu (o (ix2 p q)) := by
  unfold kElu elu
  show Scalar.select (Ideal.cmp .ogt (o (ix2 p q)) (Ideal.ofBits .f32 0x00000000#32)) (o (ix2 p q))
    (Ideal.exp (min (o (ix2 p q)) (Ideal.ofBits .f32 0x00000000#32)) - Ideal.ofBits .f32 0x3F800000#32) = _
  rw [Ideal.ofBits_zero_f32, ofBits_one]

theorem kO_apply (bias : FVec Ideal S512 .f32) (h s : FVec Ideal S512x512 .f32) (p q : Fin 512) :
    kO bias h s (ix2 p q)
      = (∑ j : Fin 512, soft (fun j' => s (ix2 p j')) j * h (ix2 j q)) + bias (ix1 q) := by
  unfold kO
  dsimp only
  rw [addf_apply, mm_apply, row_apply]
  refine congrArg (· + bias (ix1 q)) (Finset.sum_congr rfl fun j _ => ?_)
  rw [divf_apply, col_apply, rsum_apply]
  unfold soft
  simp only [exp_apply, subf_apply, col_apply]
  rw [rmax_apply]

/-- The mask at a column. -/
theorem kMask_apply (len : BitVec 32) (j : Fin 512) :
    kMask (F := Ideal) len (ix2 (0 : Fin 1) j) = maskOf len j := by
  unfold kMask maskOf
  rw [select_apply, broadcast_apply, broadcast_apply]
  show Scalar.select (IntOp.cmpi .slt (iota .tc S1x512 32 [1] iota_S1x512_d1_w32 (ix2 (0 : Fin 1) j)) len) _ _ = _
  rw [iota_single_apply]
  show Scalar.select (IntOp.cmpi .slt (BitVec.ofNat 32 j.val) len) (Ideal.ofBits .f32 0x00000000#32)
    (Named.named (F := Ideal) κ "neg_big" (φ := .f32) 0xF149F2CA#32) = _
  have hn : Named.named (F := Ideal) κ "neg_big" (φ := .f32) 0xF149F2CA#32 = (⊥ : EReal) :=
    IdealRules.named_const.ideal_named_scalar _ _ _ _ rfl
  rw [Ideal.ofBits_zero_f32, hn]

/-- The step at an index, on the extended reals. -/
theorem kStep_apply (wa wb wc : FVec Ideal S512x512 .bf16) (bbS bcS bias : FVec Ideal S512 .f32) (mask : FVec Ideal S1x512 .f32)
    (x : FVec Ideal S512x512 .f32) (i d : Fin 512) :
    kStep wa wb wc bbS bcS bias mask x (ix2 i d)
      = stepK slope (fun a b => wa (ix2 a b)) (fun a b => wb (ix2 a b)) (fun a b => wc (ix2 a b))
          (fun a => bbS (ix1 a)) (fun a => bcS (ix1 a)) (fun a => bias (ix1 a)) (fun j => mask (ix2 (0 : Fin 1) j))
          (fun a b => x (ix2 a b)) i d := by
  unfold kStep stepK attend
  rw [kElu_apply, kO_apply]
  simp only [kS_apply, kZ_apply, kHT_apply]

end Value

end Cert.KernelIdeal.Step

end
-- ==== Proof.KBlock.lean ====
/-
  What one grid point of the kernel leaves in the output block, index by index, on the extended reals: for each of the
  point's two batch entries, three steps of the specification from that entry's input matrix, under the mask of the
  entry's length word.
-/
import proofs.«421348_j78365973282924_2_alg».proof.Proof.Gen.KernelIdeal.Frame
import proofs.«421348_j78365973282924_2_alg».proof.Proof.KStep

set_option maxRecDepth 16384

noncomputable section

namespace Cert.KernelIdeal.KBlock

open Idealize.ShloMosaic Idealize.ShloMosaic.TcCoe Idealize.ShloMosaic.Tactic Idealize.ShloMosaic.ValueIdx
open Cert.KernelIdeal Cert.KernelIdeal.Gen Cert.KernelIdeal.Step Cert.Spec

/-- The batch entry a grid point's half `a` works on: 2·g + a. -/
def entry (i : grid0.Coords) (a : Fin 2) : Fin 64 :=
  ⟨2 * (i 0).val + a.val, by have h : (i 0).val < 32 := (i 0).isLt; have := a.isLt; omega⟩

/-! ## The body's arithmetic as three steps, for any float type

The body's arithmetic is cut into windows that do not follow the steps: a window may end inside a softmax (after the
row maximum, or after the exponentials) and begins the next step's product with the first weight matrix. The lemmas
below join the windows back, one at a time, each over variables for the values the earlier windows computed. -/

section Chain

variable {F : FTy → Type} [FloatOps F] [Named F]

/-- A score matrix less its row maxima, exponentiated. -/
def kNum (s : FVec F S512x512 .f32) : FVec F S512x512 .f32 :=
  exp (subf s (broadcastTo S512x512 (shapeCast S512x1 (multiReduction .maximumf [1] S512 s 0xFF800000#32 reduces_S512x512_S512 (.inl rfl) rfl) shapeCasts_S512_S512x1) broadcasts_S512x1_S512x512))

/-- The row sums of a matrix, spread along the rows. -/
def kDen (p : FVec F S512x512 .f32) : FVec F S512x512 .f32 :=
  broadcastTo S512x512 (shapeCast S512x1 (multiReduction .add [1] S512 p 0x00000000#32 reduces_S512x512_S512 (.inl rfl) rfl) shapeCasts_S512_S512x1) broadcasts_S512x1_S512x512

/-- The softmax weights along rows. -/
def kSoft (s : FVec F S512x512 .f32) : FVec F S512x512 .f32 := divf (kNum s) (kDen (kNum s))

/-- Three steps from a block of one matrix, left as a block of one matrix. -/
def kHalf (wa wb wc : FVec F S512x512 .bf16) (bbS bcS bias : FVec F S512 .f32) (mask : FVec F S1x512 .f32)
    (x : Vec F S1x512x512 .f32) : FVec F S1x512x512 .f32 :=
  shapeCast S1x512x512
    (kStep wa wb wc bbS bcS bias mask (kStep wa wb wc bbS bcS bias mask (kStep wa wb wc bbS bcS bias mask
      (shapeCast S512x512 x shapeCasts_S1x512x512_S512x512))))
    shapeCasts_S512x512_S1x512x512

variable (v1 v3 v5 : FVec F S512x512 .bf16) (v7 v9 : FVec F S512 .f32) (v10 : Vec F S512 .f32) (mk : FVec F S1x512 .f32)

/-- The first half's first window group: the first step, then the product that opens the second. -/
theorem pay11_eq (v0 v2 v4 : Vec F S512x512 .bf16) (v6 v8 : Vec F S512 .f32) (v21 : Vec F S1x512x512 .f32) :
    k0_pay11 (k0_pay2 v0) v10 mk (k0_pay8 v0 v21) (k0_pay9 v0 v2 v4 v6 v8 v21) (k0_pay10 v0 v2 v4 v6 v8 v21) (Scalar.ofBits .f32 0x3E4CCCCD#32)
      = kHT (k0_pay2 v0) (kStep (k0_pay2 v0) (k0_pay3 v2) (k0_pay4 v4) (k0_pay5 v6) (k0_pay6 v8) v10 mk
          (shapeCast S512x512 v21 shapeCasts_S1x512x512_S512x512)) := rfl

/-- The second half's: the same from values already cast. -/
theorem pay21_eq (v158 : Vec F S1x512x512 .f32) :
    k0_pay21 v1 v10 mk (k0_pay18 v1 v158) (k0_pay19 v1 v3 v5 v7 v9 v158) (k0_pay20 v1 v3 v5 v7 v9 v158)
      = kHT v1 (kStep v1 v3 v5 v7 v9 v10 mk (shapeCast S512x512 v158 shapeCasts_S1x512x512_S512x512)) := rfl

/-- A window that starts after the row maximum: given hT of a step's input, its scores and their row maxima as a column,
    it finishes the step and opens the next. -/
theorem pay14_of (y h s : FVec F S512x512 .f32) (m : FVec F S512x1 .f32)
    (eh : h = kHT v1 y) (es : s = kS mk (kZ v3 v5 v7 v9 h))
    (em : m = shapeCast S512x1 (multiReduction .maximumf [1] S512 s 0xFF800000#32 reduces_S512x512_S512 (.inl rfl) rfl) shapeCasts_S512_S512x1) :
    k0_pay14 v1 v10 h s m = kHT v1 (kStep v1 v3 v5 v7 v9 v10 mk y) := by
  subst em es eh; rfl

/-- The same with the row maxima still a vector. -/
theorem pay24_of (y h s : FVec F S512x512 .f32) (m : FVec F S512 .f32)
    (eh : h = kHT v1 y) (es : s = kS mk (kZ v3 v5 v7 v9 h))
    (em : m = multiReduction .maximumf [1] S512 s 0xFF800000#32 reduces_S512x512_S512 (.inl rfl) rfl) :
    k0_pay24 v1 v10 h s m = kHT v1 (kStep v1 v3 v5 v7 v9 v10 mk y) := by
  subst em es eh; rfl

/-- The first half's last window: given hT of the last step's input and that step's softmax weights, the step's
    result as a block. -/
theorem pay16_of (y h w : FVec F S512x512 .f32)
    (eh : h = kHT v1 y) (ew : w = kSoft (kS mk (kZ v3 v5 v7 v9 h))) :
    k0_pay16 v10 h w = shapeCast S1x512x512 (kStep v1 v3 v5 v7 v9 v10 mk y) shapeCasts_S512x512_S1x512x512 := by
  subst ew eh; rfl

/-- The second half's last window, the softmax's exponentials and row sums given apart. -/
theorem pay1_of (y h p q : FVec F S512x512 .f32)
    (eh : h = kHT v1 y) (ep : p = kNum (kS mk (kZ v3 v5 v7 v9 h))) (eq : q = kDen p) :
    k0_pay1 v10 h p q = shapeCast S1x512x512 (kStep v1 v3 v5 v7 v9 v10 mk y) shapeCasts_S512x512_S1x512x512 := by
  subst eq ep eh; rfl

end Chain

/-! ## The two pieces the run leaves, as three steps each -/

section Run

variable {F : FTy → Type} [FloatOps F] [Named F]
variable (c : Dev nD) (i : grid0.Coords) (arg2 : Memref sig .tc .vmem S2x512x512 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512 .f32) (harg6 : arg6.IsWhole) (arg7 : Memref sig .tc .vmem S512 .f32) (harg7 : arg7.IsWhole) (arg8 : Memref sig .tc .vmem S512 .f32) (harg8 : arg8.IsWhole) (arg9 : Memref sig .tc .vmem S2x512x512 .f32) (harg9 : arg9.IsWhole)
  (x0 : Vec F S2x512x512 .f32) (x1 x2 x3 : Vec F S512x512 .bf16) (x4 x5 x6 : Vec F S512 .f32) (xt0 : TbBuf0 (F := F) c tbM0_0)

/-- The first half's stored block: three steps from the first input matrix. -/
theorem piece0_eq :
    k0_pay16 (kernelRun0_A.sl.r_6 c arg8 harg8 x6) (kernelRun0_A.sl.r_14 c i arg2 harg2 arg3 harg3 arg4 harg4 arg5 harg5 arg6 harg6 arg7 harg7 arg8 harg8 x0 x1 x2 x3 x4 x5 x6 xt0) (kernelRun0_A.sl.r_15 c i arg2 harg2 arg3 harg3 arg4 harg4 arg5 harg5 arg6 harg6 arg7 harg7 arg8 harg8 x0 x1 x2 x3 x4 x5 x6 xt0)
      = kHalf (kernelRun0_A.sl.r_1 c arg3 harg3 x1) (kernelRun0_A.sl.r_2 c arg4 harg4 x2) (kernelRun0_A.sl.r_3 c arg5 harg5 x3) (kernelRun0_A.sl.r_4 c arg6 harg6 x4) (kernelRun0_A.sl.r_5 c arg7 harg7 x5) (kernelRun0_A.sl.r_6 c arg8 harg8 x6) (kernelRun0_A.sl.r_7 c i xt0) (View.readAt (Elt F) arg2.view (Rect.unit (s := S2x512x512) ![0, 0, 0] S1x512x512.size inb_S2x512x512_S1x512x512_0_0_0).toLoadRect (harg2.unread x0)) := by
  have e11 : (kernelRun0_A.sl.r_11 c i arg2 harg2 arg3 harg3 arg4 harg4 arg5 harg5 arg6 harg6 arg7 harg7 arg8 harg8 x0 x1 x2 x3 x4 x5 x6 xt0) = kHT (kernelRun0_A.sl.r_1 c arg3 harg3 x1) (kStep (kernelRun0_A.sl.r_1 c arg3 harg3 x1) (kernelRun0_A.sl.r_2 c arg4 harg4 x2) (kernelRun0_A.sl.r_3 c arg5 harg5 x3) (kernelRun0_A.sl.r_4 c arg6 harg6 x4) (kernelRun0_A.sl.r_5 c arg7 harg7 x5) (kernelRun0_A.sl.r_6 c arg8 harg8 x6) (kernelRun0_A.sl.r_7 c i xt0) (shapeCast S512x512 (View.readAt (Elt F) arg2.view (Rect.unit (s := S2x512x512) ![0, 0, 0] S1x512x512.size inb_S2x512x512_S1x512x512_0_0_0).toLoadRect (harg2.unread x0)) shapeCasts_S1x512x512_S512x512)) :=
    pay11_eq (kernelRun0_A.sl.r_6 c arg8 harg8 x6) (kernelRun0_A.sl.r_7 c i xt0) (View.readAt (Elt F) arg3.view (Rect.unit (s := S512x512) ![0, 0] S512x512.size inb_S512x512_S512x512_0_0).toLoadRect (harg3.unread x1)) (View.readAt (Elt F) arg4.view (Rect.unit (s := S512x512) ![0, 0] S512x512.size inb_S512x512_S512x512_0_0).toLoadRect (harg4.unread x2)) (View.readAt (Elt F) arg5.view (Rect.unit (s := S512x512) ![0, 0] S512x512.size inb_S512x512_S512x512_0_0).toLoadRect (harg5.unread x3)) (View.readAt (Elt F) arg6.view (Rect.unit (s := S512) ![0] S512.size inb_S512_S512_0).toLoadRect (harg6.unread x4)) (View.readAt (Elt F) arg7.view (Rect.unit (s := S512) ![0] S512.size inb_S512_S512_0).toLoadRect (harg7.unread x5)) (View.readAt (Elt F) arg2.view (Rect.unit (s := S2x512x512) ![0, 0, 0] S1x512x512.size inb_S2x512x512_S1x512x512_0_0_0).toLoadRect (harg2.unread x0))
  have e14 : (kernelRun0_A.sl.r_14 c i arg2 harg2 arg3 harg3 arg4 harg4 arg5 harg5 arg6 harg6 arg7 harg7 arg8 harg8 x0 x1 x2 x3 x4 x5 x6 xt0) = kHT (kernelRun0_A.sl.r_1 c arg3 harg3 x1) (kStep (kernelRun0_A.sl.r_1 c arg3 harg3 x1) (kernelRun0_A.sl.r_2 c arg4 harg4 x2) (kernelRun0_A.sl.r_3 c arg5 harg5 x3) (kernelRun0_A.sl.r_4 c arg6 harg6 x4) (kernelRun0_A.sl.r_5 c arg7 harg7 x5) (kernelRun0_A.sl.r_6 c arg8 harg8 x6) (kernelRun0_A.sl.r_7 c i xt0) (kStep (kernelRun0_A.sl.r_1 c arg3 harg3 x1) (kernelRun0_A.sl.r_2 c arg4 harg4 x2) (kernelRun0_A.sl.r_3 c arg5 harg5 x3) (kernelRun0_A.sl.r_4 c arg6 harg6 x4) (kernelRun0_A.sl.r_5 c arg7 harg7 x5) (kernelRun0_A.sl.r_6 c arg8 harg8 x6) (kernelRun0_A.sl.r_7 c i xt0) (shapeCast S512x512 (View.readAt (Elt F) arg2.view (Rect.unit (s := S2x512x512) ![0, 0, 0] S1x512x512.size inb_S2x512x512_S1x512x512_0_0_0).toLoadRect (harg2.unread x0)) shapeCasts_S1x512x512_S512x512))) :=
    pay14_of (kernelRun0_A.sl.r_1 c arg3 harg3 x1) (kernelRun0_A.sl.r_2 c arg4 harg4 x2) (kernelRun0_A.sl.r_3 c arg5 harg5 x3) (kernelRun0_A.sl.r_4 c arg6 harg6 x4) (kernelRun0_A.sl.r_5 c arg7 harg7 x5) (kernelRun0_A.sl.r_6 c arg8 harg8 x6) (kernelRun0_A.sl.r_7 c i xt0) _ (kernelRun0_A.sl.r_11 c i arg2 harg2 arg3 harg3 arg4 harg4 arg5 harg5 arg6 harg6 arg7 harg7 arg8 harg8 x0 x1 x2 x3 x4 x5 x6 xt0) (kernelRun0_A.sl.r_12 c i arg2 harg2 arg3 harg3 arg4 harg4 arg5 harg5 arg6 harg6 arg7 harg7 arg8 harg8 x0 x1 x2 x3 x4 x5 x6 xt0) (kernelRun0_A.sl.r_13 c i arg2 harg2 arg3 harg3 arg4 harg4 arg5 harg5 arg6 harg6 arg7 harg7 arg8 harg8 x0 x1 x2 x3 x4 x5 x6 xt0) e11 rfl rfl
  exact pay16_of (kernelRun0_A.sl.r_1 c arg3 harg3 x1) (kernelRun0_A.sl.r_2 c arg4 harg4 x2) (kernelRun0_A.sl.r_3 c arg5 harg5 x3) (kernelRun0_A.sl.r_4 c arg6 harg6 x4) (kernelRun0_A.sl.r_5 c arg7 harg7 x5) (kernelRun0_A.sl.r_6 c arg8 harg8 x6) (kernelRun0_A.sl.r_7 c i xt0) _ (kernelRun0_A.sl.r_14 c i arg2 harg2 arg3 harg3 arg4 harg4 arg5 harg5 arg6 harg6 arg7 harg7 arg8 harg8 x0 x1 x2 x3 x4 x5 x6 xt0) (kernelRun0_A.sl.r_15 c i arg2 harg2 arg3 harg3 arg4 harg4 arg5 harg5 arg6 harg6 arg7 harg7 arg8 harg8 x0 x1 x2 x3 x4 x5 x6 xt0) e14 rfl

/-- The second half's: three steps from the second input matrix. -/
theorem piece1_eq :
    k0_pay1 (kernelRun0_A.sl.r_6 c arg8 harg8 x6) (kernelRun0_A.sl.r_24 c i arg2 harg2 arg3 harg3 arg4 harg4 arg5 harg5 arg6 harg6 arg7 harg7 arg8 harg8 x0 x1 x2 x3 x4 x5 x6 xt0) (kernelRun0_A.sl.r_25 c i arg2 harg2 arg3 harg3 arg4 harg4 arg5 harg5 arg6 harg6 arg7 harg7 arg8 harg8 x0 x1 x2 x3 x4 x5 x6 xt0) (kernelRun0_A.sl.r_26 c i arg2 harg2 arg3 harg3 arg4 harg4 arg5 harg5 arg6 harg6 arg7 harg7 arg8 harg8 x0 x1 x2 x3 x4 x5 x6 xt0)
      = kHalf (kernelRun0_A.sl.r_1 c arg3 harg3 x1) (kernelRun0_A.sl.r_2 c arg4 harg4 x2) (kernelRun0_A.sl.r_3 c arg5 harg5 x3) (kernelRun0_A.sl.r_4 c arg6 harg6 x4) (kernelRun0_A.sl.r_5 c arg7 harg7 x5) (kernelRun0_A.sl.r_6 c arg8 harg8 x6) (kernelRun0_A.sl.r_17 c i xt0) (View.readAt (Elt F) arg2.view (Rect.unit (s := S2x512x512) ![1, 0, 0] S1x512x512.size inb_S2x512x512_S1x512x512_1_0_0).toLoadRect (harg2.unread x0)) := by
  have e21 : (kernelRun0_A.sl.r_21 c i arg2 harg2 arg3 harg3 arg4 harg4 arg5 harg5 arg6 harg6 arg7 harg7 arg8 harg8 x0 x1 x2 x3 x4 x5 x6 xt0) = kHT (kernelRun0_A.sl.r_1 c arg3 harg3 x1) (kStep (kernelRun0_A.sl.r_1 c arg3 harg3 x1) (kernelRun0_A.sl.r_2 c arg4 harg4 x2) (kernelRun0_A.sl.r_3 c arg5 harg5 x3) (kernelRun0_A.sl.r_4 c arg6 harg6 x4) (kernelRun0_A.sl.r_5 c arg7 harg7 x5) (kernelRun0_A.sl.r_6 c arg8 harg8 x6) (kernelRun0_A.sl.r_17 c i xt0) (shapeCast S512x512 (View.readAt (Elt F) arg2.view (Rect.unit (s := S2x512x512) ![1, 0, 0] S1x512x512.size inb_S2x512x512_S1x512x512_1_0_0).toLoadRect (harg2.unread x0)) shapeCasts_S1x512x512_S512x512)) :=
    pay21_eq (kernelRun0_A.sl.r_1 c arg3 harg3 x1) (kernelRun0_A.sl.r_2 c arg4 harg4 x2) (kernelRun0_A.sl.r_3 c arg5 harg5 x3) (kernelRun0_A.sl.r_4 c arg6 harg6 x4) (kernelRun0_A.sl.r_5 c arg7 harg7 x5) (kernelRun0_A.sl.r_6 c arg8 harg8 x6) (kernelRun0_A.sl.r_17 c i xt0) (View.readAt (Elt F) arg2.view (Rect.unit (s := S2x512x512) ![1, 0, 0] S1x512x512.size inb_S2x512x512_S1x512x512_1_0_0).toLoadRect (harg2.unread x0))
  have e24 : (kernelRun0_A.sl.r_24 c i arg2 harg2 arg3 harg3 arg4 harg4 arg5 harg5 arg6 harg6 arg7 harg7 arg8 harg8 x0 x1 x2 x3 x4 x5 x6 xt0) = kHT (kernelRun0_A.sl.r_1 c arg3 harg3 x1) (kStep (kernelRun0_A.sl.r_1 c arg3 harg3 x1) (kernelRun0_A.sl.r_2 c arg4 harg4 x2) (kernelRun0_A.sl.r_3 c arg5 harg5 x3) (kernelRun0_A.sl.r_4 c arg6 harg6 x4) (kernelRun0_A.sl.r_5 c arg7 harg7 x5) (kernelRun0_A.sl.r_6 c arg8 harg8 x6) (kernelRun0_A.sl.r_17 c i xt0) (kStep (kernelRun0_A.sl.r_1 c arg3 harg3 x1) (kernelRun0_A.sl.r_2 c arg4 harg4 x2) (kernelRun0_A.sl.r_3 c arg5 harg5 x3) (kernelRun0_A.sl.r_4 c arg6 harg6 x4) (kernelRun0_A.sl.r_5 c arg7 harg7 x5) (kernelRun0_A.sl.r_6 c arg8 harg8 x6) (kernelRun0_A.sl.r_17 c i xt0) (shapeCast S512x512 (View.readAt (Elt F) arg2.view (Rect.unit (s := S2x512x512) ![1, 0, 0] S1x512x512.size inb_S2x512x512_S1x512x512_1_0_0).toLoadRect (harg2.unread x0)) shapeCasts_S1x512x512_S512x512))) :=
    pay24_of (kernelRun0_A.sl.r_1 c arg3 harg3 x1) (kernelRun0_A.sl.r_2 c arg4 harg4 x2) (kernelRun0_A.sl.r_3 c arg5 harg5 x3) (kernelRun0_A.sl.r_4 c arg6 harg6 x4) (kernelRun0_A.sl.r_5 c arg7 harg7 x5) (kernelRun0_A.sl.r_6 c arg8 harg8 x6) (kernelRun0_A.sl.r_17 c i xt0) _ (kernelRun0_A.sl.r_21 c i arg2 harg2 arg3 harg3 arg4 harg4 arg5 harg5 arg6 harg6 arg7 harg7 arg8 harg8 x0 x1 x2 x3 x4 x5 x6 xt0) (kernelRun0_A.sl.r_22 c i arg2 harg2 arg3 harg3 arg4 harg4 arg5 harg5 arg6 harg6 arg7 harg7 arg8 harg8 x0 x1 x2 x3 x4 x5 x6 xt0) (kernelRun0_A.sl.r_23 c i arg2 harg2 arg3 harg3 arg4 harg4 arg5 harg5 arg6 harg6 arg7 harg7 arg8 harg8 x0 x1 x2 x3 x4 x5 x6 xt0) e21 rfl rfl
  exact pay1_of (kernelRun0_A.sl.r_1 c arg3 harg3 x1) (kernelRun0_A.sl.r_2 c arg4 harg4 x2) (kernelRun0_A.sl.r_3 c arg5 harg5 x3) (kernelRun0_A.sl.r_4 c arg6 harg6 x4) (kernelRun0_A.sl.r_5 c arg7 harg7 x5) (kernelRun0_A.sl.r_6 c arg8 harg8 x6) (kernelRun0_A.sl.r_17 c i xt0) _ (kernelRun0_A.sl.r_24 c i arg2 harg2 arg3 harg3 arg4 harg4 arg5 harg5 arg6 harg6 arg7 harg7 arg8 harg8 x0 x1 x2 x3 x4 x5 x6 xt0) (kernelRun0_A.sl.r_25 c i arg2 harg2 arg3 harg3 arg4 harg4 arg5 harg5 arg6 harg6 arg7 harg7 arg8 harg8 x0 x1 x2 x3 x4 x5 x6 xt0) (kernelRun0_A.sl.r_26 c i arg2 harg2 arg3 harg3 arg4 harg4 arg5 harg5 arg6 harg6 arg7 harg7 arg8 harg8 x0 x1 x2 x3 x4 x5 x6 xt0) e24 rfl rfl

/-- The run's pieces: the second half's block, stored last, then the first half's. -/
theorem run_pieces :
    (kernelRun0_A c i arg2 harg2 arg3 harg3 arg4 harg4 arg5 harg5 arg6 harg6 arg7 harg7 arg8 harg8 arg9 harg9 x0 x1 x2 x3 x4 x5 x6 xt0).1
      = [⟨Rect.unit (s := S2x512x512) ![1, 0, 0] S1x512x512.size inb_S2x512x512_S1x512x512_1_0_0, kHalf (kernelRun0_A.sl.r_1 c arg3 harg3 x1) (kernelRun0_A.sl.r_2 c arg4 harg4 x2) (kernelRun0_A.sl.r_3 c arg5 harg5 x3) (kernelRun0_A.sl.r_4 c arg6 harg6 x4) (kernelRun0_A.sl.r_5 c arg7 harg7 x5) (kernelRun0_A.sl.r_6 c arg8 harg8 x6) (kernelRun0_A.sl.r_17 c i xt0) (View.readAt (Elt F) arg2.view (Rect.unit (s := S2x512x512) ![1, 0, 0] S1x512x512.size inb_S2x512x512_S1x512x512_1_0_0).toLoadRect (harg2.unread x0))⟩,
         ⟨Rect.unit (s := S2x512x512) ![0, 0, 0] S1x512x512.size inb_S2x512x512_S1x512x512_0_0_0, kHalf (kernelRun0_A.sl.r_1 c arg3 harg3 x1) (kernelRun0_A.sl.r_2 c arg4 harg4 x2) (kernelRun0_A.sl.r_3 c arg5 harg5 x3) (kernelRun0_A.sl.r_4 c arg6 harg6 x4) (kernelRun0_A.sl.r_5 c arg7 harg7 x5) (kernelRun0_A.sl.r_6 c arg8 harg8 x6) (kernelRun0_A.sl.r_7 c i xt0) (View.readAt (Elt F) arg2.view (Rect.unit (s := S2x512x512) ![0, 0, 0] S1x512x512.size inb_S2x512x512_S1x512x512_0_0_0).toLoadRect (harg2.unread x0))⟩] := by
  unfold kernelRun0_A
  dsimp only
  rw [piece1_eq, piece0_eq]

end Run

/-! ## Reading the two pieces back at an index -/

section Canon

variable {Val : EltTy → Type} [∀ e, Nonempty (Val e)]

/-- Where the second half's rectangle puts its local index (0, p, d): at (1, p, d). -/
theorem emb1 (p d : Fin 512) :
    (Rect.unit (s := S2x512x512) ![1, 0, 0] S1x512x512.size inb_S2x512x512_S1x512x512_1_0_0).emb (ix3 (0 : Fin 1) p d) = ix3 (1 : Fin 2) p d := by
  funext k; apply Fin.ext
  match k with
  | ⟨0, _⟩ => rfl
  | ⟨1, _⟩ => show 0 + 1 * p.val = p.val; omega
  | ⟨2, _⟩ => show 0 + 1 * d.val = d.val; omega

/-- Where the first half's puts it: at (0, p, d). -/
theorem emb0 (p d : Fin 512) :
    (Rect.unit (s := S2x512x512) ![0, 0, 0] S1x512x512.size inb_S2x512x512_S1x512x512_0_0_0).emb (ix3 (0 : Fin 1) p d) = ix3 (0 : Fin 2) p d := by
  funext k; apply Fin.ext
  match k with
  | ⟨0, _⟩ => rfl
  | ⟨1, _⟩ => show 0 + 1 * p.val = p.val; omega
  | ⟨2, _⟩ => show 0 + 1 * d.val = d.val; omega

/-- Under the second half's rectangle the block holds the last store's payload. -/
theorem canon_half1 (w1 : S1x512x512.Idx → Val .f32) (L : List (View.Piece Val S2x512x512 .f32)) (p d : Fin 512) :
    View.canon ((⟨(Rect.unit (s := S2x512x512) ![1, 0, 0] S1x512x512.size inb_S2x512x512_S1x512x512_1_0_0), w1⟩ : View.Piece Val S2x512x512 .f32) :: L) (ix3 (1 : Fin 2) p d)
      = w1 (ix3 (0 : Fin 1) p d) := by
  have h := View.canon_cons_emb (Val := Val) (Rect.unit (s := S2x512x512) ![1, 0, 0] S1x512x512.size inb_S2x512x512_S1x512x512_1_0_0) w1 L (ix3 (0 : Fin 1) p d)
  rw [emb1 p d] at h
  exact h

/-- Under the first half's, which the last store leaves alone, the earlier store's. -/
theorem canon_half0 (w1 w0 : S1x512x512.Idx → Val .f32) (L : List (View.Piece Val S2x512x512 .f32)) (p d : Fin 512) :
    View.canon ((⟨(Rect.unit (s := S2x512x512) ![1, 0, 0] S1x512x512.size inb_S2x512x512_S1x512x512_1_0_0), w1⟩ : View.Piece Val S2x512x512 .f32)
        :: (⟨(Rect.unit (s := S2x512x512) ![0, 0, 0] S1x512x512.size inb_S2x512x512_S1x512x512_0_0_0), w0⟩ : View.Piece Val S2x512x512 .f32) :: L) (ix3 (0 : Fin 2) p d)
      = w0 (ix3 (0 : Fin 1) p d) := by
  have hn : ix3 (0 : Fin 2) p d ∉ (Rect.unit (s := S2x512x512) ![1, 0, 0] S1x512x512.size inb_S2x512x512_S1x512x512_1_0_0).set := fun hm => by
    have h := (Rect.mem_set_unit.mp hm) ⟨0, by decide⟩
    have h1 : (1 : Nat) ≤ 0 := h.1
    omega
  have h := View.canon_cons_emb (Val := Val) (Rect.unit (s := S2x512x512) ![0, 0, 0] S1x512x512.size inb_S2x512x512_S1x512x512_0_0_0) w0 L (ix3 (0 : Fin 1) p d)
  rw [emb0 p d] at h
  rw [View.canon_cons_of_not_mem (⟨(Rect.unit (s := S2x512x512) ![1, 0, 0] S1x512x512.size inb_S2x512x512_S1x512x512_1_0_0), w1⟩ : View.Piece Val S2x512x512 .f32) _ hn]
  exact h

end Canon

/-! ## Three steps at an index, on the extended reals -/

section Value

/-- A step as a map of matrices. -/
theorem kStep_fun (wa wb wc : FVec Ideal S512x512 .bf16) (bbS bcS bias : FVec Ideal S512 .f32) (mask : FVec Ideal S1x512 .f32)
    (x : FVec Ideal S512x512 .f32) :
    (fun a b => kStep wa wb wc bbS bcS bias mask x (ix2 a b))
      = stepK slope (fun a b => wa (ix2 a b)) (fun a b => wb (ix2 a b)) (fun a b => wc (ix2 a b))
          (fun a => bbS (ix1 a)) (fun a => bcS (ix1 a)) (fun a => bias (ix1 a)) (fun j => mask (ix2 (0 : Fin 1) j))
          (fun a b => x (ix2 a b)) :=
  funext fun a => funext fun b => kStep_apply wa wb wc bbS bcS bias mask x a b

/-- A block of one matrix read as that matrix. -/
theorem dropUnit_fun (x : Vec Ideal S1x512x512 .f32) :
    (fun n e => shapeCast S512x512 x shapeCasts_S1x512x512_S512x512 (ix2 n e)) = fun n e => x (ix3 (0 : Fin 1) n e) :=
  funext fun n => funext fun e =>
    (shapeCast_dropUnit_apply ![512, 512] x shapeCasts_S1x512x512_S512x512 (ix2 n e)).trans
      (congrArg x (funext fun k => match k with | ⟨0, _⟩ => rfl | ⟨1, _⟩ => rfl | ⟨2, _⟩ => rfl))

/-- The half's block at (0, p, d): three steps of the specification from the input block's matrix. -/
theorem kHalf_apply (wa wb wc : FVec Ideal S512x512 .bf16) (bbS bcS bias : FVec Ideal S512 .f32) (mask : FVec Ideal S1x512 .f32)
    (x : Vec Ideal S1x512x512 .f32) (p d : Fin 512) :
    kHalf wa wb wc bbS bcS bias mask x (ix3 (0 : Fin 1) p d)
      = iter3 (stepK slope (fun a b => wa (ix2 a b)) (fun a b => wb (ix2 a b)) (fun a b => wc (ix2 a b))
          (fun a => bbS (ix1 a)) (fun a => bcS (ix1 a)) (fun a => bias (ix1 a)) (fun j => mask (ix2 (0 : Fin 1) j)))
          (fun n e => x (ix3 (0 : Fin 1) n e)) p d := by
  unfold kHalf
  refine (shapeCast_addUnit_apply ![512, 512] _ shapeCasts_S512x512_S1x512x512 (ix3 (0 : Fin 1) p d)).trans ?_
  have e : (fun k : Fin 2 => ix3 (0 : Fin 1) p d k.succ) = ix2 p d :=
    funext fun k => match k with | ⟨0, _⟩ => rfl | ⟨1, _⟩ => rfl
  refine (congrArg _ e).trans ?_
  have h3 := kStep_fun wa wb wc bbS bcS bias mask (kStep wa wb wc bbS bcS bias mask (kStep wa wb wc bbS bcS bias mask (shapeCast S512x512 x shapeCasts_S1x512x512_S512x512)))
  have h2 := kStep_fun wa wb wc bbS bcS bias mask (kStep wa wb wc bbS bcS bias mask (shapeCast S512x512 x shapeCasts_S1x512x512_S512x512))
  have h1 := kStep_fun wa wb wc bbS bcS bias mask (shapeCast S512x512 x shapeCasts_S1x512x512_S512x512)
  rw [h2, h1, dropUnit_fun] at h3
  exact congrFun (congrFun h3 p) d

end Value

/-! ## What the body's loads read -/

section Loads

variable {F : FTy → Type} [FloatOps F] [Named F]

theorem zero2 : (![0, 0] : Fin 2 → Nat) = fun _ => 0 := funext fun k => match k with | ⟨0, _⟩ => rfl | ⟨1, _⟩ => rfl
theorem zero1 : (![0] : Fin 1 → Nat) = fun _ => 0 := funext fun k => match k with | ⟨0, _⟩ => rfl

/-- A load of a whole staged matrix reads the matrix. -/
theorem ldW_eq (arg : Memref sig .tc .vmem S512x512 .bf16) (h : arg.IsWhole) (x : Vec F S512x512 .bf16) :
    View.readAt (Elt F) arg.view (Rect.unit (s := S512x512) ![0, 0] S512x512.size inb_S512x512_S512x512_0_0).toLoadRect (h.unread x) = x := by
  rw [View.readAt_eq_ld, h.read_unread, View.ld_unit_zero zero2]

/-- A load of a whole staged vector reads the vector. -/
theorem ldB_eq (arg : Memref sig .tc .vmem S512 .f32) (h : arg.IsWhole) (x : Vec F S512 .f32) :
    View.readAt (Elt F) arg.view (Rect.unit (s := S512) ![0] S512.size inb_S512_S512_0).toLoadRect (h.unread x) = x := by
  rw [View.readAt_eq_ld, h.read_unread, View.ld_unit_zero zero1]

variable (c : Dev nD) (i : grid0.Coords) (arg2 : Memref sig .tc .vmem S2x512x512 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512 .f32) (harg6 : arg6.IsWhole) (arg7 : Memref sig .tc .vmem S512 .f32) (harg7 : arg7.IsWhole) (arg8 : Memref sig .tc .vmem S512 .f32) (harg8 : arg8.IsWhole) (arg9 : Memref sig .tc .vmem S2x512x512 .f32) (harg9 : arg9.IsWhole)
  (x0 : Vec F S2x512x512 .f32) (x1 x2 x3 : Vec F S512x512 .bf16) (x4 x5 x6 : Vec F S512 .f32) (xt0 : TbBuf0 (F := F) c tbM0_0)

theorem r1_eq : kernelRun0_A.sl.r_1 c arg3 harg3 x1 = x1 := (shapeCast_self _ shapeCasts_S512x512_S512x512).trans (ldW_eq arg3 harg3 x1)
theorem r2_eq : kernelRun0_A.sl.r_2 c arg4 harg4 x2 = x2 := (shapeCast_self _ shapeCasts_S512x512_S512x512).trans (ldW_eq arg4 harg4 x2)
theorem r3_eq : kernelRun0_A.sl.r_3 c arg5 harg5 x3 = x3 := (shapeCast_self _ shapeCasts_S512x512_S512x512).trans (ldW_eq arg5 harg5 x3)
theorem r4_eq : kernelRun0_A.sl.r_4 c arg6 harg6 x4 = x4 := (shapeCast_self _ shapeCasts_S512_S512).trans (ldB_eq arg6 harg6 x4)
theorem r5_eq : kernelRun0_A.sl.r_5 c arg7 harg7 x5 = x5 := (shapeCast_self _ shapeCasts_S512_S512).trans (ldB_eq arg7 harg7 x5)
theorem r6_eq : kernelRun0_A.sl.r_6 c arg8 harg8 x6 = x6 := ldB_eq arg8 harg8 x6

/-- The first half's load of the input block reads the first input matrix. -/
theorem ld0_fun : (fun n e => (View.readAt (Elt F) arg2.view (Rect.unit (s := S2x512x512) ![0, 0, 0] S1x512x512.size inb_S2x512x512_S1x512x512_0_0_0).toLoadRect (harg2.unread x0)) (ix3 (0 : Fin 1) n e)) = fun n e => x0 (ix3 (0 : Fin 2) n e) :=
  funext fun n => funext fun e => (congrFun (harg2.read_unread x0) _).trans (congrArg x0 (emb0 n e))

/-- The second half's reads the second. -/
theorem ld1_fun : (fun n e => (View.readAt (Elt F) arg2.view (Rect.unit (s := S2x512x512) ![1, 0, 0] S1x512x512.size inb_S2x512x512_S1x512x512_1_0_0).toLoadRect (harg2.unread x0)) (ix3 (0 : Fin 1) n e)) = fun n e => x0 (ix3 (1 : Fin 2) n e) :=
  funext fun n => funext fun e => (congrFun (harg2.read_unread x0) _).trans (congrArg x0 (emb1 n e))

/-- The word the body reads for half `a` is the table's entry 2·g + a: the offset's 32-bit arithmetic does not wrap. -/
theorem word_eq (a : Fin 2) (hin : ∀ k, (k0_off1 i (BitVec.ofNat 32 a.val)) k + S1.size k ≤ S64.size k)
    (h1 : 0 < (Rect.unit (s := S64) (k0_off1 i (BitVec.ofNat 32 a.val)) S1.size hin).toLoadRect.shape.numel) :
    View.readAt (Elt F) tbM0_0.view (Rect.unit (s := S64) (k0_off1 i (BitVec.ofNat 32 a.val)) S1.size hin).toLoadRect xt0 (Shape.Idx.first h1)
      = xt0 (ix1 (entry i a)) := by
  refine congrArg xt0 (funext fun k => Fin.ext ?_)
  match k with
  | ⟨0, _⟩ =>
    show (k0_off1 i (BitVec.ofNat 32 a.val)) 0 + 1 * 0 = 2 * (i 0).val + a.val
    rw [k0_off1_eq i a]; rfl

theorem r7_eq : kernelRun0_A.sl.r_7 c i xt0 = kMask (xt0 (ix1 (entry i 0))) :=
  congrArg kMask (word_eq c i xt0 0 _ _)

theorem r17_eq : kernelRun0_A.sl.r_17 c i xt0 = kMask (xt0 (ix1 (entry i 1))) :=
  congrArg kMask (word_eq c i xt0 1 _ _)

end Loads

/-! ## The block at an index -/

section Block

/-- Half 0 of the block: the first piece's three steps, with the loads read back. -/
theorem half0_apply (c : Dev nD) (i : grid0.Coords) (arg2 : Memref sig .tc .vmem S2x512x512 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512 .f32) (harg6 : arg6.IsWhole) (arg7 : Memref sig .tc .vmem S512 .f32) (harg7 : arg7.IsWhole) (arg8 : Memref sig .tc .vmem S512 .f32) (harg8 : arg8.IsWhole) (arg9 : Memref sig .tc .vmem S2x512x512 .f32) (harg9 : arg9.IsWhole)
    (x0 : Vec Ideal S2x512x512 .f32) (x1 : Vec Ideal S512x512 .bf16) (x2 : Vec Ideal S512x512 .bf16) (x3 : Vec Ideal S512x512 .bf16) (x4 : Vec Ideal S512 .f32) (x5 : Vec Ideal S512 .f32) (x6 : Vec Ideal S512 .f32) (xt0 : TbBuf0 (F := Ideal) c tbM0_0) (p d : Fin 512) :
    kHalf (kernelRun0_A.sl.r_1 c arg3 harg3 x1) (kernelRun0_A.sl.r_2 c arg4 harg4 x2) (kernelRun0_A.sl.r_3 c arg5 harg5 x3) (kernelRun0_A.sl.r_4 c arg6 harg6 x4) (kernelRun0_A.sl.r_5 c arg7 harg7 x5) (kernelRun0_A.sl.r_6 c arg8 harg8 x6) (kernelRun0_A.sl.r_7 c i xt0) (View.readAt (Elt Ideal) arg2.view (Rect.unit (s := S2x512x512) ![0, 0, 0] S1x512x512.size inb_S2x512x512_S1x512x512_0_0_0).toLoadRect (harg2.unread x0)) (ix3 (0 : Fin 1) p d)
      = iter3 (stepK slope (fun u v => x1 (ix2 u v)) (fun u v => x2 (ix2 u v)) (fun u v => x3 (ix2 u v))
          (fun u => x4 (ix1 u)) (fun u => x5 (ix1 u)) (fun u => x6 (ix1 u)) (maskOf (xt0 (ix1 (entry i (0 : Fin 2))))))
          (fun n e => x0 (ix3 (0 : Fin 2) n e)) p d := by
  refine (kHalf_apply _ _ _ _ _ _ _ _ p d).trans ?_
  rw [r1_eq, r2_eq, r3_eq, r4_eq, r5_eq, r6_eq, r7_eq, ld0_fun]
  rw [show (fun j => kMask (F := Ideal) (xt0 (ix1 (entry i 0))) (ix2 (0 : Fin 1) j)) = maskOf (xt0 (ix1 (entry i 0)))
    from funext fun j => kMask_apply _ j]

/-- Half 1 of the block: the second piece's three steps, with the loads read back. -/
theorem half1_apply (c : Dev nD) (i : grid0.Coords) (arg2 : Memref sig .tc .vmem S2x512x512 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512 .f32) (harg6 : arg6.IsWhole) (arg7 : Memref sig .tc .vmem S512 .f32) (harg7 : arg7.IsWhole) (arg8 : Memref sig .tc .vmem S512 .f32) (harg8 : arg8.IsWhole) (arg9 : Memref sig .tc .vmem S2x512x512 .f32) (harg9 : arg9.IsWhole)
    (x0 : Vec Ideal S2x512x512 .f32) (x1 : Vec Ideal S512x512 .bf16) (x2 : Vec Ideal S512x512 .bf16) (x3 : Vec Ideal S512x512 .bf16) (x4 : Vec Ideal S512 .f32) (x5 : Vec Ideal S512 .f32) (x6 : Vec Ideal S512 .f32) (xt0 : TbBuf0 (F := Ideal) c tbM0_0) (p d : Fin 512) :
    kHalf (kernelRun0_A.sl.r_1 c arg3 harg3 x1) (kernelRun0_A.sl.r_2 c arg4 harg4 x2) (kernelRun0_A.sl.r_3 c arg5 harg5 x3) (kernelRun0_A.sl.r_4 c arg6 harg6 x4) (kernelRun0_A.sl.r_5 c arg7 harg7 x5) (kernelRun0_A.sl.r_6 c arg8 harg8 x6) (kernelRun0_A.sl.r_17 c i xt0) (View.readAt (Elt Ideal) arg2.view (Rect.unit (s := S2x512x512) ![1, 0, 0] S1x512x512.size inb_S2x512x512_S1x512x512_1_0_0).toLoadRect (harg2.unread x0)) (ix3 (0 : Fin 1) p d)
      = iter3 (stepK slope (fun u v => x1 (ix2 u v)) (fun u v => x2 (ix2 u v)) (fun u v => x3 (ix2 u v))
          (fun u => x4 (ix1 u)) (fun u => x5 (ix1 u)) (fun u => x6 (ix1 u)) (maskOf (xt0 (ix1 (entry i (1 : Fin 2))))))
          (fun n e => x0 (ix3 (1 : Fin 2) n e)) p d := by
  refine (kHalf_apply _ _ _ _ _ _ _ _ p d).trans ?_
  rw [r1_eq, r2_eq, r3_eq, r4_eq, r5_eq, r6_eq, r17_eq, ld1_fun]
  rw [show (fun j => kMask (F := Ideal) (xt0 (ix1 (entry i 1))) (ix2 (0 : Fin 1) j)) = maskOf (xt0 (ix1 (entry i 1)))
    from funext fun j => kMask_apply _ j]

/-- The output block of a grid point at an index: half `a`, row `p`, column `d`. The inputs are the point's staged
    blocks: `x0` the two input matrices, `x1 x2 x3` the three weight matrices as the kernel receives them, `x4 x5` the two
    scaled bias vectors, `x6` the output bias, `xt0` the table of lengths. -/
theorem out0_A_7_apply (c : Dev nD) (i : grid0.Coords) (arg2 : Memref sig .tc .vmem S2x512x512 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512 .f32) (harg6 : arg6.IsWhole) (arg7 : Memref sig .tc .vmem S512 .f32) (harg7 : arg7.IsWhole) (arg8 : Memref sig .tc .vmem S512 .f32) (harg8 : arg8.IsWhole) (arg9 : Memref sig .tc .vmem S2x512x512 .f32) (harg9 : arg9.IsWhole)
    (x0 : Vec Ideal S2x512x512 .f32) (x1 : Vec Ideal S512x512 .bf16) (x2 : Vec Ideal S512x512 .bf16) (x3 : Vec Ideal S512x512 .bf16) (x4 : Vec Ideal S512 .f32) (x5 : Vec Ideal S512 .f32) (x6 : Vec Ideal S512 .f32) (xt0 : TbBuf0 (F := Ideal) c tbM0_0)
    (a : Fin 2) (p d : Fin 512) :
    out0_A_7 (F := Ideal) c i arg2 harg2 arg3 harg3 arg4 harg4 arg5 harg5 arg6 harg6 arg7 harg7 arg8 harg8 arg9 harg9 x0 x1 x2 x3 x4 x5 x6 xt0 (ix3 a p d)
      = iter3 (stepK slope (fun u v => x1 (ix2 u v)) (fun u v => x2 (ix2 u v)) (fun u v => x3 (ix2 u v))
          (fun u => x4 (ix1 u)) (fun u => x5 (ix1 u)) (fun u => x6 (ix1 u)) (maskOf (xt0 (ix1 (entry i a)))))
          (fun n e => x0 (ix3 a n e)) p d := by
  unfold out0_A_7
  rw [View.read_writes_eq_canon _ _ _ (cover0_A_7 c i arg2 harg2 arg3 harg3 arg4 harg4 arg5 harg5 arg6 harg6 arg7 harg7 arg8 harg8 arg9 harg9 x0 x1 x2 x3 x4 x5 x6 xt0), run_pieces]
  match a with
  | ⟨0, _⟩ =>
    exact (canon_half0 _ _ [] p d).trans (half0_apply c i arg2 harg2 arg3 harg3 arg4 harg4 arg5 harg5 arg6 harg6 arg7 harg7 arg8 harg8 arg9 harg9 x0 x1 x2 x3 x4 x5 x6 xt0 p d)
  | ⟨1, _⟩ =>
    exact (canon_half1 _ _ p d).trans (half1_apply c i arg2 harg2 arg3 harg3 arg4 harg4 arg5 harg5 arg6 harg6 arg7 harg7 arg8 harg8 arg9 harg9 x0 x1 x2 x3 x4 x5 x6 xt0 p d)

end Block

end Cert.KernelIdeal.KBlock

end
-- ==== Proof.KArr.lean ====
/-
  From the kernel's blocks to its result array, and the kernel program's run: every execution ends with the result array
  holding, at batch entry b, three steps of the specification from the entry's input matrix — the weights the host
  prefix prepared being the arguments times the scale — and with the arguments unchanged.
-/
import proofs.«421348_j78365973282924_2_alg».proof.Proof.Gen.KernelIdeal.Frame
import proofs.«421348_j78365973282924_2_alg».proof.Proof.KBlock
import Idealize.ShloMosaic.Lib.Pipeline.Value
import Idealize.ShloMosaic.Lib.StableHlo.Run
import Idealize.ShloMosaic.Lib.IdealHost
import Idealize.ShloMosaic.Lib.Tactic

set_option maxRecDepth 16384

noncomputable section

namespace Cert.KernelIdeal.KArr

open Idealize.ShloMosaic Idealize.ShloMosaic.TcCoe Idealize.ShloMosaic.Tactic Idealize.ShloMosaic.ValueIdx Idealize.SL.Sem
open Idealize.ShloMosaic.Pipeline (Dat Cfg Window)
open Cert.KernelIdeal Cert.KernelIdeal.Gen Cert.KernelIdeal.Step Cert.KernelIdeal.KBlock Cert.Spec

variable (m : (ℓ : Loc nD τ sig) → Buf (Elt Ideal) ℓ) (ρ : Dev nD → PrngReg)

/-- The result array as one function of the argument arrays. -/
def G (c : Dev nD) : Buf (Elt Ideal) ((c.tc : Thread nD τ).loc main_v12) := fun y =>
  iter3 (stepK slope (fun u v => (m ((c.tc : Thread nD τ).loc main_arg2)) (ix2 u v)) (fun u v => scale * (m ((c.tc : Thread nD τ).loc main_arg3)) (ix2 u v))
      (fun u v => scale * (m ((c.tc : Thread nD τ).loc main_arg5)) (ix2 v u)) (fun u => scale * (m ((c.tc : Thread nD τ).loc main_arg4)) (ix1 u))
      (fun u => scale * (m ((c.tc : Thread nD τ).loc main_arg6)) (ix1 u)) (fun u => (m ((c.tc : Thread nD τ).loc main_arg7)) (ix1 u))
      (maskOf ((m ((c.tc : Thread nD τ).loc main_arg1)) (ix1 (y 0)))))
    (fun n e => (m ((c.tc : Thread nD τ).loc main_arg0)) (ix3 (y 0) n e)) (y 1) (y 2)

/-- `G` at an index. -/
theorem G_apply (c : Dev nD) (b : Fin 64) (p d : Fin 512) :
    G m c (ix3 b p d)
      = iter3 (stepK slope (fun u v => (m ((c.tc : Thread nD τ).loc main_arg2)) (ix2 u v)) (fun u v => scale * (m ((c.tc : Thread nD τ).loc main_arg3)) (ix2 u v))
          (fun u v => scale * (m ((c.tc : Thread nD τ).loc main_arg5)) (ix2 v u)) (fun u => scale * (m ((c.tc : Thread nD τ).loc main_arg4)) (ix1 u))
          (fun u => scale * (m ((c.tc : Thread nD τ).loc main_arg6)) (ix1 u)) (fun u => (m ((c.tc : Thread nD τ).loc main_arg7)) (ix1 u))
          (maskOf ((m ((c.tc : Thread nD τ).loc main_arg1)) (ix1 b))))
        (fun n e => (m ((c.tc : Thread nD τ).loc main_arg0)) (ix3 b n e)) p d := rfl

/-! ## The arrays the windows read, as the region finds them: the host prefix's results -/

/-- The first weight matrix, converted: the conversion is the identity on the extended reals. -/
theorem V_v0 (c : Dev nD) : V m c main_v0 = (truncf .bf16 (m ((c.tc : Thread nD τ).loc main_arg2) : FVec Ideal S512x512 .f32) bitsLt_bf16_f32 : FVec Ideal S512x512 .bf16) := by
  dsimp only [Gen.V, Gen.hostOps0]; after_results; try rfl

/-- The second weight matrix: the scale constant broadcast, times the argument, converted. -/
theorem V_v3 (c : Dev nD) : V m c main_v3 = (truncf .bf16 (mulf (broadcastInDim S512x512 ![] bcast_S_S512x512 (constant (F := Ideal) S_ .f32 0x3D3504F3#32)) (m ((c.tc : Thread nD τ).loc main_arg3) : FVec Ideal S512x512 .f32)) bitsLt_bf16_f32 : FVec Ideal S512x512 .bf16) := by
  dsimp only [Gen.V, Gen.hostOps0]; after_results; try rfl

/-- The third weight matrix: the scaled argument, transposed, converted. -/
theorem V_v9 (c : Dev nD) : V m c main_v9 = (truncf .bf16 (transpose S512x512 [1, 0] (mulf (broadcastInDim S512x512 ![] bcast_S_S512x512 (constant (F := Ideal) S_ .f32 0x3D3504F3#32)) (m ((c.tc : Thread nD τ).loc main_arg5) : FVec Ideal S512x512 .f32)) transposes_S512x512_S512x512_1_0) bitsLt_bf16_f32 : FVec Ideal S512x512 .bf16) := by
  dsimp only [Gen.V, Gen.hostOps0]; after_results; try rfl

/-- The first bias vector, scaled. -/
theorem V_v5 (c : Dev nD) : V m c main_v5 = (mulf (broadcastInDim S512 ![] bcast_S_S512 (constant (F := Ideal) S_ .f32 0x3D3504F3#32)) (m ((c.tc : Thread nD τ).loc main_arg4) : FVec Ideal S512 .f32) : FVec Ideal S512 .f32) := by
  dsimp only [Gen.V, Gen.hostOps0]; after_results; try rfl

/-- The second bias vector, scaled. -/
theorem V_v11 (c : Dev nD) : V m c main_v11 = (mulf (broadcastInDim S512 ![] bcast_S_S512 (constant (F := Ideal) S_ .f32 0x3D3504F3#32)) (m ((c.tc : Thread nD τ).loc main_arg6) : FVec Ideal S512 .f32) : FVec Ideal S512 .f32) := by
  dsimp only [Gen.V, Gen.hostOps0]; after_results; try rfl

/-- Each of them at an index: the argument's entry, times the scale where the prefix multiplied, at the swapped index
    where it transposed. -/
theorem V_v0_apply (c : Dev nD) (u v : Fin 512) : (V m c main_v0 : S512x512.Idx → EReal) (ix2 u v) = (m ((c.tc : Thread nD τ).loc main_arg2) : S512x512.Idx → EReal) (ix2 u v) := by
  rw [V_v0]; rfl

theorem V_v3_apply (c : Dev nD) (u v : Fin 512) : (V m c main_v3 : S512x512.Idx → EReal) (ix2 u v) = scale * (m ((c.tc : Thread nD τ).loc main_arg3) : S512x512.Idx → EReal) (ix2 u v) := by
  rw [V_v3]
  show (broadcastInDim S512x512 ![] bcast_S_S512x512 (constant (F := Ideal) S_ .f32 0x3D3504F3#32) : FVec Ideal S512x512 .f32) (ix2 u v) * _ = _
  rw [broadcastInDim_scalar_apply]
  rfl

theorem V_v9_apply (c : Dev nD) (u v : Fin 512) : (V m c main_v9 : S512x512.Idx → EReal) (ix2 u v) = scale * (m ((c.tc : Thread nD τ).loc main_arg5) : S512x512.Idx → EReal) (ix2 v u) := by
  rw [V_v9]
  show (transpose S512x512 [1, 0] (mulf (broadcastInDim S512x512 ![] bcast_S_S512x512 (constant (F := Ideal) S_ .f32 0x3D3504F3#32)) (m ((c.tc : Thread nD τ).loc main_arg5) : FVec Ideal S512x512 .f32)) transposes_S512x512_S512x512_1_0 : FVec Ideal S512x512 .f32) (ix2 u v) = _
  refine (transpose_apply (s := S512x512) (t := S512x512) [1, 0] _ transposes_S512x512_S512x512_1_0 (ix2 u v) (ix2 v u) ?_).trans ?_
  · intro b
    match b with
    | ⟨0, _⟩ => rfl
    | ⟨1, _⟩ => rfl
  show (broadcastInDim S512x512 ![] bcast_S_S512x512 (constant (F := Ideal) S_ .f32 0x3D3504F3#32) : FVec Ideal S512x512 .f32) (ix2 v u) * _ = _
  rw [broadcastInDim_scalar_apply]
  rfl

theorem V_v5_apply (c : Dev nD) (u : Fin 512) : (V m c main_v5 : S512.Idx → EReal) (ix1 u) = scale * (m ((c.tc : Thread nD τ).loc main_arg4) : S512.Idx → EReal) (ix1 u) := by
  rw [V_v5]
  refine (mulf_apply _ _ _).trans ?_
  rw [broadcastInDim_scalar_apply]
  rfl

theorem V_v11_apply (c : Dev nD) (u : Fin 512) : (V m c main_v11 : S512.Idx → EReal) (ix1 u) = scale * (m ((c.tc : Thread nD τ).loc main_arg6) : S512.Idx → EReal) (ix1 u) := by
  rw [V_v11]
  refine (mulf_apply _ _ _).trans ?_
  rw [broadcastInDim_scalar_apply]
  rfl

/-- The table of lengths is the argument (one device). -/
theorem tbl_apply (c : Dev nD) (b : Fin 64) : (tbl m 0 : S64.Idx → BitVec 32) (ix1 b) = (m ((c.tc : Thread nD τ).loc main_arg1) : S64.Idx → BitVec 32) (ix1 b) :=
  congrFun ((V_pre m c 0).symm.trans (V_main_arg1 m c)) (ix1 b)

/-! ## Each input window's block at a grid point, read at an index -/

/-- The block index of the input matrices' window, and of the result's, is the grid coordinate. -/
theorem tr0_0 (i : grid0.Coords) : cc0_transform_0 i 0 = (i 0).val := by
  show (BitVec.ofNat 32 (i 0).val).toNat = (i 0).val
  rw [BitVec.toNat_ofNat]
  have h : (i 0).val < 32 := (i 0).isLt
  exact Nat.mod_eq_of_lt (by omega)

theorem tr7_0 (i : grid0.Coords) : cc0_transform_7 i 0 = (i 0).val := by
  show (BitVec.ofNat 32 (i 0).val).toNat = (i 0).val
  rw [BitVec.toNat_ofNat]
  have h : (i 0).val < 32 := (i 0).isLt
  exact Nat.mod_eq_of_lt (by omega)

/-- The blocks, each named at its literal type. -/
abbrev b0 (hO : Ok m) (c : Dev nD) (t : Fin (cfgM m hO).N) : Vec Ideal S2x512x512 .f32 := iblk m hO c 0 t
abbrev b1 (hO : Ok m) (c : Dev nD) (t : Fin (cfgM m hO).N) : Vec Ideal S512x512 .bf16 := iblk m hO c 1 t
abbrev b2 (hO : Ok m) (c : Dev nD) (t : Fin (cfgM m hO).N) : Vec Ideal S512x512 .bf16 := iblk m hO c 2 t
abbrev b3 (hO : Ok m) (c : Dev nD) (t : Fin (cfgM m hO).N) : Vec Ideal S512x512 .bf16 := iblk m hO c 3 t
abbrev b4 (hO : Ok m) (c : Dev nD) (t : Fin (cfgM m hO).N) : Vec Ideal S512 .f32 := iblk m hO c 4 t
abbrev b5 (hO : Ok m) (c : Dev nD) (t : Fin (cfgM m hO).N) : Vec Ideal S512 .f32 := iblk m hO c 5 t
abbrev b6 (hO : Ok m) (c : Dev nD) (t : Fin (cfgM m hO).N) : Vec Ideal S512 .f32 := iblk m hO c 6 t

/-- The two input matrices of point `t`: batch entries 2t and 2t + 1 of the argument. -/
theorem b0_apply (hO : Ok m) (c : Dev nD) (t : Fin (cfgM m hO).N) (a : Fin 2) (n e : Fin 512) :
    b0 m hO c t (ix3 a n e) = (V m c main_arg0 : S64x512x512.Idx → EReal) (ix3 (entry (grid0.coords t) a) n e) := by
  unfold b0 iblk
  refine (View.read_apply _ _).trans ?_
  show V m c main_arg0 _ = V m c main_arg0 _
  congr 1
  funext k; apply Fin.ext
  match k with
  | ⟨0, _⟩ => show cc0_transform_0 (grid0.coords t) 0 * 2 + 1 * a.val = 2 * (grid0.coords t 0).val + a.val
              rw [tr0_0]; omega
  | ⟨1, _⟩ => show cc0_transform_0 (grid0.coords t) 1 * 512 + 1 * n.val = n.val
              rw [show cc0_transform_0 (grid0.coords t) 1 = 0 from rfl]; omega
  | ⟨2, _⟩ => show cc0_transform_0 (grid0.coords t) 2 * 512 + 1 * e.val = e.val
              rw [show cc0_transform_0 (grid0.coords t) 2 = 0 from rfl]; omega

/-- The weight windows and the bias windows have block index 0 and are their whole arrays. -/
theorem b1_apply (hO : Ok m) (c : Dev nD) (t : Fin (cfgM m hO).N) (u v : Fin 512) :
    b1 m hO c t (ix2 u v) = (V m c main_v0 : S512x512.Idx → EReal) (ix2 u v) := by
  unfold b1 iblk
  refine (View.read_apply _ _).trans ?_
  show V m c main_v0 _ = V m c main_v0 _
  congr 1
  funext a; apply Fin.ext
  match a with
  | ⟨0, _⟩ => show cc0_transform_1 (grid0.coords t) 0 * 512 + 1 * u.val = u.val
              rw [show cc0_transform_1 (grid0.coords t) 0 = 0 from rfl]; omega
  | ⟨1, _⟩ => show cc0_transform_1 (grid0.coords t) 1 * 512 + 1 * v.val = v.val
              rw [show cc0_transform_1 (grid0.coords t) 1 = 0 from rfl]; omega

theorem b2_apply (hO : Ok m) (c : Dev nD) (t : Fin (cfgM m hO).N) (u v : Fin 512) :
    b2 m hO c t (ix2 u v) = (V m c main_v3 : S512x512.Idx → EReal) (ix2 u v) := by
  unfold b2 iblk
  refine (View.read_apply _ _).trans ?_
  show V m c main_v3 _ = V m c main_v3 _
  congr 1
  funext a; apply Fin.ext
  match a with
  | ⟨0, _⟩ => show cc0_transform_2 (grid0.coords t) 0 * 512 + 1 * u.val = u.val
              rw [show cc0_transform_2 (grid0.coords t) 0 = 0 from rfl]; omega
  | ⟨1, _⟩ => show cc0_transform_2 (grid0.coords t) 1 * 512 + 1 * v.val = v.val
              rw [show cc0_transform_2 (grid0.coords t) 1 = 0 from rfl]; omega

theorem b3_apply (hO : Ok m) (c : Dev nD) (t : Fin (cfgM m hO).N) (u v : Fin 512) :
    b3 m hO c t (ix2 u v) = (V m c main_v9 : S512x512.Idx → EReal) (ix2 u v) := by
  unfold b3 iblk
  refine (View.read_apply _ _).trans ?_
  show V m c main_v9 _ = V m c main_v9 _
  congr 1
  funext a; apply Fin.ext
  match a with
  | ⟨0, _⟩ => show cc0_transform_3 (grid0.coords t) 0 * 512 + 1 * u.val = u.val
              rw [show cc0_transform_3 (grid0.coords t) 0 = 0 from rfl]; omega
  | ⟨1, _⟩ => show cc0_transform_3 (grid0.coords t) 1 * 512 + 1 * v.val = v.val
              rw [show cc0_transform_3 (grid0.coords t) 1 = 0 from rfl]; omega

theorem b4_apply (hO : Ok m) (c : Dev nD) (t : Fin (cfgM m hO).N) (u : Fin 512) :
    b4 m hO c t (ix1 u) = (V m c main_v5 : S512.Idx → EReal) (ix1 u) := by
  unfold b4 iblk
  refine (View.read_apply _ _).trans ?_
  show V m c main_v5 _ = V m c main_v5 _
  congr 1
  funext a; apply Fin.ext
  match a with
  | ⟨0, _⟩ => show cc0_transform_4 (grid0.coords t) 0 * 512 + 1 * u.val = u.val
              rw [show cc0_transform_4 (grid0.coords t) 0 = 0 from rfl]; omega

theorem b5_apply (hO : Ok m) (c : Dev nD) (t : Fin (cfgM m hO).N) (u : Fin 512) :
    b5 m hO c t (ix1 u) = (V m c main_v11 : S512.Idx → EReal) (ix1 u) := by
  unfold b5 iblk
  refine (View.read_apply _ _).trans ?_
  show V m c main_v11 _ = V m c main_v11 _
  congr 1
  funext a; apply Fin.ext
  match a with
  | ⟨0, _⟩ => show cc0_transform_5 (grid0.coords t) 0 * 512 + 1 * u.val = u.val
              rw [show cc0_transform_5 (grid0.coords t) 0 = 0 from rfl]; omega

theorem b6_apply (hO : Ok m) (c : Dev nD) (t : Fin (cfgM m hO).N) (u : Fin 512) :
    b6 m hO c t (ix1 u) = (V m c main_arg7 : S512.Idx → EReal) (ix1 u) := by
  unfold b6 iblk
  refine (View.read_apply _ _).trans ?_
  show V m c main_arg7 _ = V m c main_arg7 _
  congr 1
  funext a; apply Fin.ext
  match a with
  | ⟨0, _⟩ => show cc0_transform_6 (grid0.coords t) 0 * 512 + 1 * u.val = u.val
              rw [show cc0_transform_6 (grid0.coords t) 0 = 0 from rfl]; omega

/-! ## What a grid point writes back, and the array after the run -/

/-- Three steps depend on the weights, the biases, the mask and the input matrix only through their entries. -/
theorem iter3_stepK_congr (s : EReal) {Wa Wa' WbS WbS' WcST WcST' : Mat} {bbS bbS' bcS bcS' bias bias' mask mask' : Row} {x x' : Mat}
    (h1 : ∀ u v, Wa u v = Wa' u v) (h2 : ∀ u v, WbS u v = WbS' u v) (h3 : ∀ u v, WcST u v = WcST' u v)
    (h4 : ∀ u, bbS u = bbS' u) (h5 : ∀ u, bcS u = bcS' u) (h6 : ∀ u, bias u = bias' u) (h7 : mask = mask')
    (h0 : ∀ n e, x n e = x' n e) (p d : Fin 512) :
    iter3 (stepK s Wa WbS WcST bbS bcS bias mask) x p d = iter3 (stepK s Wa' WbS' WcST' bbS' bcS' bias' mask') x' p d := by
  obtain rfl : Wa = Wa' := funext fun u => funext fun v => h1 u v
  obtain rfl : WbS = WbS' := funext fun u => funext fun v => h2 u v
  obtain rfl : WcST = WcST' := funext fun u => funext fun v => h3 u v
  obtain rfl : bbS = bbS' := funext fun u => h4 u
  obtain rfl : bcS = bcS' := funext fun u => h5 u
  obtain rfl : bias = bias' := funext fun u => h6 u
  obtain rfl : x = x' := funext fun n => funext fun e => h0 n e
  subst h7
  rfl

/-- What point `t` leaves in the output block, at half `a`, row `p`, column `d`: the result function at batch entry
    2t + a. -/
theorem outs_apply (hO : Ok m) (c : Dev nD) (t : Fin (cfgM m hO).N) (a : Fin 2) (p d : Fin 512) :
    (outsAt0 m hO c t : Vec Ideal S2x512x512 .f32) (ix3 a p d) = G m c (ix3 (entry (grid0.coords t) a) p d) := by
  unfold outsAt0
  refine (out0_A_7_apply c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (b0 m hO c t) (b1 m hO c t) (b2 m hO c t) (b3 m hO c t) (b4 m hO c t) (b5 m hO c t) (b6 m hO c t) (tbl m 0) a p d).trans ?_
  refine (iter3_stepK_congr slope
    (fun u v => (b1_apply m hO c t u v).trans (V_v0_apply m c u v))
    (fun u v => (b2_apply m hO c t u v).trans (V_v3_apply m c u v))
    (fun u v => (b3_apply m hO c t u v).trans (V_v9_apply m c u v))
    (fun u => (b4_apply m hO c t u).trans (V_v5_apply m c u))
    (fun u => (b5_apply m hO c t u).trans (V_v11_apply m c u))
    (fun u => (b6_apply m hO c t u).trans (congrFun (V_main_arg7 m c) (ix1 u)))
    (congrArg maskOf (tbl_apply m c (entry (grid0.coords t) a)))
    (fun n e => (b0_apply m hO c t a n e).trans (congrFun (V_main_arg0 m c) (ix3 (entry (grid0.coords t) a) n e))) p d).trans ?_
  exact (G_apply m c (entry (grid0.coords t) a) p d).symm

/-- What point `t` writes back is its block of the result function. -/
theorem flushed_eq (hO : Ok m) (c : Dev nD) (t : Fin (cfgM m hO).N) :
    (dats m hO 0 c).flushed 7 t = (((cfgM m hO).win 7).blk t).view.read (Elt Ideal) (G m c) := by
  show ((cfgM m hO).win 7).cut (grid0.coords t) ((dats m hO 0 c).after 7 t) = _
  rw [after0_7]
  refine funext fun (y : S2x512x512.Idx) => ?_
  obtain ⟨a, p, d, rfl⟩ : ∃ a p d, y = ix3 a p d := ⟨y 0, y 1, y 2, eq_ix3 y⟩
  refine Eq.trans ?_ (View.read_apply _ _).symm
  show (outsAt0 m hO c t : Vec Ideal S2x512x512 .f32) (ix3 a p d) = G m c ((((cfgM m hO).win 7).blk t).view.emb (ix3 a p d))
  refine (outs_apply m hO c t a p d).trans ?_
  refine congrArg (G m c) ?_
  funext k; apply Fin.ext
  match k with
  | ⟨0, _⟩ => show 2 * (grid0.coords t 0).val + a.val = cc0_transform_7 (grid0.coords t) 0 * 2 + 1 * a.val
              rw [tr7_0]; omega
  | ⟨1, _⟩ => show p.val = cc0_transform_7 (grid0.coords t) 1 * 512 + 1 * p.val
              rw [show cc0_transform_7 (grid0.coords t) 1 = 0 from rfl]; omega
  | ⟨2, _⟩ => show d.val = cc0_transform_7 (grid0.coords t) 2 * 512 + 1 * d.val
              rw [show cc0_transform_7 (grid0.coords t) 2 = 0 from rfl]; omega

/-- The grid's one coordinate at point `t` is `t`. -/
theorem coords_val : ∀ t : Fin grid0.N, (grid0.coords t 0).val = t.val := by decide +kernel

/-- Every index of the result array is in the block of the point that is half its batch entry. -/
theorem cover (hO : Ok m) (c : Dev nD) (i : S64x512x512.Idx) :
    ∃ t : Fin (cfgM m hO).N, ((cfgM m hO).win 7).flush t = true ∧ i ∈ (((cfgM m hO).win 7).blk t).view.set := by
  have hi0 : (i 0).val < 64 := (i 0).isLt
  have hi1 : (i 1).val < 512 := (i 1).isLt
  have hi2 : (i 2).val < 512 := (i 2).isLt
  have hN : grid0.N = 32 := N_0
  have ht : (i 0).val / 2 < grid0.N := by rw [hN]; omega
  refine ⟨⟨(i 0).val / 2, ht⟩, flush0_7 (adm m hO) _, ?_⟩
  show i ∈ ((View.whole main_v12).slice (((cfgM m hO).win 7).rect ⟨(i 0).val / 2, ht⟩)).set
  refine Eq.mpr (congrArg (fun s => i ∈ s) (View.set_slice_whole main_v12 (((cfgM m hO).win 7).rect ⟨(i 0).val / 2, ht⟩))) ?_
  refine Rect.mem_set_unit.mpr ?_
  intro a
  match a with
  | ⟨0, _⟩ => show cc0_transform_7 (grid0.coords ⟨(i 0).val / 2, ht⟩) 0 * 2 ≤ (i 0).val ∧ (i 0).val < cc0_transform_7 (grid0.coords ⟨(i 0).val / 2, ht⟩) 0 * 2 + 2
              rw [tr7_0, coords_val]
              show (i 0).val / 2 * 2 ≤ (i 0).val ∧ (i 0).val < (i 0).val / 2 * 2 + 2
              omega
  | ⟨1, _⟩ => show cc0_transform_7 (grid0.coords ⟨(i 0).val / 2, ht⟩) 1 * 512 ≤ (i 1).val ∧ (i 1).val < cc0_transform_7 (grid0.coords ⟨(i 0).val / 2, ht⟩) 1 * 512 + 512
              rw [show cc0_transform_7 (grid0.coords ⟨(i 0).val / 2, ht⟩) 1 = 0 from rfl]; omega
  | ⟨2, _⟩ => show cc0_transform_7 (grid0.coords ⟨(i 0).val / 2, ht⟩) 2 * 512 ≤ (i 2).val ∧ (i 2).val < cc0_transform_7 (grid0.coords ⟨(i 0).val / 2, ht⟩) 2 * 512 + 512
              rw [show cc0_transform_7 (grid0.coords ⟨(i 0).val / 2, ht⟩) 2 = 0 from rfl]; omega

/-- So the result array ends holding the result function. -/
theorem final (hO : Ok m) (c : Dev nD) : (dats m hO 0 c).arrAt 7 (cfgM m hO).N = G m c :=
  (dats m hO 0 c).arrAt_eq_of_cover 7 (G m c) (fun t _ => flushed_eq m hO c t) (cover m hO c)

/-- The pipeline's side condition on the table of lengths is empty: no index map reads the table. -/
theorem hOk : Ok m := by
  show ok0 (F := Ideal) (tbl m)
  unfold ok0
  exact trivial

/-- The kernel program's run, read: the result array at `G`, the arguments unchanged. -/
theorem run : θ_run defs (onTc (τ := τ) (main (F := Ideal))) ⟨m, fun _ => 0, ρ⟩ fun r => ∀ c : Dev nD,
      r.2.mem ((c.tc : Thread nD τ).loc main_v12) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨((h c).1 7).trans (final m (hOk m) c),
      ((h c).1 0).trans (((dats m (hOk m) 0 c).arrAt_in 0 rfl _).trans ((A_eq m (hOk m) c 0).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c),
      ((h c).1 6).trans (((dats m (hOk m) 0 c).arrAt_in 6 rfl _).trans ((A_eq m (hOk m) c 6).trans (V_main_arg7 m c)))⟩)
    (run_main m ρ (hOk m))

end Cert.KernelIdeal.KArr

end
-- ==== Proof.RFn.lean ====
/-
  The reference's computation as functions of whole arrays, written with the host operations the printed reference
  applies: the column mask from the lengths, one attention step over all batch entries at once, and the result, three
  steps from the input.
-/
import proofs.«421348_j78365973282924_2_alg».proof.ReferenceIdeal

noncomputable section

namespace Cert.ReferenceIdeal.RFn

open Idealize.ShloMosaic Cert.ReferenceIdeal Cert.ReferenceIdeal.Facts₀ Cert.ReferenceIdeal.Facts

variable {F : FTy → Type} [FloatOps F] [Facts]

abbrev T3 (F : FTy → Type) : Type := (⟨S64x512x512, .f32⟩ : BufTy).Contents (Elt F)
abbrev T2 (F : FTy → Type) : Type := (⟨S512x512, .f32⟩ : BufTy).Contents (Elt F)
abbrev T1 (F : FTy → Type) : Type := (⟨S512, .f32⟩ : BufTy).Contents (Elt F)
abbrev TM (F : FTy → Type) : Type := (⟨S64x1x512, .f32⟩ : BufTy).Contents (Elt F)
abbrev TL (F : FTy → Type) : Type := (⟨S64, .i32⟩ : BufTy).Contents (Elt F)

/-- A scalar constant spread over [64, 512, 512]. -/
abbrev splat3 (b : BitVec 32) : T3 F := broadcastInDim S64x512x512 ![] bcast_S_S64x512x512 (constant S_ .f32 b)

/-- A vector of [512] spread along the last axis of [64, 512, 512]. -/
abbrev lastAxis (v : T1 F) : T3 F :=
  broadcastInDim S64x512x512 ![0, 1, 2] bcast_S1x1x512_S64x512x512_0_1_2 (broadcastInDim S1x1x512 ![2] bcast_S512_S1x1x512_2 v)

/-- An array of [64, 512] spread along a new last axis. -/
abbrev keepLast (v : (⟨S64x512, .f32⟩ : BufTy).Contents (Elt F)) : T3 F :=
  broadcastInDim S64x512x512 ![0, 1, 2] bcast_S64x512x1_S64x512x512_0_1_2 (broadcastInDim S64x512x1 ![0, 1] bcast_S64x512_S64x512x1_0_1 v)

/-- The additive mask [64, 1, 512]: 0 where the column is before the entry's length, −∞ elsewhere. -/
def rMask (len : TL F) : TM F :=
  broadcastInDim S64x1x512 ![0, 2] bcast_S64x512_S64x1x512_0_2
    (select
      (cmpi .slt
        (broadcastInDim S64x512 ![0, 1] bcast_S1x512_S64x512_0_1 (broadcastInDim S1x512 ![1] bcast_S512_S1x512_1 (iotaInDim S512 32 0)))
        (broadcastInDim S64x512 ![0, 1] bcast_S64x1_S64x512_0_1 (broadcastInDim S64x1 ![0] bcast_S64_S64x1_0 len)))
      (broadcastInDim S64x512 ![] bcast_S_S64x512 (constant S_ .f32 0x00000000#32))
      (broadcastInDim S64x512 ![] bcast_S_S64x512 (constant S_ .f32 0xFF800000#32)))

/-- h = xᵀ · Waᵀ per batch entry. -/
def rH (wa : T2 F) (x : T3 F) : T3 F :=
  Host.dotGeneral dot_S64x512x512_S512x512_S64x512x512_2_1_01_0_n_n none
    (transpose S64x512x512 [0, 2, 1] x transposes_S64x512x512_S64x512x512_0_2_1) wa

/-- The scaled logits. -/
def rZ (wb wc : T2 F) (bb bc : T1 F) (h : T3 F) : T3 F :=
  mulf
    (addf
      (transpose S64x512x512 [0, 2, 1]
        (addf (Host.dotGeneral dot_S64x512x512_S512x512_S64x512x512_2_1_01_0_n_n none h wb) (lastAxis bb))
        transposes_S64x512x512_S64x512x512_0_2_1)
      (addf (Host.dotGeneral dot_S64x512x512_S512x512_S64x512x512_2_1_01_0_n_n none h wc) (lastAxis bc)))
    (splat3 0x3D3504F3#32)

/-- Leaky rectifier, then the mask. -/
def rS (mask : TM F) (z : T3 F) : T3 F :=
  addf
    (select (cmpf .oge z (splat3 0x00000000#32)) z
      (mulf (broadcastInDim S64x512x512 ![] bcast_S_S64x512x512 (id (constant S_ .f32 0x3E4CCCCD#32))) z))
    (broadcastInDim S64x512x512 ![0, 1, 2] bcast_S64x1x512_S64x512x512_0_1_2 (id mask))

/-- Softmax along the last axis, the weighted sum with hᵀ, the bias. -/
def rO (bias : T1 F) (h s : T3 F) : T3 F :=
  have mx : T3 F := keepLast (maximumf (broadcastInDim S64x512 ![] bcast_S_S64x512 (constant S_ .f32 0xFF800000#32))
    (Host.reduce FloatOps.maximumf s (constant S_ .f32 0xFF800000#32) reducesTo_S64x512x512_S64x512_d2 h_S_))
  have p : T3 F := Host.exp (subf s mx)
  have dn : T3 F := keepLast (Host.reduceAdd p (constant S_ .f32 0x00000000#32) reducesTo_S64x512x512_S64x512_d2 h_S_)
  addf
    (Host.dotGeneral dot_S64x512x512_S64x512x512_S64x512x512_2_1_1_2_0_0 none (Host.divf p dn)
      (transpose S64x512x512 [0, 2, 1] h transposes_S64x512x512_S64x512x512_0_2_1))
    (lastAxis bias)

/-- The exponential linear unit as jax states it. -/
def rElu (o : T3 F) : T3 F :=
  select (cmpf .ogt o (splat3 0x00000000#32)) o
    (mulf (splat3 0x3F800000#32)
      (Host.expm1
        (select (cmpf .ogt o (splat3 0x00000000#32))
          (broadcastInDim S64x512x512 ![] bcast_S_S64x512x512 (id (constant S_ .f32 0x00000000#32))) o)))

/-- One step. -/
def rStep (wa wb wc : T2 F) (bb bc bias : T1 F) (mask : TM F) (x : T3 F) : T3 F :=
  rElu (rO bias (rH wa x) (rS mask (rZ wb wc bb bc (rH wa x))))

/-- The reference's result: three steps. -/
def rResult (x : T3 F) (len : TL F) (wa wb : T2 F) (bb : T1 F) (wc : T2 F) (bc bias : T1 F) : T3 F :=
  rStep wa wb wc bb bc bias (rMask len) (rStep wa wb wc bb bc bias (rMask len) (rStep wa wb wc bb bc bias (rMask len) x))

end Cert.ReferenceIdeal.RFn

end
-- ==== Proof.RRun.lean ====
/-
  The reference program's run: its host operations in order, and that every execution ends with the result buffer at
  the function `RFn.rResult` of the argument arrays, the arguments unchanged.
-/
import proofs.«421348_j78365973282924_2_alg».proof.Proof.RFn
import proofs.«421348_j78365973282924_2_alg».proof.Proof.Gen.ReferenceIdeal
import Idealize.ShloMosaic.Lib.StableHlo.Run

noncomputable section

namespace Cert.ReferenceIdeal.RRun

open Cert.ReferenceIdeal Cert.ReferenceIdeal.Gen Idealize.ShloMosaic Idealize.ShloMosaic.TcCoe Idealize.SL.Sem Idealize.ShloMosaic.StableHlo

variable {F : FTy → Type} [FloatOps F]

/-! ## The operations

@main's statements in order, each call replaced by the callee's operations over the call's buffers, cut into four
stretches: the mask, then the three steps. -/

/-- The column mask, statements %0 to %7 with the select's three operations inline: twelve operations. -/
def ops0 : List (HloOp τ sig (Elt F)) :=
  [ StableHlo.nullary main_v0 (iotaInDim S512 32 0),
    StableHlo.unary main_v0 main_v1 (broadcastInDim S1x512 ![1] bcast_S512_S1x512_1 : (⟨S512, .i32⟩ : BufTy).Contents (Elt F) → (⟨S1x512, .i32⟩ : BufTy).Contents (Elt F)),
    StableHlo.unary main_arg1 main_v2 (broadcastInDim S64x1 ![0] bcast_S64_S64x1_0 : (⟨S64, .i32⟩ : BufTy).Contents (Elt F) → (⟨S64x1, .i32⟩ : BufTy).Contents (Elt F)),
    StableHlo.unary main_v1 main_v3 (broadcastInDim S64x512 ![0, 1] bcast_S1x512_S64x512_0_1 : (⟨S1x512, .i32⟩ : BufTy).Contents (Elt F) → (⟨S64x512, .i32⟩ : BufTy).Contents (Elt F)),
    StableHlo.unary main_v2 main_v4 (broadcastInDim S64x512 ![0, 1] bcast_S64x1_S64x512_0_1 : (⟨S64x1, .i32⟩ : BufTy).Contents (Elt F) → (⟨S64x512, .i32⟩ : BufTy).Contents (Elt F)),
    StableHlo.binary main_v3 main_v4 main_v5 (cmpi .slt : (⟨S64x512, .i32⟩ : BufTy).Contents (Elt F) → (⟨S64x512, .i32⟩ : BufTy).Contents (Elt F) → (⟨S64x512, .i1⟩ : BufTy).Contents (Elt F)),
    StableHlo.nullary main_cst (constant S_ .f32 0x00000000#32),
    StableHlo.nullary main_cst_0 (constant S_ .f32 0xFF800000#32),
    StableHlo.TRef.unary (.of main_cst : StableHlo.TRef sig ⟨S_, .f32⟩) main_call0.v0 (broadcastInDim S64x512 ![] bcast_S_S64x512),
    StableHlo.TRef.unary (.of main_cst_0 : StableHlo.TRef sig ⟨S_, .f32⟩) main_call0.v1 (broadcastInDim S64x512 ![] bcast_S_S64x512),
    StableHlo.TRef.ternary (.of main_v5 : StableHlo.TRef sig ⟨S64x512, .i1⟩) main_call0.v0 main_call0.v1 main_call0.v2 select,
    StableHlo.unary main_v6 main_v7 (broadcastInDim S64x1x512 ![0, 2] bcast_S64x512_S64x1x512_0_2 : (⟨S64x512, .f32⟩ : BufTy).Contents (Elt F) → (⟨S64x1x512, .f32⟩ : BufTy).Contents (Elt F)) ]

/-- The first step, statements %8 to %42 with the rectifier's seven and the exponential unit's fifteen operations inline: sixty operations. -/
def ops1 : List (HloOp τ sig (Elt F)) :=
  [ StableHlo.unary main_arg0 main_v8 ((transpose S64x512x512 [0, 2, 1] · transposes_S64x512x512_S64x512x512_0_2_1) : (⟨S64x512x512, .f32⟩ : BufTy).Contents (Elt F) → (⟨S64x512x512, .f32⟩ : BufTy).Contents (Elt F)),
    StableHlo.binary main_v8 main_arg2 main_v9 ((fun l r => Host.dotGeneral dot_S64x512x512_S512x512_S64x512x512_2_1_01_0_n_n none l r) : (⟨S64x512x512, .f32⟩ : BufTy).Contents (Elt F) → (⟨S512x512, .f32⟩ : BufTy).Contents (Elt F) → (⟨S64x512x512, .f32⟩ : BufTy).Contents (Elt F)),
    StableHlo.binary main_v9 main_arg3 main_v10 ((fun l r => Host.dotGeneral dot_S64x512x512_S512x512_S64x512x512_2_1_01_0_n_n none l r) : (⟨S64x512x512, .f32⟩ : BufTy).Contents (Elt F) → (⟨S512x512, .f32⟩ : BufTy).Contents (Elt F) → (⟨S64x512x512, .f32⟩ : BufTy).Contents (Elt F)),
    StableHlo.unary main_arg4 main_v11 (broadcastInDim S1x1x512 ![2] bcast_S512_S1x1x512_2 : (⟨S512, .f32⟩ : BufTy).Contents (Elt F) → (⟨S1x1x512, .f32⟩ : BufTy).Contents (Elt F)),
    StableHlo.unary main_v11 main_v12 (broadcastInDim S64x512x512 ![0, 1, 2] bcast_S1x1x512_S64x512x512_0_1_2 : (⟨S1x1x512, .f32⟩ : BufTy).Contents (Elt F) → (⟨S64x512x512, .f32⟩ : BufTy).Contents (Elt F)),
    StableHlo.binary main_v10 main_v12 main_v13 (addf : (⟨S64x512x512, .f32⟩ : BufTy).Contents (Elt F) → (⟨S64x512x512, .f32⟩ : BufTy).Contents (Elt F) → (⟨S64x512x512, .f32⟩ : BufTy).Contents (Elt F)),
    StableHlo.binary main_v9 main_arg5 main_v14 ((fun l r => Host.dotGeneral dot_S64x512x512_S512x512_S64x512x512_2_1_01_0_n_n none l r) : (⟨S64x512x512, .f32⟩ : BufTy).Contents (Elt F) → (⟨S512x512, .f32⟩ : BufTy).Contents (Elt F) → (⟨S64x512x512, .f32⟩ : BufTy).Contents (Elt F)),
    StableHlo.unary main_arg6 main_v15 (broadcastInDim S1x1x512 ![2] bcast_S512_S1x1x512_2 : (⟨S512, .f32⟩ : BufTy).Contents (Elt F) → (⟨S1x1x512, .f32⟩ : BufTy).Contents (Elt F)),
    StableHlo.unary main_v15 main_v16 (broadcastInDim S64x512x512 ![0, 1, 2] bcast_S1x1x512_S64x512x512_0_1_2 : (⟨S1x1x512, .f32⟩ : BufTy).Contents (Elt F) → (⟨S64x512x512, .f32⟩ : BufTy).Contents (Elt F)),
    StableHlo.binary main_v14 main_v16 main_v17 (addf : (⟨S64x512x512, .f32⟩ : BufTy).Contents (Elt F) → (⟨S64x512x512, .f32⟩ : BufTy).Contents (Elt F) → (⟨S64x512x512, .f32⟩ : BufTy).Contents (Elt F)),
    StableHlo.unary main_v13 main_v18 ((transpose S64x512x512 [0, 2, 1] · transposes_S64x512x512_S64x512x512_0_2_1) : (⟨S64x512x512, .f32⟩ : BufTy).Contents (Elt F) → (⟨S64x512x512, .f32⟩ : BufTy).Contents (Elt F)),
    StableHlo.binary main_v18 main_v17 main_v19 (addf : (⟨S64x512x512, .f32⟩ : BufTy).Contents (Elt F) → (⟨S64x512x512, .f32⟩ : BufTy).Contents (Elt F) → (⟨S64x512x512, .f32⟩ : BufTy).Contents (Elt F)),
    StableHlo.nullary main_cst_1 (constant S_ .f32 0x3D3504F3#32),
    StableHlo.unary main_cst_1 main_v20 (broadcastInDim S64x512x512 ![] bcast_S_S64x512x512 : (⟨S_, .f32⟩ : BufTy).Contents (Elt F) → (⟨S64x512x512, .f32⟩ : BufTy).Contents (Elt F)),
    StableHlo.binary main_v19 main_v20 main_v21 (mulf : (⟨S64x512x512, .f32⟩ : BufTy).Contents (Elt F) → (⟨S64x512x512, .f32⟩ : BufTy).Contents (Elt F) → (⟨S64x512x512, .f32⟩ : BufTy).Contents (Elt F)),
    StableHlo.nullary main_cst_2 (constant S_ .f32 0x3E4CCCCD#32),
    StableHlo.TRef.nullary main_call1.cst (constant S_ .f32 0x00000000#32),
    StableHlo.TRef.unary main_call1.cst main_call1.v0 (broadcastInDim S64x512x512 ![] bcast_S_S64x512x512),
    StableHlo.TRef.binary (.of main_v21 : StableHlo.TRef sig ⟨S64x512x512, .f32⟩) main_call1.v0 main_call1.v1 (cmpf .oge),
    StableHlo.TRef.unary (.of main_cst_2 : StableHlo.TRef sig ⟨S_, .f32⟩) main_call1.v2 id,
    StableHlo.TRef.unary main_call1.v2 main_call1.v3 (broadcastInDim S64x512x512 ![] bcast_S_S64x512x512),
    StableHlo.TRef.binary main_call1.v3 (.of main_v21 : StableHlo.TRef sig ⟨S64x512x512, .f32⟩) main_call1.v4 mulf,
    StableHlo.TRef.ternary main_call1.v1 (.of main_v21 : StableHlo.TRef sig ⟨S64x512x512, .f32⟩) main_call1.v4 main_call1.call0.v0 select,
    StableHlo.unary main_v7 main_v23 (id : (⟨S64x1x512, .f32⟩ : BufTy).Contents (Elt F) → (⟨S64x1x512, .f32⟩ : BufTy).Contents (Elt F)),
    StableHlo.unary main_v23 main_v24 (broadcastInDim S64x512x512 ![0, 1, 2] bcast_S64x1x512_S64x512x512_0_1_2 : (⟨S64x1x512, .f32⟩ : BufTy).Contents (Elt F) → (⟨S64x512x512, .f32⟩ : BufTy).Contents (Elt F)),
    StableHlo.binary main_v22 main_v24 main_v25 (addf : (⟨S64x512x512, .f32⟩ : BufTy).Contents (Elt F) → (⟨S64x512x512, .f32⟩ : BufTy).Contents (Elt F) → (⟨S64x512x512, .f32⟩ : BufTy).Contents (Elt F)),
    StableHlo.nullary main_cst_3 (constant S_ .f32 0xFF800000#32),
    StableHlo.binary main_v25 main_cst_3 main_v26 ((fun x v => Host.reduce FloatOps.maximumf x v reducesTo_S64x512x512_S64x512_d2 h_S_) : (⟨S64x512x512, .f32⟩ : BufTy).Contents (Elt F) → (⟨S_, .f32⟩ : BufTy).Contents (Elt F) → (⟨S64x512, .f32⟩ : BufTy).Contents (Elt F)),
    StableHlo.nullary main_cst_4 (constant S_ .f32 0xFF800000#32),
    StableHlo.unary main_cst_4 main_v27 (broadcastInDim S64x512 ![] bcast_S_S64x512 : (⟨S_, .f32⟩ : BufTy).Contents (Elt F) → (⟨S64x512, .f32⟩ : BufTy).Contents (Elt F)),
    StableHlo.binary main_v27 main_v26 main_v28 (maximumf : (⟨S64x512, .f32⟩ : BufTy).Contents (Elt F) → (⟨S64x512, .f32⟩ : BufTy).Contents (Elt F) → (⟨S64x512, .f32⟩ : BufTy).Contents (Elt F)),
    StableHlo.unary main_v28 main_v29 (broadcastInDim S64x512x1 ![0, 1] bcast_S64x512_S64x512x1_0_1 : (⟨S64x512, .f32⟩ : BufTy).Contents (Elt F) → (⟨S64x512x1, .f32⟩ : BufTy).Contents (Elt F)),
    StableHlo.unary main_v29 main_v30 (broadcastInDim S64x512x512 ![0, 1, 2] bcast_S64x512x1_S64x512x512_0_1_2 : (⟨S64x512x1, .f32⟩ : BufTy).Contents (Elt F) → (⟨S64x512x512, .f32⟩ : BufTy).Contents (Elt F)),
    StableHlo.binary main_v25 main_v30 main_v31 (subf : (⟨S64x512x512, .f32⟩ : BufTy).Contents (Elt F) → (⟨S64x512x512, .f32⟩ : BufTy).Contents (Elt F) → (⟨S64x512x512, .f32⟩ : BufTy).Contents (Elt F)),
    StableHlo.unary main_v31 main_v32 (Host.exp : (⟨S64x512x512, .f32⟩ : BufTy).Contents (Elt F) → (⟨S64x512x512, .f32⟩ : BufTy).Contents (Elt F)),
    StableHlo.nullary main_cst_5 (constant S_ .f32 0x00000000#32),
    StableHlo.binary main_v32 main_cst_5 main_v33 ((fun x v => Host.reduceAdd x v reducesTo_S64x512x512_S64x512_d2 h_S_) : (⟨S64x512x512, .f32⟩ : BufTy).Contents (Elt F) → (⟨S_, .f32⟩ : BufTy).Contents (Elt F) → (⟨S64x512, .f32⟩ : BufTy).Contents (Elt F)),
    StableHlo.unary main_v33 main_v34 (broadcastInDim S64x512x1 ![0, 1] bcast_S64x512_S64x512x1_0_1 : (⟨S64x512, .f32⟩ : BufTy).Contents (Elt F) → (⟨S64x512x1, .f32⟩ : BufTy).Contents (Elt F)),
    StableHlo.unary main_v34 main_v35 (broadcastInDim S64x512x512 ![0, 1, 2] bcast_S64x512x1_S64x512x512_0_1_2 : (⟨S64x512x1, .f32⟩ : BufTy).Contents (Elt F) → (⟨S64x512x512, .f32⟩ : BufTy).Contents (Elt F)),
    StableHlo.binary main_v32 main_v35 main_v36 (Host.divf : (⟨S64x512x512, .f32⟩ : BufTy).Contents (Elt F) → (⟨S64x512x512, .f32⟩ : BufTy).Contents (Elt F) → (⟨S64x512x512, .f32⟩ : BufTy).Contents (Elt F)),
    StableHlo.unary main_v9 main_v37 ((transpose S64x512x512 [0, 2, 1] · transposes_S64x512x512_S64x512x512_0_2_1) : (⟨S64x512x512, .f32⟩ : BufTy).Contents (Elt F) → (⟨S64x512x512, .f32⟩ : BufTy).Contents (Elt F)),
    StableHlo.binary main_v36 main_v37 main_v38 ((fun l r => Host.dotGeneral dot_S64x512x512_S64x512x512_S64x512x512_2_1_1_2_0_0 none l r) : (⟨S64x512x512, .f32⟩ : BufTy).Contents (Elt F) → (⟨S64x512x512, .f32⟩ : BufTy).Contents (Elt F) → (⟨S64x512x512, .f32⟩ : BufTy).Contents (Elt F)),
    StableHlo.unary main_arg7 main_v39 (broadcastInDim S1x1x512 ![2] bcast_S512_S1x1x512_2 : (⟨S512, .f32⟩ : BufTy).Contents (Elt F) → (⟨S1x1x512, .f32⟩ : BufTy).Contents (Elt F)),
    StableHlo.unary main_v39 main_v40 (broadcastInDim S64x512x512 ![0, 1, 2] bcast_S1x1x512_S64x512x512_0_1_2 : (⟨S1x1x512, .f32⟩ : BufTy).Contents (Elt F) → (⟨S64x512x512, .f32⟩ : BufTy).Contents (Elt F)),
    StableHlo.binary main_v38 main_v40 main_v41 (addf : (⟨S64x512x512, .f32⟩ : BufTy).Contents (Elt F) → (⟨S64x512x512, .f32⟩ : BufTy).Contents (Elt F) → (⟨S64x512x512, .f32⟩ : BufTy).Contents (Elt F)),
    StableHlo.TRef.nullary main_call2.cst (constant S_ .f32 0x00000000#32),
    StableHlo.TRef.unary main_call2.cst main_call2.v0 (broadcastInDim S64x512x512 ![] bcast_S_S64x512x512),
    StableHlo.TRef.binary (.of main_v41 : StableHlo.TRef sig ⟨S64x512x512, .f32⟩) main_call2.v0 main_call2.v1 (cmpf .ogt),
    StableHlo.TRef.nullary main_call2.cst_0 (constant S_ .f32 0x00000000#32),
    StableHlo.TRef.unary main_call2.cst_0 main_call2.v2 (broadcastInDim S64x512x512 ![] bcast_S_S64x512x512),
    StableHlo.TRef.binary (.of main_v41 : StableHlo.TRef sig ⟨S64x512x512, .f32⟩) main_call2.v2 main_call2.v3 (cmpf .ogt),
    StableHlo.TRef.nullary main_call2.cst_1 (constant S_ .f32 0x00000000#32),
    StableHlo.TRef.unary main_call2.cst_1 main_call2.call0.v0 id,
    StableHlo.TRef.unary main_call2.call0.v0 main_call2.call0.v1 (broadcastInDim S64x512x512 ![] bcast_S_S64x512x512),
    StableHlo.TRef.ternary main_call2.v3 main_call2.call0.v1 (.of main_v41 : StableHlo.TRef sig ⟨S64x512x512, .f32⟩) main_call2.call0.v2 select,
    StableHlo.TRef.unary main_call2.call0.v2 main_call2.v5 Host.expm1,
    StableHlo.TRef.nullary main_call2.cst_2 (constant S_ .f32 0x3F800000#32),
    StableHlo.TRef.unary main_call2.cst_2 main_call2.v6 (broadcastInDim S64x512x512 ![] bcast_S_S64x512x512),
    StableHlo.TRef.binary main_call2.v6 main_call2.v5 main_call2.v7 mulf,
    StableHlo.TRef.ternary main_call2.v1 (.of main_v41 : StableHlo.TRef sig ⟨S64x512x512, .f32⟩) main_call2.v7 main_call2.call1.v0 select ]

/-- The second step, statements %43 to %77 likewise: sixty operations. -/
def ops2 : List (HloOp τ sig (Elt F)) :=
  [ StableHlo.unary main_v42 main_v43 ((transpose S64x512x512 [0, 2, 1] · transposes_S64x512x512_S64x512x512_0_2_1) : (⟨S64x512x512, .f32⟩ : BufTy).Contents (Elt F) → (⟨S64x512x512, .f32⟩ : BufTy).Contents (Elt F)),
    StableHlo.binary main_v43 main_arg2 main_v44 ((fun l r => Host.dotGeneral dot_S64x512x512_S512x512_S64x512x512_2_1_01_0_n_n none l r) : (⟨S64x512x512, .f32⟩ : BufTy).Contents (Elt F) → (⟨S512x512, .f32⟩ : BufTy).Contents (Elt F) → (⟨S64x512x512, .f32⟩ : BufTy).Contents (Elt F)),
    StableHlo.binary main_v44 main_arg3 main_v45 ((fun l r => Host.dotGeneral dot_S64x512x512_S512x512_S64x512x512_2_1_01_0_n_n none l r) : (⟨S64x512x512, .f32⟩ : BufTy).Contents (Elt F) → (⟨S512x512, .f32⟩ : BufTy).Contents (Elt F) → (⟨S64x512x512, .f32⟩ : BufTy).Contents (Elt F)),
    StableHlo.unary main_arg4 main_v46 (broadcastInDim S1x1x512 ![2] bcast_S512_S1x1x512_2 : (⟨S512, .f32⟩ : BufTy).Contents (Elt F) → (⟨S1x1x512, .f32⟩ : BufTy).Contents (Elt F)),
    StableHlo.unary main_v46 main_v47 (broadcastInDim S64x512x512 ![0, 1, 2] bcast_S1x1x512_S64x512x512_0_1_2 : (⟨S1x1x512, .f32⟩ : BufTy).Contents (Elt F) → (⟨S64x512x512, .f32⟩ : BufTy).Contents (Elt F)),
    StableHlo.binary main_v45 main_v47 main_v48 (addf : (⟨S64x512x512, .f32⟩ : BufTy).Contents (Elt F) → (⟨S64x512x512, .f32⟩ : BufTy).Contents (Elt F) → (⟨S64x512x512, .f32⟩ : BufTy).Contents (Elt F)),
    StableHlo.binary main_v44 main_arg5 main_v49 ((fun l r => Host.dotGeneral dot_S64x512x512_S512x512_S64x512x512_2_1_01_0_n_n none l r) : (⟨S64x512x512, .f32⟩ : BufTy).Contents (Elt F) → (⟨S512x512, .f32⟩ : BufTy).Contents (Elt F) → (⟨S64x512x512, .f32⟩ : BufTy).Contents (Elt F)),
    StableHlo.unary main_arg6 main_v50 (broadcastInDim S1x1x512 ![2] bcast_S512_S1x1x512_2 : (⟨S512, .f32⟩ : BufTy).Contents (Elt F) → (⟨S1x1x512, .f32⟩ : BufTy).Contents (Elt F)),
    StableHlo.unary main_v50 main_v51 (broadcastInDim S64x512x512 ![0, 1, 2] bcast_S1x1x512_S64x512x512_0_1_2 : (⟨S1x1x512, .f32⟩ : BufTy).Contents (Elt F) → (⟨S64x512x512, .f32⟩ : BufTy).Contents (Elt F)),
    StableHlo.binary main_v49 main_v51 main_v52 (addf : (⟨S64x512x512, .f32⟩ : BufTy).Contents (Elt F) → (⟨S64x512x512, .f32⟩ : BufTy).Contents (Elt F) → (⟨S64x512x512, .f32⟩ : BufTy).Contents (Elt F)),
    StableHlo.unary main_v48 main_v53 ((transpose S64x512x512 [0, 2, 1] · transposes_S64x512x512_S64x512x512_0_2_1) : (⟨S64x512x512, .f32⟩ : BufTy).Contents (Elt F) → (⟨S64x512x512, .f32⟩ : BufTy).Contents (Elt F)),
    StableHlo.binary main_v53 main_v52 main_v54 (addf : (⟨S64x512x512, .f32⟩ : BufTy).Contents (Elt F) → (⟨S64x512x512, .f32⟩ : BufTy).Contents (Elt F) → (⟨S64x512x512, .f32⟩ : BufTy).Contents (Elt F)),
    StableHlo.nullary main_cst_6 (constant S_ .f32 0x3D3504F3#32),
    StableHlo.unary main_cst_6 main_v55 (broadcastInDim S64x512x512 ![] bcast_S_S64x512x512 : (⟨S_, .f32⟩ : BufTy).Contents (Elt F) → (⟨S64x512x512, .f32⟩ : BufTy).Contents (Elt F)),
    StableHlo.binary main_v54 main_v55 main_v56 (mulf : (⟨S64x512x512, .f32⟩ : BufTy).Contents (Elt F) → (⟨S64x512x512, .f32⟩ : BufTy).Contents (Elt F) → (⟨S64x512x512, .f32⟩ : BufTy).Contents (Elt F)),
    StableHlo.nullary main_cst_7 (constant S_ .f32 0x3E4CCCCD#32),
    StableHlo.TRef.nullary main_call3.cst (constant S_ .f32 0x00000000#32),
    StableHlo.TRef.unary main_call3.cst main_call3.v0 (broadcastInDim S64x512x512 ![] bcast_S_S64x512x512),
    StableHlo.TRef.binary (.of main_v56 : StableHlo.TRef sig ⟨S64x512x512, .f32⟩) main_call3.v0 main_call3.v1 (cmpf .oge),
    StableHlo.TRef.unary (.of main_cst_7 : StableHlo.TRef sig ⟨S_, .f32⟩) main_call3.v2 id,
    StableHlo.TRef.unary main_call3.v2 main_call3.v3 (broadcastInDim S64x512x512 ![] bcast_S_S64x512x512),
    StableHlo.TRef.binary main_call3.v3 (.of main_v56 : StableHlo.TRef sig ⟨S64x512x512, .f32⟩) main_call3.v4 mulf,
    StableHlo.TRef.ternary main_call3.v1 (.of main_v56 : StableHlo.TRef sig ⟨S64x512x512, .f32⟩) main_call3.v4 main_call3.call0.v0 select,
    StableHlo.unary main_v7 main_v58 (id : (⟨S64x1x512, .f32⟩ : BufTy).Contents (Elt F) → (⟨S64x1x512, .f32⟩ : BufTy).Contents (Elt F)),
    StableHlo.unary main_v58 main_v59 (broadcastInDim S64x512x512 ![0, 1, 2] bcast_S64x1x512_S64x512x512_0_1_2 : (⟨S64x1x512, .f32⟩ : BufTy).Contents (Elt F) → (⟨S64x512x512, .f32⟩ : BufTy).Contents (Elt F)),
    StableHlo.binary main_v57 main_v59 main_v60 (addf : (⟨S64x512x512, .f32⟩ : BufTy).Contents (Elt F) → (⟨S64x512x512, .f32⟩ : BufTy).Contents (Elt F) → (⟨S64x512x512, .f32⟩ : BufTy).Contents (Elt F)),
    StableHlo.nullary main_cst_8 (constant S_ .f32 0xFF800000#32),
    StableHlo.binary main_v60 main_cst_8 main_v61 ((fun x v => Host.reduce FloatOps.maximumf x v reducesTo_S64x512x512_S64x512_d2 h_S_) : (⟨S64x512x512, .f32⟩ : BufTy).Contents (Elt F) → (⟨S_, .f32⟩ : BufTy).Contents (Elt F) → (⟨S64x512, .f32⟩ : BufTy).Contents (Elt F)),
    StableHlo.nullary main_cst_9 (constant S_ .f32 0xFF800000#32),
    StableHlo.unary main_cst_9 main_v62 (broadcastInDim S64x512 ![] bcast_S_S64x512 : (⟨S_, .f32⟩ : BufTy).Contents (Elt F) → (⟨S64x512, .f32⟩ : BufTy).Contents (Elt F)),
    StableHlo.binary main_v62 main_v61 main_v63 (maximumf : (⟨S64x512, .f32⟩ : BufTy).Contents (Elt F) → (⟨S64x512, .f32⟩ : BufTy).Contents (Elt F) → (⟨S64x512, .f32⟩ : BufTy).Contents (Elt F)),
    StableHlo.unary main_v63 main_v64 (broadcastInDim S64x512x1 ![0, 1] bcast_S64x512_S64x512x1_0_1 : (⟨S64x512, .f32⟩ : BufTy).Contents (Elt F) → (⟨S64x512x1, .f32⟩ : BufTy).Contents (Elt F)),
    StableHlo.unary main_v64 main_v65 (broadcastInDim S64x512x512 ![0, 1, 2] bcast_S64x512x1_S64x512x512_0_1_2 : (⟨S64x512x1, .f32⟩ : BufTy).Contents (Elt F) → (⟨S64x512x512, .f32⟩ : BufTy).Contents (Elt F)),
    StableHlo.binary main_v60 main_v65 main_v66 (subf : (⟨S64x512x512, .f32⟩ : BufTy).Contents (Elt F) → (⟨S64x512x512, .f32⟩ : BufTy).Contents (Elt F) → (⟨S64x512x512, .f32⟩ : BufTy).Contents (Elt F)),
    StableHlo.unary main_v66 main_v67 (Host.exp : (⟨S64x512x512, .f32⟩ : BufTy).Contents (Elt F) → (⟨S64x512x512, .f32⟩ : BufTy).Contents (Elt F)),
    StableHlo.nullary main_cst_10 (constant S_ .f32 0x00000000#32),
    StableHlo.binary main_v67 main_cst_10 main_v68 ((fun x v => Host.reduceAdd x v reducesTo_S64x512x512_S64x512_d2 h_S_) : (⟨S64x512x512, .f32⟩ : BufTy).Contents (Elt F) → (⟨S_, .f32⟩ : BufTy).Contents (Elt F) → (⟨S64x512, .f32⟩ : BufTy).Contents (Elt F)),
    StableHlo.unary main_v68 main_v69 (broadcastInDim S64x512x1 ![0, 1] bcast_S64x512_S64x512x1_0_1 : (⟨S64x512, .f32⟩ : BufTy).Contents (Elt F) → (⟨S64x512x1, .f32⟩ : BufTy).Contents (Elt F)),
    StableHlo.unary main_v69 main_v70 (broadcastInDim S64x512x512 ![0, 1, 2] bcast_S64x512x1_S64x512x512_0_1_2 : (⟨S64x512x1, .f32⟩ : BufTy).Contents (Elt F) → (⟨S64x512x512, .f32⟩ : BufTy).Contents (Elt F)),
    StableHlo.binary main_v67 main_v70 main_v71 (Host.divf : (⟨S64x512x512, .f32⟩ : BufTy).Contents (Elt F) → (⟨S64x512x512, .f32⟩ : BufTy).Contents (Elt F) → (⟨S64x512x512, .f32⟩ : BufTy).Contents (Elt F)),
    StableHlo.unary main_v44 main_v72 ((transpose S64x512x512 [0, 2, 1] · transposes_S64x512x512_S64x512x512_0_2_1) : (⟨S64x512x512, .f32⟩ : BufTy).Contents (Elt F) → (⟨S64x512x512, .f32⟩ : BufTy).Contents (Elt F)),
    StableHlo.binary main_v71 main_v72 main_v73 ((fun l r => Host.dotGeneral dot_S64x512x512_S64x512x512_S64x512x512_2_1_1_2_0_0 none l r) : (⟨S64x512x512, .f32⟩ : BufTy).Contents (Elt F) → (⟨S64x512x512, .f32⟩ : BufTy).Contents (Elt F) → (⟨S64x512x512, .f32⟩ : BufTy).Contents (Elt F)),
    StableHlo.unary main_arg7 main_v74 (broadcastInDim S1x1x512 ![2] bcast_S512_S1x1x512_2 : (⟨S512, .f32⟩ : BufTy).Contents (Elt F) → (⟨S1x1x512, .f32⟩ : BufTy).Contents (Elt F)),
    StableHlo.unary main_v74 main_v75 (broadcastInDim S64x512x512 ![0, 1, 2] bcast_S1x1x512_S64x512x512_0_1_2 : (⟨S1x1x512, .f32⟩ : BufTy).Contents (Elt F) → (⟨S64x512x512, .f32⟩ : BufTy).Contents (Elt F)),
    StableHlo.binary main_v73 main_v75 main_v76 (addf : (⟨S64x512x512, .f32⟩ : BufTy).Contents (Elt F) → (⟨S64x512x512, .f32⟩ : BufTy).Contents (Elt F) → (⟨S64x512x512, .f32⟩ : BufTy).Contents (Elt F)),
    StableHlo.TRef.nullary main_call4.cst (constant S_ .f32 0x00000000#32),
    StableHlo.TRef.unary main_call4.cst main_call4.v0 (broadcastInDim S64x512x512 ![] bcast_S_S64x512x512),
    StableHlo.TRef.binary (.of main_v76 : StableHlo.TRef sig ⟨S64x512x512, .f32⟩) main_call4.v0 main_call4.v1 (cmpf .ogt),
    StableHlo.TRef.nullary main_call4.cst_0 (constant S_ .f32 0x00000000#32),
    StableHlo.TRef.unary main_call4.cst_0 main_call4.v2 (broadcastInDim S64x512x512 ![] bcast_S_S64x512x512),
    StableHlo.TRef.binary (.of main_v76 : StableHlo.TRef sig ⟨S64x512x512, .f32⟩) main_call4.v2 main_call4.v3 (cmpf .ogt),
    StableHlo.TRef.nullary main_call4.cst_1 (constant S_ .f32 0x00000000#32),
    StableHlo.TRef.unary main_call4.cst_1 main_call4.call0.v0 id,
    StableHlo.TRef.unary main_call4.call0.v0 main_call4.call0.v1 (broadcastInDim S64x512x512 ![] bcast_S_S64x512x512),
    StableHlo.TRef.ternary main_call4.v3 main_call4.call0.v1 (.of main_v76 : StableHlo.TRef sig ⟨S64x512x512, .f32⟩) main_call4.call0.v2 select,
    StableHlo.TRef.unary main_call4.call0.v2 main_call4.v5 Host.expm1,
    StableHlo.TRef.nullary main_call4.cst_2 (constant S_ .f32 0x3F800000#32),
    StableHlo.TRef.unary main_call4.cst_2 main_call4.v6 (broadcastInDim S64x512x512 ![] bcast_S_S64x512x512),
    StableHlo.TRef.binary main_call4.v6 main_call4.v5 main_call4.v7 mulf,
    StableHlo.TRef.ternary main_call4.v1 (.of main_v76 : StableHlo.TRef sig ⟨S64x512x512, .f32⟩) main_call4.v7 main_call4.call1.v0 select ]

/-- The third step, statements %78 to %112 likewise: sixty operations. -/
def ops3 : List (HloOp τ sig (Elt F)) :=
  [ StableHlo.unary main_v77 main_v78 ((transpose S64x512x512 [0, 2, 1] · transposes_S64x512x512_S64x512x512_0_2_1) : (⟨S64x512x512, .f32⟩ : BufTy).Contents (Elt F) → (⟨S64x512x512, .f32⟩ : BufTy).Contents (Elt F)),
    StableHlo.binary main_v78 main_arg2 main_v79 ((fun l r => Host.dotGeneral dot_S64x512x512_S512x512_S64x512x512_2_1_01_0_n_n none l r) : (⟨S64x512x512, .f32⟩ : BufTy).Contents (Elt F) → (⟨S512x512, .f32⟩ : BufTy).Contents (Elt F) → (⟨S64x512x512, .f32⟩ : BufTy).Contents (Elt F)),
    StableHlo.binary main_v79 main_arg3 main_v80 ((fun l r => Host.dotGeneral dot_S64x512x512_S512x512_S64x512x512_2_1_01_0_n_n none l r) : (⟨S64x512x512, .f32⟩ : BufTy).Contents (Elt F) → (⟨S512x512, .f32⟩ : BufTy).Contents (Elt F) → (⟨S64x512x512, .f32⟩ : BufTy).Contents (Elt F)),
    StableHlo.unary main_arg4 main_v81 (broadcastInDim S1x1x512 ![2] bcast_S512_S1x1x512_2 : (⟨S512, .f32⟩ : BufTy).Contents (Elt F) → (⟨S1x1x512, .f32⟩ : BufTy).Contents (Elt F)),
    StableHlo.unary main_v81 main_v82 (broadcastInDim S64x512x512 ![0, 1, 2] bcast_S1x1x512_S64x512x512_0_1_2 : (⟨S1x1x512, .f32⟩ : BufTy).Contents (Elt F) → (⟨S64x512x512, .f32⟩ : BufTy).Contents (Elt F)),
    StableHlo.binary main_v80 main_v82 main_v83 (addf : (⟨S64x512x512, .f32⟩ : BufTy).Contents (Elt F) → (⟨S64x512x512, .f32⟩ : BufTy).Contents (Elt F) → (⟨S64x512x512, .f32⟩ : BufTy).Contents (Elt F)),
    StableHlo.binary main_v79 main_arg5 main_v84 ((fun l r => Host.dotGeneral dot_S64x512x512_S512x512_S64x512x512_2_1_01_0_n_n none l r) : (⟨S64x512x512, .f32⟩ : BufTy).Contents (Elt F) → (⟨S512x512, .f32⟩ : BufTy).Contents (Elt F) → (⟨S64x512x512, .f32⟩ : BufTy).Contents (Elt F)),
    StableHlo.unary main_arg6 main_v85 (broadcastInDim S1x1x512 ![2] bcast_S512_S1x1x512_2 : (⟨S512, .f32⟩ : BufTy).Contents (Elt F) → (⟨S1x1x512, .f32⟩ : BufTy).Contents (Elt F)),
    StableHlo.unary main_v85 main_v86 (broadcastInDim S64x512x512 ![0, 1, 2] bcast_S1x1x512_S64x512x512_0_1_2 : (⟨S1x1x512, .f32⟩ : BufTy).Contents (Elt F) → (⟨S64x512x512, .f32⟩ : BufTy).Contents (Elt F)),
    StableHlo.binary main_v84 main_v86 main_v87 (addf : (⟨S64x512x512, .f32⟩ : BufTy).Contents (Elt F) → (⟨S64x512x512, .f32⟩ : BufTy).Contents (Elt F) → (⟨S64x512x512, .f32⟩ : BufTy).Contents (Elt F)),
    StableHlo.unary main_v83 main_v88 ((transpose S64x512x512 [0, 2, 1] · transposes_S64x512x512_S64x512x512_0_2_1) : (⟨S64x512x512, .f32⟩ : BufTy).Contents (Elt F) → (⟨S64x512x512, .f32⟩ : BufTy).Contents (Elt F)),
    StableHlo.binary main_v88 main_v87 main_v89 (addf : (⟨S64x512x512, .f32⟩ : BufTy).Contents (Elt F) → (⟨S64x512x512, .f32⟩ : BufTy).Contents (Elt F) → (⟨S64x512x512, .f32⟩ : BufTy).Contents (Elt F)),
    StableHlo.nullary main_cst_11 (constant S_ .f32 0x3D3504F3#32),
    StableHlo.unary main_cst_11 main_v90 (broadcastInDim S64x512x512 ![] bcast_S_S64x512x512 : (⟨S_, .f32⟩ : BufTy).Contents (Elt F) → (⟨S64x512x512, .f32⟩ : BufTy).Contents (Elt F)),
    StableHlo.binary main_v89 main_v90 main_v91 (mulf : (⟨S64x512x512, .f32⟩ : BufTy).Contents (Elt F) → (⟨S64x512x512, .f32⟩ : BufTy).Contents (Elt F) → (⟨S64x512x512, .f32⟩ : BufTy).Contents (Elt F)),
    StableHlo.nullary main_cst_12 (constant S_ .f32 0x3E4CCCCD#32),
    StableHlo.TRef.nullary main_call5.cst (constant S_ .f32 0x00000000#32),
    StableHlo.TRef.unary main_call5.cst main_call5.v0 (broadcastInDim S64x512x512 ![] bcast_S_S64x512x512),
    StableHlo.TRef.binary (.of main_v91 : StableHlo.TRef sig ⟨S64x512x512, .f32⟩) main_call5.v0 main_call5.v1 (cmpf .oge),
    StableHlo.TRef.unary (.of main_cst_12 : StableHlo.TRef sig ⟨S_, .f32⟩) main_call5.v2 id,
    StableHlo.TRef.unary main_call5.v2 main_call5.v3 (broadcastInDim S64x512x512 ![] bcast_S_S64x512x512),
    StableHlo.TRef.binary main_call5.v3 (.of main_v91 : StableHlo.TRef sig ⟨S64x512x512, .f32⟩) main_call5.v4 mulf,
    StableHlo.TRef.ternary main_call5.v1 (.of main_v91 : StableHlo.TRef sig ⟨S64x512x512, .f32⟩) main_call5.v4 main_call5.call0.v0 select,
    StableHlo.unary main_v7 main_v93 (id : (⟨S64x1x512, .f32⟩ : BufTy).Contents (Elt F) → (⟨S64x1x512, .f32⟩ : BufTy).Contents (Elt F)),
    StableHlo.unary main_v93 main_v94 (broadcastInDim S64x512x512 ![0, 1, 2] bcast_S64x1x512_S64x512x512_0_1_2 : (⟨S64x1x512, .f32⟩ : BufTy).Contents (Elt F) → (⟨S64x512x512, .f32⟩ : BufTy).Contents (Elt F)),
    StableHlo.binary main_v92 main_v94 main_v95 (addf : (⟨S64x512x512, .f32⟩ : BufTy).Contents (Elt F) → (⟨S64x512x512, .f32⟩ : BufTy).Contents (Elt F) → (⟨S64x512x512, .f32⟩ : BufTy).Contents (Elt F)),
    StableHlo.nullary main_cst_13 (constant S_ .f32 0xFF800000#32),
    StableHlo.binary main_v95 main_cst_13 main_v96 ((fun x v => Host.reduce FloatOps.maximumf x v reducesTo_S64x512x512_S64x512_d2 h_S_) : (⟨S64x512x512, .f32⟩ : BufTy).Contents (Elt F) → (⟨S_, .f32⟩ : BufTy).Contents (Elt F) → (⟨S64x512, .f32⟩ : BufTy).Contents (Elt F)),
    StableHlo.nullary main_cst_14 (constant S_ .f32 0xFF800000#32),
    StableHlo.unary main_cst_14 main_v97 (broadcastInDim S64x512 ![] bcast_S_S64x512 : (⟨S_, .f32⟩ : BufTy).Contents (Elt F) → (⟨S64x512, .f32⟩ : BufTy).Contents (Elt F)),
    StableHlo.binary main_v97 main_v96 main_v98 (maximumf : (⟨S64x512, .f32⟩ : BufTy).Contents (Elt F) → (⟨S64x512, .f32⟩ : BufTy).Contents (Elt F) → (⟨S64x512, .f32⟩ : BufTy).Contents (Elt F)),
    StableHlo.unary main_v98 main_v99 (broadcastInDim S64x512x1 ![0, 1] bcast_S64x512_S64x512x1_0_1 : (⟨S64x512, .f32⟩ : BufTy).Contents (Elt F) → (⟨S64x512x1, .f32⟩ : BufTy).Contents (Elt F)),
    StableHlo.unary main_v99 main_v100 (broadcastInDim S64x512x512 ![0, 1, 2] bcast_S64x512x1_S64x512x512_0_1_2 : (⟨S64x512x1, .f32⟩ : BufTy).Contents (Elt F) → (⟨S64x512x512, .f32⟩ : BufTy).Contents (Elt F)),
    StableHlo.binary main_v95 main_v100 main_v101 (subf : (⟨S64x512x512, .f32⟩ : BufTy).Contents (Elt F) → (⟨S64x512x512, .f32⟩ : BufTy).Contents (Elt F) → (⟨S64x512x512, .f32⟩ : BufTy).Contents (Elt F)),
    StableHlo.unary main_v101 main_v102 (Host.exp : (⟨S64x512x512, .f32⟩ : BufTy).Contents (Elt F) → (⟨S64x512x512, .f32⟩ : BufTy).Contents (Elt F)),
    StableHlo.nullary main_cst_15 (constant S_ .f32 0x00000000#32),
    StableHlo.binary main_v102 main_cst_15 main_v103 ((fun x v => Host.reduceAdd x v reducesTo_S64x512x512_S64x512_d2 h_S_) : (⟨S64x512x512, .f32⟩ : BufTy).Contents (Elt F) → (⟨S_, .f32⟩ : BufTy).Contents (Elt F) → (⟨S64x512, .f32⟩ : BufTy).Contents (Elt F)),
    StableHlo.unary main_v103 main_v104 (broadcastInDim S64x512x1 ![0, 1] bcast_S64x512_S64x512x1_0_1 : (⟨S64x512, .f32⟩ : BufTy).Contents (Elt F) → (⟨S64x512x1, .f32⟩ : BufTy).Contents (Elt F)),
    StableHlo.unary main_v104 main_v105 (broadcastInDim S64x512x512 ![0, 1, 2] bcast_S64x512x1_S64x512x512_0_1_2 : (⟨S64x512x1, .f32⟩ : BufTy).Contents (Elt F) → (⟨S64x512x512, .f32⟩ : BufTy).Contents (Elt F)),
    StableHlo.binary main_v102 main_v105 main_v106 (Host.divf : (⟨S64x512x512, .f32⟩ : BufTy).Contents (Elt F) → (⟨S64x512x512, .f32⟩ : BufTy).Contents (Elt F) → (⟨S64x512x512, .f32⟩ : BufTy).Contents (Elt F)),
    StableHlo.unary main_v79 main_v107 ((transpose S64x512x512 [0, 2, 1] · transposes_S64x512x512_S64x512x512_0_2_1) : (⟨S64x512x512, .f32⟩ : BufTy).Contents (Elt F) → (⟨S64x512x512, .f32⟩ : BufTy).Contents (Elt F)),
    StableHlo.binary main_v106 main_v107 main_v108 ((fun l r => Host.dotGeneral dot_S64x512x512_S64x512x512_S64x512x512_2_1_1_2_0_0 none l r) : (⟨S64x512x512, .f32⟩ : BufTy).Contents (Elt F) → (⟨S64x512x512, .f32⟩ : BufTy).Contents (Elt F) → (⟨S64x512x512, .f32⟩ : BufTy).Contents (Elt F)),
    StableHlo.unary main_arg7 main_v109 (broadcastInDim S1x1x512 ![2] bcast_S512_S1x1x512_2 : (⟨S512, .f32⟩ : BufTy).Contents (Elt F) → (⟨S1x1x512, .f32⟩ : BufTy).Contents (Elt F)),
    StableHlo.unary main_v109 main_v110 (broadcastInDim S64x512x512 ![0, 1, 2] bcast_S1x1x512_S64x512x512_0_1_2 : (⟨S1x1x512, .f32⟩ : BufTy).Contents (Elt F) → (⟨S64x512x512, .f32⟩ : BufTy).Contents (Elt F)),
    StableHlo.binary main_v108 main_v110 main_v111 (addf : (⟨S64x512x512, .f32⟩ : BufTy).Contents (Elt F) → (⟨S64x512x512, .f32⟩ : BufTy).Contents (Elt F) → (⟨S64x512x512, .f32⟩ : BufTy).Contents (Elt F)),
    StableHlo.TRef.nullary main_call6.cst (constant S_ .f32 0x00000000#32),
    StableHlo.TRef.unary main_call6.cst main_call6.v0 (broadcastInDim S64x512x512 ![] bcast_S_S64x512x512),
    StableHlo.TRef.binary (.of main_v111 : StableHlo.TRef sig ⟨S64x512x512, .f32⟩) main_call6.v0 main_call6.v1 (cmpf .ogt),
    StableHlo.TRef.nullary main_call6.cst_0 (constant S_ .f32 0x00000000#32),
    StableHlo.TRef.unary main_call6.cst_0 main_call6.v2 (broadcastInDim S64x512x512 ![] bcast_S_S64x512x512),
    StableHlo.TRef.binary (.of main_v111 : StableHlo.TRef sig ⟨S64x512x512, .f32⟩) main_call6.v2 main_call6.v3 (cmpf .ogt),
    StableHlo.TRef.nullary main_call6.cst_1 (constant S_ .f32 0x00000000#32),
    StableHlo.TRef.unary main_call6.cst_1 main_call6.call0.v0 id,
    StableHlo.TRef.unary main_call6.call0.v0 main_call6.call0.v1 (broadcastInDim S64x512x512 ![] bcast_S_S64x512x512),
    StableHlo.TRef.ternary main_call6.v3 main_call6.call0.v1 (.of main_v111 : StableHlo.TRef sig ⟨S64x512x512, .f32⟩) main_call6.call0.v2 select,
    StableHlo.TRef.unary main_call6.call0.v2 main_call6.v5 Host.expm1,
    StableHlo.TRef.nullary main_call6.cst_2 (constant S_ .f32 0x3F800000#32),
    StableHlo.TRef.unary main_call6.cst_2 main_call6.v6 (broadcastInDim S64x512x512 ![] bcast_S_S64x512x512),
    StableHlo.TRef.binary main_call6.v6 main_call6.v5 main_call6.v7 mulf,
    StableHlo.TRef.ternary main_call6.v1 (.of main_v111 : StableHlo.TRef sig ⟨S64x512x512, .f32⟩) main_call6.v7 main_call6.call1.v0 select ]

/-- @main's 192 operations, in order. -/
abbrev ops : List (HloOp τ sig (Elt F)) := ops0 ++ (ops1 ++ (ops2 ++ ops3))

set_option maxRecDepth 8192 in
/-- @main is that straight line: the windows and the functions unfolded at their calls, sequencing reassociated. -/
theorem main_eq (c : Dev nD) : main (F := F) c = seq ops := by
  rw [ops, seq_append, seq_append, seq_append]
  simp only [main, main_part0, main_part1, main_part2, fn_where.body, fn_where_0.body, fn_where_1.body, fn_leaky_relu.body,
    fn_elu.body, ops0, ops1, ops2, ops3, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- A property of every operation of two lines holds of every operation of their concatenation. -/
theorem forall_append {p : HloOp τ sig (Elt F) → Prop} {l₁ l₂ : List (HloOp τ sig (Elt F))} (h₁ : l₁.Forall p) (h₂ : l₂.Forall p) :
    (l₁ ++ l₂).Forall p :=
  List.forall_iff_forall_mem.mpr fun x hx =>
    (List.mem_append.mp hx).elim (List.forall_iff_forall_mem.mp h₁ x) (List.forall_iff_forall_mem.mp h₂ x)

theorem ops0_sub : (ops0 : List (HloOp τ sig (Elt F))).Forall fun op => op.bufs ⊆ tcRefs τ sig :=
  ⟨nullary_bufs_sub .., unary_bufs_sub .., unary_bufs_sub .., unary_bufs_sub .., unary_bufs_sub .., binary_bufs_sub ..,
    nullary_bufs_sub .., nullary_bufs_sub .., unary_bufs_sub .., unary_bufs_sub .., ternary_bufs_sub .., unary_bufs_sub ..⟩

theorem ops1_sub : (ops1 : List (HloOp τ sig (Elt F))).Forall fun op => op.bufs ⊆ tcRefs τ sig :=
  ⟨unary_bufs_sub .., binary_bufs_sub .., binary_bufs_sub .., unary_bufs_sub .., unary_bufs_sub .., binary_bufs_sub ..,
    binary_bufs_sub .., unary_bufs_sub .., unary_bufs_sub .., binary_bufs_sub .., unary_bufs_sub .., binary_bufs_sub ..,
    nullary_bufs_sub .., unary_bufs_sub .., binary_bufs_sub .., nullary_bufs_sub .., nullary_bufs_sub .., unary_bufs_sub ..,
    binary_bufs_sub .., unary_bufs_sub .., unary_bufs_sub .., binary_bufs_sub .., ternary_bufs_sub .., unary_bufs_sub ..,
    unary_bufs_sub .., binary_bufs_sub .., nullary_bufs_sub .., binary_bufs_sub .., nullary_bufs_sub .., unary_bufs_sub ..,
    binary_bufs_sub .., unary_bufs_sub .., unary_bufs_sub .., binary_bufs_sub .., unary_bufs_sub .., nullary_bufs_sub ..,
    binary_bufs_sub .., unary_bufs_sub .., unary_bufs_sub .., binary_bufs_sub .., unary_bufs_sub .., binary_bufs_sub ..,
    unary_bufs_sub .., unary_bufs_sub .., binary_bufs_sub .., nullary_bufs_sub .., unary_bufs_sub .., binary_bufs_sub ..,
    nullary_bufs_sub .., unary_bufs_sub .., binary_bufs_sub .., nullary_bufs_sub .., unary_bufs_sub .., unary_bufs_sub ..,
    ternary_bufs_sub .., unary_bufs_sub .., nullary_bufs_sub .., unary_bufs_sub .., binary_bufs_sub .., ternary_bufs_sub ..⟩

theorem ops2_sub : (ops2 : List (HloOp τ sig (Elt F))).Forall fun op => op.bufs ⊆ tcRefs τ sig :=
  ⟨unary_bufs_sub .., binary_bufs_sub .., binary_bufs_sub .., unary_bufs_sub .., unary_bufs_sub .., binary_bufs_sub ..,
    binary_bufs_sub .., unary_bufs_sub .., unary_bufs_sub .., binary_bufs_sub .., unary_bufs_sub .., binary_bufs_sub ..,
    nullary_bufs_sub .., unary_bufs_sub .., binary_bufs_sub .., nullary_bufs_sub .., nullary_bufs_sub .., unary_bufs_sub ..,
    binary_bufs_sub .., unary_bufs_sub .., unary_bufs_sub .., binary_bufs_sub .., ternary_bufs_sub .., unary_bufs_sub ..,
    unary_bufs_sub .., binary_bufs_sub .., nullary_bufs_sub .., binary_bufs_sub .., nullary_bufs_sub .., unary_bufs_sub ..,
    binary_bufs_sub .., unary_bufs_sub .., unary_bufs_sub .., binary_bufs_sub .., unary_bufs_sub .., nullary_bufs_sub ..,
    binary_bufs_sub .., unary_bufs_sub .., unary_bufs_sub .., binary_bufs_sub .., unary_bufs_sub .., binary_bufs_sub ..,
    unary_bufs_sub .., unary_bufs_sub .., binary_bufs_sub .., nullary_bufs_sub .., unary_bufs_sub .., binary_bufs_sub ..,
    nullary_bufs_sub .., unary_bufs_sub .., binary_bufs_sub .., nullary_bufs_sub .., unary_bufs_sub .., unary_bufs_sub ..,
    ternary_bufs_sub .., unary_bufs_sub .., nullary_bufs_sub .., unary_bufs_sub .., binary_bufs_sub .., ternary_bufs_sub ..⟩

theorem ops3_sub : (ops3 : List (HloOp τ sig (Elt F))).Forall fun op => op.bufs ⊆ tcRefs τ sig :=
  ⟨unary_bufs_sub .., binary_bufs_sub .., binary_bufs_sub .., unary_bufs_sub .., unary_bufs_sub .., binary_bufs_sub ..,
    binary_bufs_sub .., unary_bufs_sub .., unary_bufs_sub .., binary_bufs_sub .., unary_bufs_sub .., binary_bufs_sub ..,
    nullary_bufs_sub .., unary_bufs_sub .., binary_bufs_sub .., nullary_bufs_sub .., nullary_bufs_sub .., unary_bufs_sub ..,
    binary_bufs_sub .., unary_bufs_sub .., unary_bufs_sub .., binary_bufs_sub .., ternary_bufs_sub .., unary_bufs_sub ..,
    unary_bufs_sub .., binary_bufs_sub .., nullary_bufs_sub .., binary_bufs_sub .., nullary_bufs_sub .., unary_bufs_sub ..,
    binary_bufs_sub .., unary_bufs_sub .., unary_bufs_sub .., binary_bufs_sub .., unary_bufs_sub .., nullary_bufs_sub ..,
    binary_bufs_sub .., unary_bufs_sub .., unary_bufs_sub .., binary_bufs_sub .., unary_bufs_sub .., binary_bufs_sub ..,
    unary_bufs_sub .., unary_bufs_sub .., binary_bufs_sub .., nullary_bufs_sub .., unary_bufs_sub .., binary_bufs_sub ..,
    nullary_bufs_sub .., unary_bufs_sub .., binary_bufs_sub .., nullary_bufs_sub .., unary_bufs_sub .., unary_bufs_sub ..,
    ternary_bufs_sub .., unary_bufs_sub .., nullary_bufs_sub .., unary_bufs_sub .., binary_bufs_sub .., ternary_bufs_sub ..⟩

theorem ops_sub : (ops : List (HloOp τ sig (Elt F))).Forall fun op => op.bufs ⊆ tcRefs τ sig :=
  forall_append ops0_sub (forall_append ops1_sub (forall_append ops2_sub ops3_sub))

theorem ops0_fresh : ∀ op ∈ (ops0 : List (HloOp τ sig (Elt F))), op.fresh = ∅ := by
  intro _ h; unfold ops0 at h; (repeat (cases h with | head => rfl | tail _ h => ?_)); exact nomatch h

theorem ops1_fresh : ∀ op ∈ (ops1 : List (HloOp τ sig (Elt F))), op.fresh = ∅ := by
  intro _ h; unfold ops1 at h; (repeat (cases h with | head => rfl | tail _ h => ?_)); exact nomatch h

theorem ops2_fresh : ∀ op ∈ (ops2 : List (HloOp τ sig (Elt F))), op.fresh = ∅ := by
  intro _ h; unfold ops2 at h; (repeat (cases h with | head => rfl | tail _ h => ?_)); exact nomatch h

theorem ops3_fresh : ∀ op ∈ (ops3 : List (HloOp τ sig (Elt F))), op.fresh = ∅ := by
  intro _ h; unfold ops3 at h; (repeat (cases h with | head => rfl | tail _ h => ?_)); exact nomatch h

theorem ops_fresh : ∀ op ∈ (ops : List (HloOp τ sig (Elt F))), op.fresh = ∅ := fun op h =>
  (List.mem_append.mp h).elim (ops0_fresh op) fun h => (List.mem_append.mp h).elim (ops1_fresh op) fun h =>
    (List.mem_append.mp h).elim (ops2_fresh op) (ops3_fresh op)

/-! ## The fold, stretch by stretch

For an arbitrary valuation: what each stretch leaves in its last buffer, as the whole-array function of what it reads, and
that it leaves the buffers the later stretches read as they were. -/

/-- The fold over two lines run one after the other is the second's over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

theorem ops0_main_arg0 (V : Valuation τ sig (Elt F)) : after ops0 V (main_arg0 : DevRef τ sig) = V (main_arg0 : DevRef τ sig) := by
  unfold ops0; after_results_simp

theorem ops0_main_arg1 (V : Valuation τ sig (Elt F)) : after ops0 V (main_arg1 : DevRef τ sig) = V (main_arg1 : DevRef τ sig) := by
  unfold ops0; after_results_simp

theorem ops0_main_arg2 (V : Valuation τ sig (Elt F)) : after ops0 V (main_arg2 : DevRef τ sig) = V (main_arg2 : DevRef τ sig) := by
  unfold ops0; after_results_simp

theorem ops0_main_arg3 (V : Valuation τ sig (Elt F)) : after ops0 V (main_arg3 : DevRef τ sig) = V (main_arg3 : DevRef τ sig) := by
  unfold ops0; after_results_simp

theorem ops0_main_arg4 (V : Valuation τ sig (Elt F)) : after ops0 V (main_arg4 : DevRef τ sig) = V (main_arg4 : DevRef τ sig) := by
  unfold ops0; after_results_simp

theorem ops0_main_arg5 (V : Valuation τ sig (Elt F)) : after ops0 V (main_arg5 : DevRef τ sig) = V (main_arg5 : DevRef τ sig) := by
  unfold ops0; after_results_simp

theorem ops0_main_arg6 (V : Valuation τ sig (Elt F)) : after ops0 V (main_arg6 : DevRef τ sig) = V (main_arg6 : DevRef τ sig) := by
  unfold ops0; after_results_simp

theorem ops0_main_arg7 (V : Valuation τ sig (Elt F)) : after ops0 V (main_arg7 : DevRef τ sig) = V (main_arg7 : DevRef τ sig) := by
  unfold ops0; after_results_simp

theorem ops1_main_arg0 (V : Valuation τ sig (Elt F)) : after ops1 V (main_arg0 : DevRef τ sig) = V (main_arg0 : DevRef τ sig) := by
  unfold ops1; after_results_simp

theorem ops1_main_arg1 (V : Valuation τ sig (Elt F)) : after ops1 V (main_arg1 : DevRef τ sig) = V (main_arg1 : DevRef τ sig) := by
  unfold ops1; after_results_simp

theorem ops1_main_arg2 (V : Valuation τ sig (Elt F)) : after ops1 V (main_arg2 : DevRef τ sig) = V (main_arg2 : DevRef τ sig) := by
  unfold ops1; after_results_simp

theorem ops1_main_arg3 (V : Valuation τ sig (Elt F)) : after ops1 V (main_arg3 : DevRef τ sig) = V (main_arg3 : DevRef τ sig) := by
  unfold ops1; after_results_simp

theorem ops1_main_arg4 (V : Valuation τ sig (Elt F)) : after ops1 V (main_arg4 : DevRef τ sig) = V (main_arg4 : DevRef τ sig) := by
  unfold ops1; after_results_simp

theorem ops1_main_arg5 (V : Valuation τ sig (Elt F)) : after ops1 V (main_arg5 : DevRef τ sig) = V (main_arg5 : DevRef τ sig) := by
  unfold ops1; after_results_simp

theorem ops1_main_arg6 (V : Valuation τ sig (Elt F)) : after ops1 V (main_arg6 : DevRef τ sig) = V (main_arg6 : DevRef τ sig) := by
  unfold ops1; after_results_simp

theorem ops1_main_arg7 (V : Valuation τ sig (Elt F)) : after ops1 V (main_arg7 : DevRef τ sig) = V (main_arg7 : DevRef τ sig) := by
  unfold ops1; after_results_simp

theorem ops1_main_v7 (V : Valuation τ sig (Elt F)) : after ops1 V (main_v7 : DevRef τ sig) = V (main_v7 : DevRef τ sig) := by
  unfold ops1; after_results_simp

theorem ops2_main_arg0 (V : Valuation τ sig (Elt F)) : after ops2 V (main_arg0 : DevRef τ sig) = V (main_arg0 : DevRef τ sig) := by
  unfold ops2; after_results_simp

theorem ops2_main_arg1 (V : Valuation τ sig (Elt F)) : after ops2 V (main_arg1 : DevRef τ sig) = V (main_arg1 : DevRef τ sig) := by
  unfold ops2; after_results_simp

theorem ops2_main_arg2 (V : Valuation τ sig (Elt F)) : after ops2 V (main_arg2 : DevRef τ sig) = V (main_arg2 : DevRef τ sig) := by
  unfold ops2; after_results_simp

theorem ops2_main_arg3 (V : Valuation τ sig (Elt F)) : after ops2 V (main_arg3 : DevRef τ sig) = V (main_arg3 : DevRef τ sig) := by
  unfold ops2; after_results_simp

theorem ops2_main_arg4 (V : Valuation τ sig (Elt F)) : after ops2 V (main_arg4 : DevRef τ sig) = V (main_arg4 : DevRef τ sig) := by
  unfold ops2; after_results_simp

theorem ops2_main_arg5 (V : Valuation τ sig (Elt F)) : after ops2 V (main_arg5 : DevRef τ sig) = V (main_arg5 : DevRef τ sig) := by
  unfold ops2; after_results_simp

theorem ops2_main_arg6 (V : Valuation τ sig (Elt F)) : after ops2 V (main_arg6 : DevRef τ sig) = V (main_arg6 : DevRef τ sig) := by
  unfold ops2; after_results_simp

theorem ops2_main_arg7 (V : Valuation τ sig (Elt F)) : after ops2 V (main_arg7 : DevRef τ sig) = V (main_arg7 : DevRef τ sig) := by
  unfold ops2; after_results_simp

theorem ops2_main_v7 (V : Valuation τ sig (Elt F)) : after ops2 V (main_v7 : DevRef τ sig) = V (main_v7 : DevRef τ sig) := by
  unfold ops2; after_results_simp

theorem ops3_main_arg0 (V : Valuation τ sig (Elt F)) : after ops3 V (main_arg0 : DevRef τ sig) = V (main_arg0 : DevRef τ sig) := by
  unfold ops3; after_results_simp

theorem ops3_main_arg1 (V : Valuation τ sig (Elt F)) : after ops3 V (main_arg1 : DevRef τ sig) = V (main_arg1 : DevRef τ sig) := by
  unfold ops3; after_results_simp

theorem ops3_main_arg2 (V : Valuation τ sig (Elt F)) : after ops3 V (main_arg2 : DevRef τ sig) = V (main_arg2 : DevRef τ sig) := by
  unfold ops3; after_results_simp

theorem ops3_main_arg3 (V : Valuation τ sig (Elt F)) : after ops3 V (main_arg3 : DevRef τ sig) = V (main_arg3 : DevRef τ sig) := by
  unfold ops3; after_results_simp

theorem ops3_main_arg4 (V : Valuation τ sig (Elt F)) : after ops3 V (main_arg4 : DevRef τ sig) = V (main_arg4 : DevRef τ sig) := by
  unfold ops3; after_results_simp

theorem ops3_main_arg5 (V : Valuation τ sig (Elt F)) : after ops3 V (main_arg5 : DevRef τ sig) = V (main_arg5 : DevRef τ sig) := by
  unfold ops3; after_results_simp

theorem ops3_main_arg6 (V : Valuation τ sig (Elt F)) : after ops3 V (main_arg6 : DevRef τ sig) = V (main_arg6 : DevRef τ sig) := by
  unfold ops3; after_results_simp

theorem ops3_main_arg7 (V : Valuation τ sig (Elt F)) : after ops3 V (main_arg7 : DevRef τ sig) = V (main_arg7 : DevRef τ sig) := by
  unfold ops3; after_results_simp

set_option maxRecDepth 8192 in
/-- The mask's buffer after the first stretch. -/
theorem mask_eq (V : Valuation τ sig (Elt F)) : after ops0 V (main_v7 : DevRef τ sig) = RFn.rMask (V (main_arg1 : DevRef τ sig)) := by
  unfold ops0; after_results_simp
  rfl

attribute [local irreducible] Host.reduce Host.reduceAdd transpose broadcastInDim in
set_option maxRecDepth 8192 in
set_option maxHeartbeats 1000000 in
/-- Step 1's result buffer after its stretch: the step's function of the weights, the mask's buffer and the step's input buffer.
    The reductions and the layout operations are kept folded: the equation never looks inside them. -/
theorem step1_eq (V : Valuation τ sig (Elt F)) :
    after ops1 V (main_v42 : DevRef τ sig)
      = RFn.rStep (V (main_arg2 : DevRef τ sig)) (V (main_arg3 : DevRef τ sig)) (V (main_arg5 : DevRef τ sig)) (V (main_arg4 : DevRef τ sig)) (V (main_arg6 : DevRef τ sig)) (V (main_arg7 : DevRef τ sig))
          (V (main_v7 : DevRef τ sig)) (V (main_arg0 : DevRef τ sig)) := by
  unfold ops1; after_results_simp
  rfl

attribute [local irreducible] Host.reduce Host.reduceAdd transpose broadcastInDim in
set_option maxRecDepth 8192 in
set_option maxHeartbeats 1000000 in
/-- Step 2's result buffer after its stretch: the step's function of the weights, the mask's buffer and the step's input buffer.
    The reductions and the layout operations are kept folded: the equation never looks inside them. -/
theorem step2_eq (V : Valuation τ sig (Elt F)) :
    after ops2 V (main_v77 : DevRef τ sig)
      = RFn.rStep (V (main_arg2 : DevRef τ sig)) (V (main_arg3 : DevRef τ sig)) (V (main_arg5 : DevRef τ sig)) (V (main_arg4 : DevRef τ sig)) (V (main_arg6 : DevRef τ sig)) (V (main_arg7 : DevRef τ sig))
          (V (main_v7 : DevRef τ sig)) (V (main_v42 : DevRef τ sig)) := by
  unfold ops2; after_results_simp
  rfl

attribute [local irreducible] Host.reduce Host.reduceAdd transpose broadcastInDim in
set_option maxRecDepth 8192 in
set_option maxHeartbeats 1000000 in
/-- Step 3's result buffer after its stretch: the step's function of the weights, the mask's buffer and the step's input buffer.
    The reductions and the layout operations are kept folded: the equation never looks inside them. -/
theorem step3_eq (V : Valuation τ sig (Elt F)) :
    after ops3 V (main_v112 : DevRef τ sig)
      = RFn.rStep (V (main_arg2 : DevRef τ sig)) (V (main_arg3 : DevRef τ sig)) (V (main_arg5 : DevRef τ sig)) (V (main_arg4 : DevRef τ sig)) (V (main_arg6 : DevRef τ sig)) (V (main_arg7 : DevRef τ sig))
          (V (main_v7 : DevRef τ sig)) (V (main_v77 : DevRef τ sig)) := by
  unfold ops3; after_results_simp
  rfl

/-- The result buffer after all of @main: three steps from the input, under the mask of the lengths. -/
theorem result_eq (V : Valuation τ sig (Elt F)) :
    after ops V (main_v112 : DevRef τ sig)
      = RFn.rResult (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) := by
  rw [ops, after_append, after_append, after_append, step3_eq, step2_eq, step1_eq]
  rw [ops2_main_arg2, ops1_main_arg2, ops0_main_arg2, ops2_main_arg3, ops1_main_arg3, ops0_main_arg3, ops2_main_arg4, ops1_main_arg4, ops0_main_arg4,
    ops2_main_arg5, ops1_main_arg5, ops0_main_arg5, ops2_main_arg6, ops1_main_arg6, ops0_main_arg6, ops2_main_arg7, ops1_main_arg7, ops0_main_arg7,
    ops2_main_v7, ops1_main_v7, mask_eq, ops0_main_arg0]
  rfl

theorem arg0_eq (V : Valuation τ sig (Elt F)) : after ops V (main_arg0 : DevRef τ sig) = V (main_arg0 : DevRef τ sig) := by
  rw [ops, after_append, after_append, after_append, ops3_main_arg0, ops2_main_arg0, ops1_main_arg0, ops0_main_arg0]

theorem arg1_eq (V : Valuation τ sig (Elt F)) : after ops V (main_arg1 : DevRef τ sig) = V (main_arg1 : DevRef τ sig) := by
  rw [ops, after_append, after_append, after_append, ops3_main_arg1, ops2_main_arg1, ops1_main_arg1, ops0_main_arg1]

theorem arg2_eq (V : Valuation τ sig (Elt F)) : after ops V (main_arg2 : DevRef τ sig) = V (main_arg2 : DevRef τ sig) := by
  rw [ops, after_append, after_append, after_append, ops3_main_arg2, ops2_main_arg2, ops1_main_arg2, ops0_main_arg2]

theorem arg3_eq (V : Valuation τ sig (Elt F)) : after ops V (main_arg3 : DevRef τ sig) = V (main_arg3 : DevRef τ sig) := by
  rw [ops, after_append, after_append, after_append, ops3_main_arg3, ops2_main_arg3, ops1_main_arg3, ops0_main_arg3]

theorem arg4_eq (V : Valuation τ sig (Elt F)) : after ops V (main_arg4 : DevRef τ sig) = V (main_arg4 : DevRef τ sig) := by
  rw [ops, after_append, after_append, after_append, ops3_main_arg4, ops2_main_arg4, ops1_main_arg4, ops0_main_arg4]

theorem arg5_eq (V : Valuation τ sig (Elt F)) : after ops V (main_arg5 : DevRef τ sig) = V (main_arg5 : DevRef τ sig) := by
  rw [ops, after_append, after_append, after_append, ops3_main_arg5, ops2_main_arg5, ops1_main_arg5, ops0_main_arg5]

theorem arg6_eq (V : Valuation τ sig (Elt F)) : after ops V (main_arg6 : DevRef τ sig) = V (main_arg6 : DevRef τ sig) := by
  rw [ops, after_append, after_append, after_append, ops3_main_arg6, ops2_main_arg6, ops1_main_arg6, ops0_main_arg6]

theorem arg7_eq (V : Valuation τ sig (Elt F)) : after ops V (main_arg7 : DevRef τ sig) = V (main_arg7 : DevRef τ sig) := by
  rw [ops, after_append, after_append, after_append, ops3_main_arg7, ops2_main_arg7, ops1_main_arg7, ops0_main_arg7]

/-! ## The run -/

/-- Every weakly fair execution of the reference terminates with its result at `rResult` of the arguments and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v112)
        = RFn.rResult (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v112).trans (result_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _),
      (h c main_arg6).trans (arg6_eq _), (h c main_arg7).trans (arg7_eq _)⟩)
    (run_seq scopedRefs_eq scopedSems_eq defs main (fun _ => ops) main_eq (fun _ => ops_sub) m ρ (fun _ => ops_fresh))

end Cert.ReferenceIdeal.RRun

end
-- ==== Proof.RVal.lean ====
/-
  What the reference's result holds at an index, on the extended reals: three steps of the specification from the
  batch entry's input matrix, under the entry's column mask.
-/
import proofs.«421348_j78365973282924_2_alg».proof.Proof.RFn
import proofs.«421348_j78365973282924_2_alg».proof.Proof.Spec
import Idealize.ShloMosaic.Lib.ValueIdx
import Idealize.ShloMosaic.Lib.Pipeline.Value
import Idealize.ShloMosaic.Lib.ValueLayout
import Idealize.ShloMosaic.Lib.IdealHost
import Idealize.ShloMosaic.Lib.StackMember
import Idealize.ShloMosaic.PureOps.Ideal.Laws
import Idealize.ShloMosaic.PureOps.Reduce

noncomputable section

namespace Cert.ReferenceIdeal.RVal

open Idealize.ShloMosaic Idealize.ShloMosaic.ValueIdx Cert.ReferenceIdeal Cert.ReferenceIdeal.Facts₀ Cert.ReferenceIdeal.Facts
open Cert.ReferenceIdeal.RFn Cert.Spec

variable [Facts]

/-! ## Constants -/

/-- The word of −∞. -/
theorem ofBits_negInf : Ideal.ofBits .f32 0xFF800000#32 = ⊥ := by simp [Ideal.ofBits, Ideal.ieee]

/-- The word of 1. -/
theorem ofBits_one : Ideal.ofBits .f32 0x3F800000#32 = 1 := by
  simp [Ideal.ofBits, Ideal.ieee, -EReal.coe_mul]; norm_num

/-! ## Layout operations at an index -/

/-- A scalar constant spread over the whole array reads its value everywhere. -/
theorem splat3_apply (w : BitVec 32) (b : Fin 64) (p q : Fin 512) :
    splat3 (F := Ideal) w (ix3 b p q) = Ideal.ofBits .f32 w :=
  broadcastInDim_apply _ _ _ (ix3 b p q) ix0 (fun a => a.elim0)

/-- The same for the [64, 512] spread. -/
theorem splat2_apply (w : BitVec 32) (b : Fin 64) (p : Fin 512) :
    broadcastInDim S64x512 ![] bcast_S_S64x512 (constant (F := Ideal) S_ .f32 w) (ix2 b p) = Ideal.ofBits .f32 w :=
  broadcastInDim_apply _ _ _ (ix2 b p) ix0 (fun a => a.elim0)

/-- A vector spread along the last axis reads its entry at the last coordinate. -/
theorem lastAxis_apply (v : T1 Ideal) (b : Fin 64) (p q : Fin 512) : lastAxis v (ix3 b p q) = v (ix1 q) := by
  refine (broadcastInDim_apply _ _ _ (ix3 b p q) (ix3 (0 : Fin 1) (0 : Fin 1) q) (fun a => ?_)).trans ?_
  · match a with
    | ⟨0, _⟩ => rfl
    | ⟨1, _⟩ => rfl
    | ⟨2, _⟩ => rfl
  · refine broadcastInDim_apply _ _ _ (ix3 (0 : Fin 1) (0 : Fin 1) q) (ix1 q) (fun a => ?_)
    match a with
    | ⟨0, _⟩ => rfl

/-- An array of [64, 512] spread along a new last axis reads its entry at the first two coordinates. -/
theorem keepLast_apply (v : (⟨S64x512, .f32⟩ : BufTy).Contents (Elt Ideal)) (b : Fin 64) (p q : Fin 512) :
    keepLast v (ix3 b p q) = v (ix2 b p) := by
  refine (broadcastInDim_apply _ _ _ (ix3 b p q) (ix3 b p (0 : Fin 1)) (fun a => ?_)).trans ?_
  · match a with
    | ⟨0, _⟩ => rfl
    | ⟨1, _⟩ => rfl
    | ⟨2, _⟩ => rfl
  · refine broadcastInDim_apply _ _ _ (ix3 b p (0 : Fin 1)) (ix2 b p) (fun a => ?_)
    match a with
    | ⟨0, _⟩ => rfl
    | ⟨1, _⟩ => rfl

/-- The mask spread over the rows reads the entry's mask at the column. -/
theorem maskRows_apply (mask : TM Ideal) (b : Fin 64) (p q : Fin 512) :
    broadcastInDim S64x512x512 ![0, 1, 2] bcast_S64x1x512_S64x512x512_0_1_2 mask (ix3 b p q) = mask (ix3 b (0 : Fin 1) q) := by
  refine broadcastInDim_apply _ _ _ (ix3 b p q) (ix3 b (0 : Fin 1) q) (fun a => ?_)
  match a with
  | ⟨0, _⟩ => rfl
  | ⟨1, _⟩ => rfl
  | ⟨2, _⟩ => rfl

/-- Swapping the last two axes swaps the last two coordinates. -/
theorem swap_apply (x : T3 Ideal) (b : Fin 64) (p q : Fin 512) :
    transpose S64x512x512 [0, 2, 1] x transposes_S64x512x512_S64x512x512_0_2_1 (ix3 b p q) = x (ix3 b q p) := by
  refine transpose_apply _ x _ (ix3 b p q) (ix3 b q p) (fun a => ?_)
  match a with
  | ⟨0, _⟩ => rfl
  | ⟨1, _⟩ => rfl
  | ⟨2, _⟩ => rfl

/-! ## The mask -/

/-- The column numbers spread over the batch read the column. -/
theorem cols_apply (b : Fin 64) (j : Fin 512) :
    broadcastInDim S64x512 ![0, 1] bcast_S1x512_S64x512_0_1 (broadcastInDim S1x512 ![1] bcast_S512_S1x512_1 (iotaInDim S512 32 0)) (ix2 b j)
      = BitVec.ofNat 32 j.val := by
  refine (broadcastInDim_apply _ _ _ (ix2 b j) (ix2 (0 : Fin 1) j) (fun a => ?_)).trans ?_
  · match a with
    | ⟨0, _⟩ => rfl
    | ⟨1, _⟩ => rfl
  · refine (broadcastInDim_apply _ _ _ (ix2 (0 : Fin 1) j) (ix1 j) (fun a => ?_)).trans rfl
    match a with
    | ⟨0, _⟩ => rfl

/-- The lengths spread over the columns read the entry's length. -/
theorem lens_apply (len : TL Ideal) (b : Fin 64) (j : Fin 512) :
    broadcastInDim S64x512 ![0, 1] bcast_S64x1_S64x512_0_1 (broadcastInDim S64x1 ![0] bcast_S64_S64x1_0 len) (ix2 b j) = len (ix1 b) := by
  refine (broadcastInDim_apply _ _ _ (ix2 b j) (ix2 b (0 : Fin 1)) (fun a => ?_)).trans ?_
  · match a with
    | ⟨0, _⟩ => rfl
    | ⟨1, _⟩ => rfl
  · refine broadcastInDim_apply _ _ _ (ix2 b (0 : Fin 1)) (ix1 b) (fun a => ?_)
    match a with
    | ⟨0, _⟩ => rfl

/-- The mask at a batch entry and a column. -/
theorem rMask_apply (len : TL Ideal) (b : Fin 64) (j : Fin 512) :
    rMask (F := Ideal) len (ix3 b (0 : Fin 1) j) = maskOf (len (ix1 b)) j := by
  unfold rMask
  refine (broadcastInDim_apply _ _ _ (ix3 b (0 : Fin 1) j) (ix2 b j) (fun a => ?_)).trans ?_
  · match a with
    | ⟨0, _⟩ => rfl
    | ⟨1, _⟩ => rfl
  · rw [select_apply, splat2_apply, splat2_apply, Ideal.ofBits_zero_f32, ofBits_negInf]
    unfold maskOf
    show Scalar.select (IntOp.cmpi .slt _ _) _ _ = _
    rw [cols_apply, lens_apply]

/-! ## The two products at an index -/

/-- The weight product's dimension numbers: the left operand's last axis against the right operand's last axis. -/
abbrev dW := dot_S64x512x512_S512x512_S64x512x512_2_1_01_0_n_n

theorem lhs_dW_0 (i : S64x512x512.Idx) (q : dW.contr.Idx) : (dW.lhsIdx i q 0).val = (i 0).val := by
  unfold DotDims.lhsIdx
  rw [dif_neg (show ¬(0 : Fin S64x512x512.rank) ∈ dW.lhsBatch from List.not_mem_nil),
    dif_pos (show (0 : Fin S64x512x512.rank) ∈ dW.lhsNonContracting from List.mem_cons_self)]
  rfl
theorem lhs_dW_1 (i : S64x512x512.Idx) (q : dW.contr.Idx) : (dW.lhsIdx i q 1).val = (i 1).val := by
  unfold DotDims.lhsIdx
  rw [dif_neg (show ¬(1 : Fin S64x512x512.rank) ∈ dW.lhsBatch from List.not_mem_nil),
    dif_pos (show (1 : Fin S64x512x512.rank) ∈ dW.lhsNonContracting from List.mem_cons_of_mem _ List.mem_cons_self)]
  rfl
theorem lhs_dW_2 (i : S64x512x512.Idx) (q : dW.contr.Idx) : (dW.lhsIdx i q 2).val = (q ⟨0, Nat.one_pos⟩).val :=
  dW.lhsIdx_val_of_single rfl i q
theorem rhs_dW_0 (i : S64x512x512.Idx) (q : dW.contr.Idx) : (dW.rhsIdx i q 0).val = (i 2).val := by
  unfold DotDims.rhsIdx
  rw [dif_neg (show ¬(0 : Fin S512x512.rank) ∈ dW.rhsBatch from List.not_mem_nil),
    dif_pos (show (0 : Fin S512x512.rank) ∈ dW.rhsNonContracting from List.mem_cons_self)]
  rfl
theorem rhs_dW_1 (i : S64x512x512.Idx) (q : dW.contr.Idx) : (dW.rhsIdx i q 1).val = (q ⟨0, Nat.one_pos⟩).val :=
  dW.rhsIdx_val_of_single rfl i q

/-- The weight product at an index: the sum over the shared last coordinate. -/
theorem dotW_apply (A : FVec Ideal S64x512x512 .f32) (B : FVec Ideal S512x512 .f32) (b : Fin 64) (p q : Fin 512) :
    Host.dotGeneral (F := Ideal) dW none A B (ix3 b p q) = ∑ n : Fin 512, A (ix3 b p n) * B (ix2 q n) := by
  show FloatOps.dotGeneral dW none _ A B (ix3 b p q) = _
  rw [Ideal.dotGeneral_apply, ← Equiv.sum_comp (contrEquiv1 dW 512 rfl rfl).symm]
  refine Finset.sum_congr rfl fun k _ => ?_
  have hk := contrEquiv1_symm_val dW 512 rfl rfl k
  have el : dW.lhsIdx (ix3 b p q) ((contrEquiv1 dW 512 rfl rfl).symm k) = ix3 b p k := funext fun a => Fin.ext (by
    match a with
    | ⟨0, _⟩ => exact lhs_dW_0 _ _
    | ⟨1, _⟩ => exact lhs_dW_1 _ _
    | ⟨2, _⟩ => exact (lhs_dW_2 _ _).trans hk)
  have er : dW.rhsIdx (ix3 b p q) ((contrEquiv1 dW 512 rfl rfl).symm k) = ix2 q k := funext fun a => Fin.ext (by
    match a with
    | ⟨0, _⟩ => exact rhs_dW_0 _ _
    | ⟨1, _⟩ => exact (rhs_dW_1 _ _).trans hk)
  rw [el, er]

/-- The batched product at an index: per batch entry, the sum over the left operand's last and the right operand's
    middle coordinate. -/
theorem dotB_apply (A B : FVec Ideal S64x512x512 .f32) (b : Fin 64) (p q : Fin 512) :
    Host.dotGeneral (F := Ideal) dot_S64x512x512_S64x512x512_S64x512x512_2_1_1_2_0_0 none A B (ix3 b p q)
      = ∑ n : Fin 512, A (ix3 b p n) * B (ix3 b n q) :=
  StackMember.dotGeneral_stack_apply dot_S64x512x512_S64x512x512_S64x512x512_2_1_1_2_0_0_wf none A B b p q

/-! ## The two reductions along the last axis -/

/-- A reduced index with the last coordinate put back. -/
theorem lift_last (h : S64x512x512.Reduces [2] S64x512) (b : Fin 64) (p k : Fin 512) :
    h.lift (ix2 b p) k = ix3 b p k :=
  funext fun a => Fin.ext (by
    match a with
    | ⟨0, _⟩ => rfl
    | ⟨1, _⟩ => rfl
    | ⟨2, _⟩ => rfl)

/-- The maximum along the last axis, from −∞, is the row's maximum. -/
theorem reduceMax_apply (s : T3 Ideal) (b : Fin 64) (p : Fin 512) :
    Host.reduce FloatOps.maximumf s (constant (F := Ideal) S_ .f32 0xFF800000#32) reducesTo_S64x512x512_S64x512_d2 h_S_ (ix2 b p)
      = rowMax (fun k => s (ix3 b p k)) := by
  have h : S64x512x512.Reduces [2] S64x512 := by decide
  refine (Host.reduce_eq_fold_single (α := Ideal .f32) FloatOps.maximumf s _ reducesTo_S64x512x512_S64x512_d2 h h_S_ (ix2 b p)).trans ?_
  unfold rowMax
  show Finset.fold max (Ideal.ofBits .f32 0xFF800000#32) _ _ = _
  rw [ofBits_negInf]
  congr 1
  funext k
  exact congrArg s (lift_last h b p k)

/-- The sum along the last axis, from 0. -/
theorem reduceSum_apply (x : T3 Ideal) (b : Fin 64) (p : Fin 512) :
    Host.reduceAdd x (constant (F := Ideal) S_ .f32 0x00000000#32) reducesTo_S64x512x512_S64x512_d2 h_S_ (ix2 b p)
      = ∑ k : Fin 512, x (ix3 b p k) := by
  have h : S64x512x512.Reduces [2] S64x512 := by decide
  show Ideal.hostReduceAdd reducesTo_S64x512x512_S64x512_d2 x (Ideal.ofBits .f32 0x00000000#32) (ix2 b p) = _
  rw [Ideal.hostReduceAdd_single _ h, Ideal.ofBits_zero_f32, zero_add]
  exact Finset.sum_congr rfl fun k _ => congrArg x (lift_last h b p k)

/-! ## The step's operations at an index -/

/-- h at (b, d, m) is the specification's hT at (m, d) of the batch entry's matrix. -/
theorem rH_apply (wa : T2 Ideal) (x : T3 Ideal) (b : Fin 64) (p q : Fin 512) :
    rH wa x (ix3 b p q) = hT (fun m n => wa (ix2 m n)) (fun n e => x (ix3 b n e)) q p := by
  unfold rH hT
  refine (dotW_apply _ _ b p q).trans ?_
  refine Finset.sum_congr rfl fun n _ => ?_
  rw [swap_apply, mul_comm]

/-- The scaled logits at an index. -/
theorem rZ_apply (wb wc : T2 Ideal) (bb bc : T1 Ideal) (h : T3 Ideal) (b : Fin 64) (p q : Fin 512) :
    rZ wb wc bb bc h (ix3 b p q)
      = zR scale (fun i m => wb (ix2 i m)) (fun i m => wc (ix2 i m)) (fun i => bb (ix1 i)) (fun i => bc (ix1 i))
          (fun m e => h (ix3 b e m)) p q := by
  unfold rZ zR
  rw [mulf_apply, addf_apply, swap_apply, addf_apply, addf_apply, lastAxis_apply, lastAxis_apply, splat3_apply]
  rw [dotW_apply, dotW_apply]
  rfl

/-- The leaky rectifier as the reference writes it. -/
theorem leaky_scalar (x : EReal) :
    Scalar.select (Ideal.cmp .oge x (Ideal.ofBits .f32 0x00000000#32)) x (Ideal.ofBits .f32 0x3E4CCCCD#32 * x) = leaky slope x := by
  unfold leaky Cert.Spec.slope
  rw [Ideal.ofBits_zero_f32, mul_comm]

/-- A scalar spread over the whole array, whatever the scalar's term. -/
theorem splatAny_apply (c : (⟨S_, .f32⟩ : BufTy).Contents (Elt Ideal)) (b : Fin 64) (p q : Fin 512) :
    broadcastInDim S64x512x512 ![] bcast_S_S64x512x512 c (ix3 b p q) = c ix0 :=
  broadcastInDim_apply _ _ _ (ix3 b p q) ix0 (fun a => a.elim0)

/-- The masked rectified logits at an index. -/
theorem rS_apply (mask : TM Ideal) (z : T3 Ideal) (b : Fin 64) (p q : Fin 512) :
    rS mask z (ix3 b p q) = leaky slope (z (ix3 b p q)) + mask (ix3 b (0 : Fin 1) q) := by
  unfold rS
  rw [addf_apply, select_apply, cmpf_apply, mulf_apply, splat3_apply, splatAny_apply, maskRows_apply]
  exact congrArg (· + mask (ix3 b (0 : Fin 1) q)) (leaky_scalar (z (ix3 b p q)))

/-- The softmax-weighted sum with the bias at an index. -/
theorem rO_apply (bias : T1 Ideal) (h s : T3 Ideal) (b : Fin 64) (p q : Fin 512) :
    rO bias h s (ix3 b p q)
      = (∑ j : Fin 512, soft (fun j' => s (ix3 b p j')) j * h (ix3 b q j)) + bias (ix1 q) := by
  unfold rO
  dsimp only
  rw [addf_apply, lastAxis_apply, dotB_apply]
  refine congrArg (· + bias (ix1 q)) (Finset.sum_congr rfl fun j _ => ?_)
  rw [swap_apply]
  refine congrArg (· * h (ix3 b q j)) ?_
  unfold soft
  show Ideal.div (Ideal.exp (_ - _)) _ = _
  rw [keepLast_apply, keepLast_apply, maximumf_apply, splat2_apply, ofBits_negInf, max_eq_right bot_le, reduceMax_apply,
    reduceSum_apply]
  refine congrArg (Ideal.div _) (Finset.sum_congr rfl fun k _ => ?_)
  show Ideal.exp (_ - _) = _
  rw [keepLast_apply, maximumf_apply, splat2_apply, ofBits_negInf, max_eq_right bot_le, reduceMax_apply]

/-- The exponential linear unit as the reference writes it. -/
theorem elu_scalar (x : EReal) :
    Scalar.select (Ideal.cmp .ogt x 0) x (1 * (Ideal.exp (Scalar.select (Ideal.cmp .ogt x 0) 0 x) - 1)) = elu x := by
  unfold elu
  by_cases hx : 0 < x
  · have hc : Ideal.cmp .ogt x 0 = 1#1 := by simp [Ideal.cmp, hx]
    rw [hc, select_one, select_one]
  · have hc : Ideal.cmp .ogt x 0 = 0#1 := by simp [Ideal.cmp, hx]
    rw [hc, select_zero, select_zero, select_zero, one_mul, min_eq_left (not_lt.mp hx)]

/-- The exponential linear unit at an index. -/
theorem rElu_apply (o : T3 Ideal) (b : Fin 64) (p q : Fin 512) : rElu o (ix3 b p q) = elu (o (ix3 b p q)) := by
  unfold rElu
  rw [select_apply, cmpf_apply, mulf_apply, splat3_apply, splat3_apply, Ideal.ofBits_zero_f32, ofBits_one]
  show Scalar.select _ _ (1 * (Ideal.exp (Scalar.select _ _ _) - 1)) = _
  rw [cmpf_apply, splat3_apply, splatAny_apply]
  show Scalar.select (Ideal.cmp .ogt _ 0) _
    (1 * (Ideal.exp (Scalar.select (Ideal.cmp .ogt _ (Ideal.ofBits .f32 0x00000000#32)) (Ideal.ofBits .f32 0x00000000#32) _) - 1)) = _
  rw [Ideal.ofBits_zero_f32]
  exact elu_scalar _

/-! ## The step and the result -/

/-- One step at an index: the specification's step of the batch entry's matrix. -/
theorem rStep_apply (wa wb wc : T2 Ideal) (bb bc bias : T1 Ideal) (mask : TM Ideal) (x : T3 Ideal) (b : Fin 64) (i d : Fin 512) :
    rStep wa wb wc bb bc bias mask x (ix3 b i d)
      = stepR scale slope (fun p q => wa (ix2 p q)) (fun p q => wb (ix2 p q)) (fun p q => wc (ix2 p q))
          (fun p => bb (ix1 p)) (fun p => bc (ix1 p)) (fun p => bias (ix1 p)) (fun j => mask (ix3 b (0 : Fin 1) j))
          (fun n e => x (ix3 b n e)) i d := by
  unfold rStep stepR attend
  rw [rElu_apply, rO_apply]
  simp only [rS_apply, rZ_apply, rH_apply]

/-- The result at an index. -/
theorem rResult_apply (x : T3 Ideal) (len : TL Ideal) (wa wb : T2 Ideal) (bb : T1 Ideal) (wc : T2 Ideal) (bc bias : T1 Ideal)
    (b : Fin 64) (i d : Fin 512) :
    rResult x len wa wb bb wc bc bias (ix3 b i d)
      = iter3 (stepR scale slope (fun p q => wa (ix2 p q)) (fun p q => wb (ix2 p q)) (fun p q => wc (ix2 p q))
          (fun p => bb (ix1 p)) (fun p => bc (ix1 p)) (fun p => bias (ix1 p)) (maskOf (len (ix1 b))))
          (fun n e => x (ix3 b n e)) i d := by
  unfold rResult iter3
  simp only [rStep_apply, rMask_apply]

end Cert.ReferenceIdeal.RVal

end
-- ==== Proof.lean ====
/-
  The certificate's claims.

  Both idealized programs compute, for each batch entry b, three attention steps from the entry's 512 × 512 input
  matrix x: with hT = Wa · x, logits z, the leaky rectifier, the entry's column mask (0 before the entry's length, −∞
  after), a softmax along rows, the weighted sum with hT, a bias and the exponential linear unit. The kernel multiplies
  the weights Wb, Wc and the biases bb, bc by the scale c = f32(512^(-1/2)) beforehand and handles two entries per grid
  point; the reference multiplies the summed logits by c. Since c is a nonnegative real, c · (u + v) = c · u + c · v and
  c · ∑ f = ∑ c · f hold for all extended reals, so the logits agree and with them every later value (Proof/Spec.lean).
  The kernel's −1e30 mask constant is named −∞, which is the reference's mask value.

  The kernel's result array is read off the generated frame run (Proof/KBlock.lean: one grid point's block;
  Proof/KArr.lean: the array and the run), the reference's off its operations (Proof/RRun.lean), each then at an index
  (Proof/KStep.lean, Proof/RVal.lean) as the specification's step.
-/
import proofs.«421348_j78365973282924_2_alg».proof.Defs
import proofs.«421348_j78365973282924_2_alg».proof.Proof.Gen.Kernel
import proofs.«421348_j78365973282924_2_alg».proof.Proof.Gen.Kernel.Frame
import proofs.«421348_j78365973282924_2_alg».proof.Proof.Gen.KernelIdeal
import proofs.«421348_j78365973282924_2_alg».proof.Proof.Gen.KernelIdeal.Frame
import proofs.«421348_j78365973282924_2_alg».proof.Proof.Gen.ReferenceIdeal
import proofs.«421348_j78365973282924_2_alg».proof.Proof.Gen.Pre_finite_inputs
import proofs.«421348_j78365973282924_2_alg».proof.Proof.Spec
import proofs.«421348_j78365973282924_2_alg».proof.Proof.KArr
import proofs.«421348_j78365973282924_2_alg».proof.Proof.RRun
import proofs.«421348_j78365973282924_2_alg».proof.Proof.RVal
import Idealize.ShloMosaic.Adequacy
import Idealize.ShloMosaic.Init

noncomputable section

namespace Cert.Proof

open Idealize.ShloMosaic Idealize.ShloMosaic.TcCoe Idealize.SL.Sem Idealize.ShloMosaic.ValueIdx

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

/-- No index map of the kernel reads the table of lengths, so the pipeline asks nothing of its contents. -/
theorem frame_k : Cert.frame_Kernel := fun m ρ _ => Cert.Kernel.Gen.frame m ρ trivial

theorem frame_ki : Cert.frame_KernelIdeal := fun m ρ _ => Cert.KernelIdeal.Gen.frame m ρ trivial

/-- The reference's run with the result dropped. -/
theorem frame_ri : Cert.frame_ReferenceIdeal := fun m ρ _ =>
  (θ_run Cert.ReferenceIdeal.defs _ _).mono (fun _ h c => (h c).2) (Cert.ReferenceIdeal.RRun.run (F := Ideal) m ρ)

/-- The two ledger entries: the table gives "neg_big" the value −∞. -/
theorem preserves : Cert.preserves_Kernel_KernelIdeal :=
  ⟨IdealRules.named_const.statement Cert.KernelIdeal.κ "neg_big" .f32 0xF149F2CA#32 ⊥ rfl,
   IdealRules.named_const.statement Cert.KernelIdeal.κ "neg_big" .f32 0xF149F2CA#32 ⊥ rfl⟩

/-- The reference's function of the kernel's argument arrays is the kernel's result array: index by index both are
    three steps of the specification, in the two arrangements the scale's distributivity joins. -/
theorem result_eq (m : (ℓ : Loc Cert.KernelIdeal.nD Cert.KernelIdeal.τ Cert.KernelIdeal.sig) → Buf (Elt Ideal) ℓ) (c : Dev Cert.KernelIdeal.nD) :
    Cert.ReferenceIdeal.RFn.rResult (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
        (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      = Cert.KernelIdeal.KArr.G m c := by
  funext y
  obtain ⟨b, p, d, rfl⟩ : ∃ (b : Fin 64) (p d : Fin 512), y = ix3 b p d := ⟨y 0, y 1, y 2, eq_ix3 y⟩
  rw [Cert.ReferenceIdeal.RVal.rResult_apply]
  refine Eq.trans ?_ (Cert.KernelIdeal.KArr.G_apply m c b p d).symm
  refine congrFun (congrFun (congrArg (fun f => Cert.Spec.iter3 f _) ?_) p) d
  funext x
  exact (Cert.Spec.stepK_scaled Cert.Spec.slope _ _ _ _ _ _ _ x).symm

theorem algebraic : Cert.algebraic_KernelIdeal_ReferenceIdeal := by
  intro m ρ m' ρ' _ hagree
  refine ⟨fun c => Cert.KernelIdeal.KArr.G m c, Cert.KernelIdeal.KArr.run m ρ, ?_⟩
  refine (θ_run Cert.ReferenceIdeal.defs _ _).mono (fun _ h c => ⟨(h c).1.trans ?_, (h c).2⟩)
    (Cert.ReferenceIdeal.RRun.run (F := Ideal) m' ρ')
  obtain ⟨h0, h1, h2, h3, h4, h5, h6, h7⟩ := hagree c
  rw [h0, h1, h2, h3, h4, h5, h6, h7]
  exact result_eq m c

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
